-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S384x256 : Shape := ⟨2, ![384, 256]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S256x256 : S_.BroadcastsInDim S256x256 (![] : Fin 0 → Fin S256x256.rank)
  reducesTo_S256x256_S_d0_1 : S256x256.ReducesTo [0, 1] S_
  bcast_S_S320000 : S_.BroadcastsInDim S320000 (![] : Fin 0 → Fin S320000.rank)
  reducesTo_S320000_S_d0 : S320000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg2 : IVec S320000 32) (main_arg3 : IVec S320000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 4294947296#32
  let main_v89 : IVec S320000 32 := broadcastInDim S320000 ![] bcast_S_S320000 main_c_34
  let main_v90 : IVec S320000 1 := cmpi .sge main_arg2 main_v89
  let main_c_35 : IVec S_ 32 := constantI S_ 32 20000#32
  let main_v91 : IVec S320000 32 := broadcastInDim S320000 ![] bcast_S_S320000 main_c_35
  let main_v92 : IVec S320000 1 := cmpi .slt main_arg2 main_v91
  let main_v93 : IVec S320000 1 := andi main_v90 main_v92
  let main_c_36 : IVec S_ 1 := constantI S_ 1 1#1
  let main_v94 : IVec S_ 1 := (fun x v => Host.reduce IntOp.andi x v reducesTo_S320000_S_d0 h_S_) main_v93 main_c_36
  let main_v95 : IVec S_ 1 := andi main_v88 main_v94
  let main_c_37 : IVec S_ 32 := constantI S_ 32 4294947296#32
  let main_v96 : IVec S320000 32 := broadcastInDim S320000 ![] bcast_S_S320000 main_c_37
  let main_v97 : IVec S320000 1 := cmpi .sge main_arg3 main_v96
  let main_c_38 : IVec S_ 32 := constantI S_ 32 20000#32
  let main_v98 : IVec S320000 32 := broadcastInDim S320000 ![] bcast_S_S320000 main_c_38
  let main_v99 : IVec S320000 1 := cmpi .slt main_arg3 main_v98
  let main_v100 : IVec S320000 1 := andi main_v97 main_v99
  let main_c_39 : IVec S_ 1 := constantI S_ 1 1#1
  let main_v101 : IVec S_ 1 := (fun x v => Host.reduce IntOp.andi x v reducesTo_S320000_S_d0 h_S_) main_v100 main_c_39
  fn_part6 (F := F) main_v95 main_v101

def fn_part4 {F : FTy → Type} [FloatOps F] (main_arg2 : IVec S320000 32) (main_arg3 : IVec S320000 32) (main_arg16 : FVec F S256x256 .f32) (main_arg17 : FVec F S256 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg18
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_v83 main_v84 main_cst_32

def fn_part3 {F : FTy → Type} [FloatOps F] (main_arg2 : IVec S320000 32) (main_arg3 : IVec S320000 32) (main_arg13 : FVec F S256 .f32) (main_arg14 : FVec F S256x128 .f32) (main_arg15 : FVec F S128 .f32) (main_arg16 : FVec F S256x256 .f32) (main_arg17 : FVec F S256 .f32) (main_arg18 : FVec F S256x128 .f32) (main_arg19 : FVec F S128 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_arg19 main_v63 main_v67

def fn_part2 {F : FTy → Type} [FloatOps F] (main_arg2 : IVec S320000 32) (main_arg3 : IVec S320000 32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S256x256 .f32) (main_arg17 : FVec F S256 .f32) (main_arg18 : FVec F S256x128 .f32) (main_arg19 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x256 .f32 := Host.absf main_arg12
  let main_cst_18 : FVec F S_ .f32 := constant S_ .f32 0x7F800000#32
  let main_v50 : FVec F S384x256 .f32 := broadcastInDim S384x256 ![] bcast_S_S384x256 main_cst_18
  fn_part3 (F := F) main_arg2 main_arg3 main_arg13 main_arg14 main_arg15 main_arg16 main_arg17 main_arg18 main_arg19 main_v48 main_v49 main_v50

def fn_part1 {F : FTy → Type} [FloatOps F] (main_arg2 : IVec S320000 32) (main_arg3 : IVec S320000 32) (main_arg6 : FVec F S256x128 .f32) (main_arg7 : FVec F S128 .f32) (main_arg8 : FVec F S128x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S256x256 .f32) (main_arg17 : FVec F S256 .f32) (main_arg18 : FVec F S256x128 .f32) (main_arg19 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_v33

def fn {F : FTy → Type} [FloatOps F] (main_arg0 : FVec F S20000x128 .f32) (main_arg1 : FVec F S320000x128 .f32) (main_arg2 : IVec S320000 32) (main_arg3 : IVec S320000 32) (main_arg4 : FVec F S128x256 .f32) (main_arg5 : FVec F S256 .f32) (main_arg6 : FVec F S256x128 .f32) (main_arg7 : FVec F S128 .f32) (main_arg8 : FVec F S128x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S256x256 .f32) (main_arg17 : FVec F S256 .f32) (main_arg18 : FVec F S256x128 .f32) (main_arg19 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_v13 main_v16
-- ==== Kernel.lean ====
abbrev S20000x128 : Shape := ⟨2, ![20000, 128]⟩
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S384x256 : Shape := ⟨2, ![384, 256]⟩
abbrev S256x256 : Shape := ⟨2, ![256, 256]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S20000 : Shape := ⟨1, ![20000]⟩
abbrev S40000 : Shape := ⟨1, ![40000]⟩

abbrev nBuf : Space → Nat
  | .hbm => 136
  | .vmem => 66
  | .smem => 0
  | _ => 0

abbrev hbmTy0_0 (i : Nat) : BufTy := match i % 128 with
  | 0 => ⟨S20000x128, .f32⟩
  | 1 => ⟨S320000x128, .f32⟩
  | 2 => ⟨S320000, .i32⟩
  | 3 => ⟨S320000, .i32⟩
  | 4 => ⟨S128x256, .f32⟩
  | 5 => ⟨S256, .f32⟩
  | 6 => ⟨S256x128, .f32⟩
  | 7 => ⟨S128, .f32⟩
  | 8 => ⟨S128x256, .f32⟩
  | 9 => ⟨S256, .f32⟩
  | 10 => ⟨S256x128, .f32⟩
  | 11 => ⟨S128, .f32⟩
  | 12 => ⟨S384x256, .f32⟩
  | 13 => ⟨S256, .f32⟩
  | 14 => ⟨S256x128, .f32⟩
  | 15 => ⟨S128, .f32⟩
  | 16 => ⟨S256x256, .f32⟩
  | 17 => ⟨S256, .f32⟩
  | 18 => ⟨S256x128, .f32⟩
  | 19 => ⟨S128, .f32⟩
  | 20 => ⟨S20000x128, .f32⟩
  | 21 => ⟨S320000x128, .f32⟩
  | 22 => ⟨S128x256, .f32⟩
  | 23 => ⟨S128x256, .f32⟩
  | 24 => ⟨S128x256, .f32⟩
  | 25 => ⟨S128x256, .f32⟩
  | 26 => ⟨S128x256, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S1, .i32⟩
  | 36 => ⟨S_, .i32⟩
  | 37 => ⟨S320000x1, .i32⟩
  | 38 => ⟨S320000x1, .i1⟩
  | 39 => ⟨S1x1, .i32⟩
  | 40 => ⟨S320000x1, .i32⟩
  | 41 => ⟨S320000x1, .i1⟩
  | 42 => ⟨S320000x1, .i1⟩
  | 43 => ⟨S_, .i1⟩
  | 44 => ⟨S320000, .i1⟩
  | 45 => ⟨S320000x128, .f32⟩
  | 46 => ⟨S320000x128, .i1⟩
  | 47 => ⟨S_, .f32⟩
  | 48 => ⟨S320000x128, .f32⟩
  | 49 => ⟨S320000x128, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S1, .i32⟩
  | 59 => ⟨S_, .i32⟩
  | 60 => ⟨S320000x1, .i32⟩
  | 61 => ⟨S320000x1, .i1⟩
  | 62 => ⟨S1x1, .i32⟩
  | 63 => ⟨S320000x1, .i32⟩
  | 64 => ⟨S320000x1, .i1⟩
  | 65 => ⟨S320000x1, .i1⟩
  | 66 => ⟨S_, .i1⟩
  | 67 => ⟨S320000, .i1⟩
  | 68 => ⟨S320000x128, .f32⟩
  | 69 => ⟨S320000x128, .i1⟩
  | 70 => ⟨S_, .f32⟩
  | 71 => ⟨S320000x128, .f32⟩
  | 72 => ⟨S320000x128, .f32⟩
  | 73 => ⟨S320000x128, .f32⟩
  | 74 => ⟨S_, .f32⟩
  | 75 => ⟨S20000x128, .f32⟩
  | 76 => ⟨S320000x1, .i32⟩
  | 77 => ⟨S20000x128, .f32⟩
  | 78 => ⟨S20000x128, .f32⟩
  | 79 => ⟨S_, .f32⟩
  | 80 => ⟨S20000, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S1, .i32⟩
  | 90 => ⟨S_, .i32⟩
  | 91 => ⟨S320000x1, .i32⟩
  | 92 => ⟨S320000x1, .i1⟩
  | 93 => ⟨S1x1, .i32⟩
  | 94 => ⟨S320000x1, .i32⟩
  | 95 => ⟨S320000x1, .i1⟩
  | 96 => ⟨S320000x1, .i1⟩
  | 97 => ⟨S_, .i1⟩
  | 98 => ⟨S320000, .i1⟩
  | 99 => ⟨S320000x128, .f32⟩
  | 100 => ⟨S320000x128, .i1⟩
  | 101 => ⟨S_, .f32⟩
  | 102 => ⟨S320000x128, .f32⟩
  | 103 => ⟨S320000x128, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S1, .i32⟩
  | 113 => ⟨S_, .i32⟩
  | 114 => ⟨S320000x1, .i32⟩
  | 115 => ⟨S320000x1, .i1⟩
  | 116 => ⟨S1x1, .i32⟩
  | 117 => ⟨S320000x1, .i32⟩
  | 118 => ⟨S320000x1, .i1⟩
  | 119 => ⟨S320000x1, .i1⟩
  | 120 => ⟨S_, .i1⟩
  | 121 => ⟨S320000, .i1⟩
  | 122 => ⟨S320000x128, .f32⟩
  | 123 => ⟨S320000x128, .i1⟩
  | 124 => ⟨S_, .f32⟩
  | 125 => ⟨S320000x128, .f32⟩
  | 126 => ⟨S320000x128, .f32⟩
  | 127 => ⟨S320000x128, .f32⟩
  | _ => ⟨S20000x128, .f32⟩

abbrev hbmTy0_1 (i : Nat) : BufTy := match i % 128 with
  | 0 => ⟨S_, .f32⟩
  | 1 => ⟨S20000x128, .f32⟩
  | 2 => ⟨S320000x1, .i32⟩
  | 3 => ⟨S20000x128, .f32⟩
  | 4 => ⟨S20000x128, .f32⟩
  | 5 => ⟨S_, .f32⟩
  | 6 => ⟨S20000, .f32⟩
  | 7 => ⟨S40000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S256, .f32⟩
  | .local _ .vmem, ⟨26, _⟩ => ⟨S256x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x256, .f32⟩
  | .local _ .vmem, ⟨35, _⟩ => ⟨S128x256, .f32⟩
  | .local _ .vmem, ⟨36, _⟩ => ⟨S256, .f32⟩
  | .local _ .vmem, ⟨37, _⟩ => ⟨S256x128, .f32⟩
  | .local _ .vmem, ⟨38, _⟩ => ⟨S128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x256, .f32⟩
  | .local _ .vmem, ⟨48, _⟩ => ⟨S128x256, .f32⟩
  | .local _ .vmem, ⟨49, _⟩ => ⟨S128x256, .f32⟩
  | .local _ .vmem, ⟨50, _⟩ => ⟨S256, .f32⟩
  | .local _ .vmem, ⟨51, _⟩ => ⟨S256x128, .f32⟩
  | .local _ .vmem, ⟨52, _⟩ => ⟨S128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S128x256, .f32⟩
  | .local _ .vmem, ⟨60, _⟩ => ⟨S128x256, .f32⟩
  | .local _ .vmem, ⟨61, _⟩ => ⟨S256, .f32⟩
  | .local _ .vmem, ⟨62, _⟩ => ⟨S256x128, .f32⟩
  | .local _ .vmem, ⟨63, _⟩ => ⟨S128, .f32⟩
  | .local _ .vmem, ⟨64, _⟩ => ⟨S2000x128, .f32⟩
  | .local _ .vmem, ⟨65, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v7 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v8 : Ref sig .tc := ⟨.hbm, 72, rfl⟩
abbrev main_v9 : Ref sig .tc := ⟨.hbm, 73, rfl⟩
abbrev main_cst : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_cst_0 : Ref sig .tc := ⟨.hbm, 79, rfl⟩
abbrev main_v14 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v15 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v16 : Ref sig .tc := ⟨.hbm, 126, rfl⟩
abbrev main_v17 : Ref sig .tc := ⟨.hbm, 127, rfl⟩
abbrev main_cst_1 : Ref sig .tc := ⟨.hbm, 128, rfl⟩
abbrev main_v18 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev main_cst_2 : Ref sig .tc := ⟨.hbm, 133, rfl⟩
abbrev main_v22 : Ref sig .tc := ⟨.hbm, 134, rfl⟩
abbrev main_v23 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg9_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem9_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S384x256_S128x256_0_0 : S384x256.Slices ![0, 0] S128x256
  slices_S384x256_S128x256_128_0 : S384x256.Slices ![128, 0] S128x256
  slices_S384x256_S128x256_256_0 : S384x256.Slices ![256, 0] S128x256
  slices_S256x256_S128x256_0_0 : S256x256.Slices ![0, 0] S128x256
  slices_S256x256_S128x256_128_0 : S256x256.Slices ![128, 0] S128x256
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  shapeCasts_S2000x128_S2000x128 : S2000x128.ShapeCasts S2000x128
  shapeCasts_S128x256_S128x256 : S128x256.ShapeCasts S128x256
  bcast_S_S20000x128 : S_.BroadcastsInDim S20000x128 (![] : Fin 0 → Fin S20000x128.rank)
  reducesTo_S20000x128_S20000_d1 : S20000x128.ReducesTo [1] S20000
  concatenates_S20000_S20000_S40000_d0 : Shape.Concatenates [S20000, S20000] S40000 0
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S320000x128.size a
  hwx1_0 : ∀ i : grid1.Coords, EltTy.bits .f32 = 32 ∨ (Rect.block (s := S320000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S320000x128.size a
  hwx1_5 : ∀ i : grid1.Coords, EltTy.bits .f32 = 32 ∨ (Rect.block (s := S320000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S320000x128.size a
  hwx2_0 : ∀ i : grid2.Coords, EltTy.bits .f32 = 32 ∨ (Rect.block (s := S320000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S320000x128.size a
  hwx2_1 : ∀ i : grid2.Coords, EltTy.bits .f32 = 32 ∨ (Rect.block (s := S320000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S320000x128.size a
  hwx2_2 : ∀ i : grid2.Coords, EltTy.bits .f32 = 32 ∨ (Rect.block (s := S320000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S320000x128.size a
  hwx2_9 : ∀ i : grid2.Coords, EltTy.bits .f32 = 32 ∨ (Rect.block (s := S320000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S20000x128.size a
  hwx3_7 : ∀ i : grid3.Coords, EltTy.bits .f32 = 32 ∨ (Rect.block (s := S20000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S320000x128.size a
  hwx4_0 : ∀ i : grid4.Coords, EltTy.bits .f32 = 32 ∨ (Rect.block (s := S320000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S320000x128.size a
  hwx4_1 : ∀ i : grid4.Coords, EltTy.bits .f32 = 32 ∨ (Rect.block (s := S320000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S320000x128.size a
  hwx4_2 : ∀ i : grid4.Coords, EltTy.bits .f32 = 32 ∨ (Rect.block (s := S320000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S320000x128.size a
  hwx4_9 : ∀ i : grid4.Coords, EltTy.bits .f32 = 32 ∨ (Rect.block (s := S320000x128) S2000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S20000x128.size a
  hwx5_1 : ∀ i : grid5.Coords, EltTy.bits .f32 = 32 ∨ (Rect.block (s := S20000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x256.size a ≤ S128x256.size a
  hwx5_3 : ∀ i : grid5.Coords, EltTy.bits .f32 = 32 ∨ (Rect.block (s := S128x256) S128x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S20000x128.size a
  hwx5_7 : ∀ i : grid5.Coords, EltTy.bits .f32 = 32 ∨ (Rect.block (s := S20000x128) S2000x128.size (cc5_transform_7 i) (hinb5_7 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v13) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v15) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v2) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg15) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v17) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v13) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S128x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg19) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v21) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S20000x128 : Shape := ⟨2, ![20000, 128]⟩
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S384x256 : Shape := ⟨2, ![384, 256]⟩
abbrev S256x256 : Shape := ⟨2, ![256, 256]⟩
abbrev S20000x256 : Shape := ⟨2, ![20000, 256]⟩
abbrev S1x256 : Shape := ⟨2, ![1, 256]⟩
abbrev S_ : Shape := ⟨0, ![]⟩
abbrev S1x128 : Shape := ⟨2, ![1, 128]⟩
abbrev S320000x256 : Shape := ⟨2, ![320000, 256]⟩
abbrev S320000x1 : Shape := ⟨2, ![320000, 1]⟩
abbrev S320000x384 : Shape := ⟨2, ![320000, 384]⟩
abbrev S20000 : Shape := ⟨1, ![20000]⟩
abbrev S40000 : Shape := ⟨1, ![40000]⟩

abbrev nBuf : Space → Nat
  | .hbm => 157
  | .vmem => 0
  | .smem => 0
  | _ => 0

abbrev hbmTy0_0 (i : Nat) : BufTy := match i % 128 with
  | 0 => ⟨S20000x128, .f32⟩
  | 1 => ⟨S320000x128, .f32⟩
  | 2 => ⟨S320000, .i32⟩
  | 3 => ⟨S320000, .i32⟩
  | 4 => ⟨S128x256, .f32⟩
  | 5 => ⟨S256, .f32⟩
  | 6 => ⟨S256x128, .f32⟩
  | 7 => ⟨S128, .f32⟩
  | 8 => ⟨S128x256, .f32⟩
  | 9 => ⟨S256, .f32⟩
  | 10 => ⟨S256x128, .f32⟩
  | 11 => ⟨S128, .f32⟩
  | 12 => ⟨S384x256, .f32⟩
  | 13 => ⟨S256, .f32⟩
  | 14 => ⟨S256x128, .f32⟩
  | 15 => ⟨S128, .f32⟩
  | 16 => ⟨S256x256, .f32⟩
  | 17 => ⟨S256, .f32⟩
  | 18 => ⟨S256x128, .f32⟩
  | 19 => ⟨S128, .f32⟩
  | 20 => ⟨S20000x256, .f32⟩
  | 21 => ⟨S1x256, .f32⟩
  | 22 => ⟨S20000x256, .f32⟩
  | 23 => ⟨S20000x256, .f32⟩
  | 24 => ⟨S_, .f32⟩
  | 25 => ⟨S20000x256, .f32⟩
  | 26 => ⟨S20000x256, .f32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S20000x128, .f32⟩
  | 33 => ⟨S20000x128, .f32⟩
  | 34 => ⟨S320000x256, .f32⟩
  | 35 => ⟨S1x256, .f32⟩
  | 36 => ⟨S320000x256, .f32⟩
  | 37 => ⟨S320000x256, .f32⟩
  | 38 => ⟨S_, .f32⟩
  | 39 => ⟨S320000x256, .f32⟩
  | 40 => ⟨S320000x256, .f32⟩
  | 41 => ⟨S320000x128, .f32⟩
  | 42 => ⟨S1x128, .f32⟩
  | 43 => ⟨S320000x128, .f32⟩
  | 44 => ⟨S320000x128, .f32⟩
  | 45 => ⟨S_, .f32⟩
  | 46 => ⟨S320000x128, .f32⟩
  | 47 => ⟨S320000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x384, .f32⟩
  | 67 => ⟨S320000x256, .f32⟩
  | 68 => ⟨S1x256, .f32⟩
  | 69 => ⟨S320000x256, .f32⟩
  | 70 => ⟨S320000x256, .f32⟩
  | 71 => ⟨S_, .f32⟩
  | 72 => ⟨S320000x256, .f32⟩
  | 73 => ⟨S320000x256, .f32⟩
  | 74 => ⟨S320000x128, .f32⟩
  | 75 => ⟨S1x128, .f32⟩
  | 76 => ⟨S320000x128, .f32⟩
  | 77 => ⟨S320000x128, .f32⟩
  | 78 => ⟨S_, .f32⟩
  | 79 => ⟨S320000x128, .f32⟩
  | 80 => ⟨S320000x128, .f32⟩
  | 81 => ⟨S_, .f32⟩
  | 82 => ⟨S20000x128, .f32⟩
  | 83 => ⟨S320000x1, .i32⟩
  | 84 => ⟨S20000x128, .f32⟩
  | 85 => ⟨S20000x256, .f32⟩
  | 86 => ⟨S20000x256, .f32⟩
  | 87 => ⟨S1x256, .f32⟩
  | 88 => ⟨S20000x256, .f32⟩
  | 89 => ⟨S20000x256, .f32⟩
  | 90 => ⟨S_, .f32⟩
  | 91 => ⟨S20000x256, .f32⟩
  | 92 => ⟨S20000x256, .f32⟩
  | 93 => ⟨S20000x128, .f32⟩
  | 94 => ⟨S1x128, .f32⟩
  | 95 => ⟨S20000x128, .f32⟩
  | 96 => ⟨S20000x128, .f32⟩
  | 97 => ⟨S_, .f32⟩
  | 98 => ⟨S20000x128, .f32⟩
  | 99 => ⟨S20000x128, .f32⟩
  | 100 => ⟨S_, .f32⟩
  | 101 => ⟨S20000, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x128, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x128, .f32⟩
  | 120 => ⟨S320000x384, .f32⟩
  | 121 => ⟨S320000x256, .f32⟩
  | 122 => ⟨S1x256, .f32⟩
  | 123 => ⟨S320000x256, .f32⟩
  | 124 => ⟨S320000x256, .f32⟩
  | 125 => ⟨S_, .f32⟩
  | 126 => ⟨S320000x256, .f32⟩
  | 127 => ⟨S320000x256, .f32⟩
  | _ => ⟨S20000x128, .f32⟩

abbrev hbmTy0_1 (i : Nat) : BufTy := match i % 128 with
  | 0 => ⟨S320000x128, .f32⟩
  | 1 => ⟨S1x128, .f32⟩
  | 2 => ⟨S320000x128, .f32⟩
  | 3 => ⟨S320000x128, .f32⟩
  | 4 => ⟨S_, .f32⟩
  | 5 => ⟨S320000x128, .f32⟩
  | 6 => ⟨S320000x128, .f32⟩
  | 7 => ⟨S_, .f32⟩
  | 8 => ⟨S20000x128, .f32⟩
  | 9 => ⟨S320000x1, .i32⟩
  | 10 => ⟨S20000x128, .f32⟩
  | 11 => ⟨S20000x256, .f32⟩
  | 12 => ⟨S20000x256, .f32⟩
  | 13 => ⟨S1x256, .f32⟩
  | 14 => ⟨S20000x256, .f32⟩
  | 15 => ⟨S20000x256, .f32⟩
  | 16 => ⟨S_, .f32⟩
  | 17 => ⟨S20000x256, .f32⟩
  | 18 => ⟨S20000x256, .f32⟩
  | 19 => ⟨S20000x128, .f32⟩
  | 20 => ⟨S1x128, .f32⟩
  | 21 => ⟨S20000x128, .f32⟩
  | 22 => ⟨S20000x128, .f32⟩
  | 23 => ⟨S_, .f32⟩
  | 24 => ⟨S20000x128, .f32⟩
  | 25 => ⟨S20000x128, .f32⟩
  | 26 => ⟨S_, .f32⟩
  | 27 => ⟨S20000, .f32⟩
  | 28 => ⟨S40000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call3_cst : Ref sig .tc := ⟨.hbm, 45, rfl⟩
abbrev main_call3_v0 : Ref sig .tc := ⟨.hbm, 46, rfl⟩
abbrev main_v19 : Ref sig .tc := ⟨.hbm, 47, rfl⟩
abbrev main_c : Ref sig .tc := ⟨.hbm, 48, rfl⟩
abbrev main_v20 : Ref sig .tc := ⟨.hbm, 49, rfl⟩
abbrev main_v21 : Ref sig .tc := ⟨.hbm, 50, rfl⟩
abbrev main_c_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_1 : Ref sig .tc := ⟨.hbm, 57, rfl⟩
abbrev main_v27 : Ref sig .tc := ⟨.hbm, 58, rfl⟩
abbrev main_v28 : Ref sig .tc := ⟨.hbm, 59, rfl⟩
abbrev main_c_2 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call4_cst : Ref sig .tc := ⟨.hbm, 71, rfl⟩
abbrev main_call4_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call5_cst : Ref sig .tc := ⟨.hbm, 78, rfl⟩
abbrev main_call5_v0 : Ref sig .tc := ⟨.hbm, 79, rfl⟩
abbrev main_v44 : Ref sig .tc := ⟨.hbm, 80, rfl⟩
abbrev main_cst : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call6_cst : Ref sig .tc := ⟨.hbm, 90, rfl⟩
abbrev main_call6_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call7_cst : Ref sig .tc := ⟨.hbm, 97, rfl⟩
abbrev main_call7_v0 : Ref sig .tc := ⟨.hbm, 98, rfl⟩
abbrev main_v58 : Ref sig .tc := ⟨.hbm, 99, rfl⟩
abbrev main_cst_3 : Ref sig .tc := ⟨.hbm, 100, rfl⟩
abbrev main_v59 : Ref sig .tc := ⟨.hbm, 101, rfl⟩
abbrev main_c_4 : Ref sig .tc := ⟨.hbm, 102, rfl⟩
abbrev main_v60 : Ref sig .tc := ⟨.hbm, 103, rfl⟩
abbrev main_v61 : Ref sig .tc := ⟨.hbm, 104, rfl⟩
abbrev main_c_5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_6 : Ref sig .tc := ⟨.hbm, 111, rfl⟩
abbrev main_v67 : Ref sig .tc := ⟨.hbm, 112, rfl⟩
abbrev main_v68 : Ref sig .tc := ⟨.hbm, 113, rfl⟩
abbrev main_c_7 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call8_cst : Ref sig .tc := ⟨.hbm, 125, rfl⟩
abbrev main_call8_v0 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call9_cst : Ref sig .tc := ⟨.hbm, 132, rfl⟩
abbrev main_call9_v0 : Ref sig .tc := ⟨.hbm, 133, rfl⟩
abbrev main_v84 : Ref sig .tc := ⟨.hbm, 134, rfl⟩
abbrev main_cst_8 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call10_cst : Ref sig .tc := ⟨.hbm, 144, rfl⟩
abbrev main_call10_v0 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_call11_cst : Ref sig .tc := ⟨.hbm, 151, rfl⟩
abbrev main_call11_v0 : Ref sig .tc := ⟨.hbm, 152, rfl⟩
abbrev main_v98 : Ref sig .tc := ⟨.hbm, 153, rfl⟩
abbrev main_cst_9 : Ref sig .tc := ⟨.hbm, 154, rfl⟩
abbrev main_v99 : Ref sig .tc := ⟨.hbm, 155, rfl⟩
abbrev main_v100 : Ref sig .tc := ⟨.hbm, 156, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x128_S320000x384_d1 : Shape.Concatenates [S320000x128, S320000x128, S320000x128] S320000x384 1
  concatenates_S20000x128_S20000x128_S20000x256_d1 : Shape.Concatenates [S20000x128, S20000x128] S20000x256 1
  reducesTo_S20000x128_S20000_d1 : S20000x128.ReducesTo [1] S20000
  h_S_ : 0 < S_.numel
  concatenates_S20000_S20000_S40000_d0 : Shape.Concatenates [S20000, S20000] S40000 0
  dot_S20000x128_S128x256_S20000x256_1_0_0_1_n_n_wf : DotDims.WF S20000x128 S128x256 S20000x256 [1] [0] [0] [1] [] []
  dot_S20000x256_S256x128_S20000x128_1_0_0_1_n_n_wf : DotDims.WF S20000x256 S256x128 S20000x128 [1] [0] [0] [1] [] []
  dot_S320000x128_S128x256_S320000x256_1_0_0_1_n_n_wf : DotDims.WF S320000x128 S128x256 S320000x256 [1] [0] [0] [1] [] []
  dot_S320000x256_S256x128_S320000x128_1_0_0_1_n_n_wf : DotDims.WF S320000x256 S256x128 S320000x128 [1] [0] [0] [1] [] []
  gather_S20000x128_S320000x1_S320000x128_1_0_n_n_0_1_1128_wf : GatherDims.WF S20000x128 S320000x1 S320000x128 [1] [0] [] [0] [] 1 ![1, 128]
  dot_S320000x384_S384x256_S320000x256_1_0_0_1_n_n_wf : DotDims.WF S320000x384 S384x256 S320000x256 [1] [0] [0] [1] [] []
  scatter_S20000x128_S320000x1_S320000x128_1_0_0_1_wf : ScatterDims.WF S20000x128 S320000x1 S320000x128 [1] [0] [0] 1
  dot_S20000x256_S256x256_S20000x256_1_0_0_1_n_n_wf : DotDims.WF S20000x256 S256x256 S20000x256 [1] [0] [0] [1] [] []

variable [Facts₀]

def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x384_S384x256_S320000x256_1_0_0_1_n_n : DotDims S320000x384 S384x256 S320000x256 where
  lhsContracting := [1]
  rhsContracting := [0]
  lhsNonContracting := [0]
  rhsNonContracting := [1]
  lhsBatch := []
  rhsBatch := []
  wf := dot_S320000x384_S384x256_S320000x256_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Spec.lean ====
/-
  The message-passing network both programs compute, as functions on the extended reals.

  Every dense stage is ROW-LOCAL: row r of its result depends only on row r of its matrix inputs. A layer sends a row x to
  max(x · W + b, 0); a two-layer perceptron is two layers. The edge stage feeds the perceptron the concatenation of a
  sender row, a receiver row and an edge row (384 entries) against a 384-row first weight matrix; the node stage the
  concatenation of a node row and an aggregated row (256 entries). The same stages can be computed without ever forming the
  concatenation, by multiplying each part with its own block of rows of the first weight matrix and adding the partial
  products: a sum over 384 (or 256) terms regrouped into sums over 128 terms each, which uses only that addition of
  extended reals is commutative and associative.
-/
import Idealize.ShloMosaic.PureOps.Ideal
import Idealize.ShloMosaic.Lib.ValueIdx

noncomputable section

open scoped BigOperators

namespace MeshNet

open Idealize.ShloMosaic Idealize.ShloMosaic.ValueIdx

/-- A matrix of extended reals. -/
abbrev Mat (r c : Nat) := (⟨2, ![r, c]⟩ : Shape).Idx → EReal
/-- A vector of extended reals. -/
abbrev Vc (n : Nat) := (⟨1, ![n]⟩ : Shape).Idx → EReal

/-- Row r of a matrix. -/
def row {M C : Nat} (x : Mat M C) (r : Fin M) : Fin C → EReal := fun k => x (ix2 r k)

/-- One dense layer with the rectifier, on one row: entry j is max(Σ_k x_k W_kj + b_j, 0). -/
def rowLayer {K N : Nat} (x : Fin K → EReal) (W : Mat K N) (b : Vc N) : Fin N → EReal :=
  fun j => max (∑ k : Fin K, x k * W (ix2 k j) + b (ix1 j)) 0

/-- The two-layer perceptron 128 → 256 → 128 on one row. -/
def rowMlp (x : Fin 128 → EReal) (W1 : Mat 128 256) (b1 : Vc 256) (W2 : Mat 256 128) (b2 : Vc 128) : Fin 128 → EReal :=
  rowLayer (rowLayer x W1 b1) W2 b2

/-- The perceptron applied to every row of a matrix. -/
def mlp {M : Nat} (x : Mat M 128) (W1 : Mat 128 256) (b1 : Vc 256) (W2 : Mat 256 128) (b2 : Vc 128) : Mat M 128 :=
  fun i => rowMlp (row x (i 0)) W1 b1 W2 b2 (i 1)

/-- Three rows of 128 entries laid end to end. -/
def cat3 (a b c : Fin 128 → EReal) : Fin 384 → EReal := fun k =>
  if h : k.val < 128 then a ⟨k.val, h⟩
  else if h2 : k.val < 256 then b ⟨k.val - 128, by omega⟩ else c ⟨k.val - 256, by omega⟩

/-- Two rows of 128 entries laid end to end. -/
def cat2 (a b : Fin 128 → EReal) : Fin 256 → EReal := fun k =>
  if h : k.val < 128 then a ⟨k.val, h⟩ else b ⟨k.val - 128, by omega⟩

/-- The edge stage: the perceptron 384 → 256 → 128 on [sender row, receiver row, edge row]. -/
def edgeStage {M : Nat} (xs xr e : Mat M 128) (W1 : Mat 384 256) (b1 : Vc 256) (W2 : Mat 256 128) (b2 : Vc 128) : Mat M 128 :=
  fun i => rowLayer (rowLayer (cat3 (row xs (i 0)) (row xr (i 0)) (row e (i 0))) W1 b1) W2 b2 (i 1)

/-- The node stage: the perceptron 256 → 256 → 128 on [node row, aggregated row]. -/
def nodeStage {M : Nat} (x agg : Mat M 128) (W1 : Mat 256 256) (b1 : Vc 256) (W2 : Mat 256 128) (b2 : Vc 128) : Mat M 128 :=
  fun i => rowLayer (rowLayer (cat2 (row x (i 0)) (row agg (i 0))) W1 b1) W2 b2 (i 1)

/-- The block of K rows of a matrix starting at row off. -/
def rowsFrom {R N : Nat} (K : Nat) (W : Mat R N) (off : Nat) (h : off + K ≤ R) : Mat K N :=
  fun i => W (ix2 ⟨off + (i 0).val, by have h2 : (i 0).val < K := (i 0).isLt; omega⟩ (i 1))

/-- The hidden row of the edge stage computed part by part: ((a·Wa + b·Wb) + c·Wc) + bias, rectified. -/
def rowHid3 (a b c : Fin 128 → EReal) (Wa Wb Wc : Mat 128 256) (b1 : Vc 256) : Fin 256 → EReal :=
  fun h => max (((∑ k : Fin 128, a k * Wa (ix2 k h) + ∑ k : Fin 128, b k * Wb (ix2 k h)) + ∑ k : Fin 128, c k * Wc (ix2 k h))
    + b1 (ix1 h)) 0

/-- The hidden row of the node stage computed part by part: (a·Wa + b·Wb) + bias, rectified. -/
def rowHid2 (a b : Fin 128 → EReal) (Wa Wb : Mat 128 256) (b1 : Vc 256) : Fin 256 → EReal :=
  fun h => max ((∑ k : Fin 128, a k * Wa (ix2 k h) + ∑ k : Fin 128, b k * Wb (ix2 k h)) + b1 (ix1 h)) 0

/-- The edge stage without the concatenation. -/
def edgeParts {M : Nat} (xs xr e : Mat M 128) (Wa Wb Wc : Mat 128 256) (b1 : Vc 256) (W2 : Mat 256 128) (b2 : Vc 128) : Mat M 128 :=
  fun i => rowLayer (rowHid3 (row xs (i 0)) (row xr (i 0)) (row e (i 0)) Wa Wb Wc b1) W2 b2 (i 1)

/-- The node stage without the concatenation. -/
def nodeParts {M : Nat} (x agg : Mat M 128) (Wa Wb : Mat 128 256) (b1 : Vc 256) (W2 : Mat 256 128) (b2 : Vc 128) : Mat M 128 :=
  fun i => rowLayer (rowHid2 (row x (i 0)) (row agg (i 0)) Wa Wb b1) W2 b2 (i 1)

/-- A sum over the 384 entries of a concatenation against a 384-row matrix is the three sums over its parts against the
    matrix's three blocks of rows. -/
theorem sum_cat3 (a b c : Fin 128 → EReal) (W : Mat 384 256) (h : Fin 256) :
    ∑ k : Fin 384, cat3 a b c k * W (ix2 k h)
      = (∑ k : Fin 128, a k * rowsFrom 128 W 0 (by omega) (ix2 k h) + ∑ k : Fin 128, b k * rowsFrom 128 W 128 (by omega) (ix2 k h))
        + ∑ k : Fin 128, c k * rowsFrom 128 W 256 (by omega) (ix2 k h) := by
  -- regroup the 384 indices as 128 + (128 + 128); each block's summand is the stated one by computation
  have e : ∑ k : Fin 384, cat3 a b c k * W (ix2 k h)
      = ∑ k : Fin (128 + (128 + 128)), cat3 a b c k * W (ix2 (n0 := 384) k h) := rfl
  rw [e, Fin.sum_univ_add, Fin.sum_univ_add, ← add_assoc]
  rfl

/-- Likewise for two parts. -/
theorem sum_cat2 (a b : Fin 128 → EReal) (W : Mat 256 256) (h : Fin 256) :
    ∑ k : Fin 256, cat2 a b k * W (ix2 k h)
      = ∑ k : Fin 128, a k * rowsFrom 128 W 0 (by omega) (ix2 k h) + ∑ k : Fin 128, b k * rowsFrom 128 W 128 (by omega) (ix2 k h) := by
  -- regroup the 256 indices as 128 + 128; each block's summand is the stated one by computation
  have e : ∑ k : Fin 256, cat2 a b k * W (ix2 k h)
      = ∑ k : Fin (128 + 128), cat2 a b k * W (ix2 (n0 := 256) k h) := rfl
  rw [e, Fin.sum_univ_add]
  rfl

/-- The edge stage computed part by part, with the first weight matrix cut into its three blocks of rows, is the edge stage. -/
theorem edgeParts_eq {M : Nat} (xs xr e : Mat M 128) (W1 : Mat 384 256) (b1 : Vc 256) (W2 : Mat 256 128) (b2 : Vc 128) :
    edgeParts xs xr e (rowsFrom 128 W1 0 (by omega)) (rowsFrom 128 W1 128 (by omega)) (rowsFrom 128 W1 256 (by omega)) b1 W2 b2
      = edgeStage xs xr e W1 b1 W2 b2 := by
  funext i
  unfold edgeParts edgeStage
  congr 1
  funext h
  unfold rowHid3 rowLayer
  rw [sum_cat3]

/-- The node stage computed part by part, with the first weight matrix cut into its two blocks of rows, is the node stage. -/
theorem nodeParts_eq {M : Nat} (x agg : Mat M 128) (W1 : Mat 256 256) (b1 : Vc 256) (W2 : Mat 256 128) (b2 : Vc 128) :
    nodeParts x agg (rowsFrom 128 W1 0 (by omega)) (rowsFrom 128 W1 128 (by omega)) b1 W2 b2
      = nodeStage x agg W1 b1 W2 b2 := by
  funext i
  unfold nodeParts nodeStage
  congr 1
  funext h
  unfold rowHid2 rowLayer
  rw [sum_cat2]

end MeshNet

end
-- ==== Proof.Net.lean ====
/-
  The whole network as one function of the argument arrays: two embedding perceptrons, then twice an edge stage on gathered
  node rows, a scatter-add of the new edge rows onto their receiver nodes, and a node stage; the result is the two vectors of
  row sums of the node features, laid end to end. The irregular operations (row gather, row scatter-add, row sum, joining two
  vectors) enter as parameters: both programs apply the same ones, and nothing here looks inside them.
-/
import proofs.«428749_j52252572123266_1_alg».proof.Proof.Spec

noncomputable section

namespace MeshNet

open Idealize.ShloMosaic Idealize.ShloMosaic.ValueIdx

/-- A vector of 32-bit index words. -/
abbrev IdxVec (n : Nat) := IVec (⟨1, ![n]⟩ : Shape) 32

/-- The argument arrays. -/
structure Args where
  nodes : Mat 20000 128
  edges : Mat 320000 128
  senders : IdxVec 320000
  receivers : IdxVec 320000
  Wn1 : Mat 128 256
  bn1 : Vc 256
  Wn2 : Mat 256 128
  bn2 : Vc 128
  We1 : Mat 128 256
  be1 : Vc 256
  We2 : Mat 256 128
  be2 : Vc 128
  Wed1 : Mat 384 256
  bed1 : Vc 256
  Wed2 : Mat 256 128
  bed2 : Vc 128
  Wnd1 : Mat 256 256
  bnd1 : Vc 256
  Wnd2 : Mat 256 128
  bnd2 : Vc 128

/-- The irregular operations: rows of a node matrix gathered at an index vector; edge rows added onto the node rows an index
    vector names; the sum of each row; two vectors joined. -/
structure Glue where
  gath : Mat 20000 128 → IdxVec 320000 → Mat 320000 128
  scat : IdxVec 320000 → Mat 320000 128 → Mat 20000 128
  rsum : Mat 20000 128 → Vc 20000
  catv : Vc 20000 → Vc 20000 → Vc 40000

/-- Embedded node features. -/
def X0 (a : Args) : Mat 20000 128 := mlp a.nodes a.Wn1 a.bn1 a.Wn2 a.bn2
/-- Embedded edge features. -/
def E0 (a : Args) : Mat 320000 128 := mlp a.edges a.We1 a.be1 a.We2 a.be2
/-- One edge update: the edge stage on the sender rows, the receiver rows and the edge rows. -/
def edgeNext (g : Glue) (a : Args) (x : Mat 20000 128) (e : Mat 320000 128) : Mat 320000 128 :=
  edgeStage (g.gath x a.senders) (g.gath x a.receivers) e a.Wed1 a.bed1 a.Wed2 a.bed2
/-- One node update: the node stage on the node rows and the edge rows summed onto their receivers. -/
def nodeNext (g : Glue) (a : Args) (x : Mat 20000 128) (e : Mat 320000 128) : Mat 20000 128 :=
  nodeStage x (g.scat a.receivers e) a.Wnd1 a.bnd1 a.Wnd2 a.bnd2
/-- Edge features after the first round. -/
def E1 (g : Glue) (a : Args) : Mat 320000 128 := edgeNext g a (X0 a) (E0 a)
/-- Node features after the first round. -/
def X1 (g : Glue) (a : Args) : Mat 20000 128 := nodeNext g a (X0 a) (E1 g a)
/-- Edge features after the second round. -/
def E2 (g : Glue) (a : Args) : Mat 320000 128 := edgeNext g a (X1 g a) (E1 g a)
/-- Node features after the second round. -/
def X2 (g : Glue) (a : Args) : Mat 20000 128 := nodeNext g a (X1 g a) (E2 g a)
/-- The result: the row sums after each round, joined. -/
def net (g : Glue) (a : Args) : Vc 40000 := g.catv (g.rsum (X1 g a)) (g.rsum (X2 g a))

end MeshNet

end
-- ==== Proof.Take.lean ====
/-
  The irregular operations as the kernel program prints them, and the one place where they could differ from the reference's:
  the kernel gathers rows with a guarded take. The take first counts a negative index from the end (i < 0 becomes i + 20000),
  then gathers the rows at the resulting indices (the gather itself clamps an index into 0 … 19999), and finally replaces every
  row whose index was outside 0 … 19999 by a filler. When every index lies in -20000 … 19999 the index after the first step
  is in 0 … 19999, the guard is true on every row, no row is replaced, and the take is the plain gather.
-/
import proofs.«428749_j52252572123266_1_alg».proof.Proof.Gen.KernelIdeal
import proofs.«428749_j52252572123266_1_alg».proof.Proof.Net
import Idealize.ShloMosaic.Lib.ValueIdx
import Idealize.ShloMosaic.Lib.StableHlo.Predicate
import Idealize.ShloMosaic.Lib.ReduceAll

noncomputable section

namespace Cert.KernelIdeal.NetValue

open Cert.KernelIdeal Cert.KernelIdeal.Gen Idealize.ShloMosaic Idealize.ShloMosaic.ValueIdx Idealize.SL.Sem

variable {F : FTy → Type} [FloatOps F]

/-- An index vector with each negative index counted from the end. -/
def normIdx (idx : IVec S320000 32) : IVec S320000 32 :=
  select (cmpi .slt idx (broadcastInDim S320000 ![] bcast_S_S320000 (constantI S_ 32 0#32)))
    (addi idx (broadcastInDim S320000 ![] bcast_S_S320000 (constantI S_ 32 20000#32))) idx

/-- That vector as a column of start indices. -/
def colIdx (idx : IVec S320000 32) : IVec S320000x1 32 :=
  broadcastInDim S320000x1 ![0] bcast_S320000_S320000x1_0 (normIdx idx)

/-- The rows of a node matrix at an index vector. -/
def gatherRows (x : FVec F S20000x128 .f32) (idx : IVec S320000 32) : FVec F S320000x128 .f32 :=
  Host.gather gather_S20000x128_S320000x1_S320000x128_1_0_n_n_0_1_1128 x (colIdx idx)

/-- The guarded take: the gathered rows, a row replaced by the filler where its index is outside 0 … 19999. -/
def takeFn (x : FVec F S20000x128 .f32) (idx : IVec S320000 32) : FVec F S320000x128 .f32 :=
  select
    (broadcastInDim S320000x128 ![0] bcast_S320000_S320000x128_0
      (Host.reduce IntOp.andi
        (andi (cmpi .sge (colIdx idx) (broadcastInDim S320000x1 ![] bcast_S_S320000x1 (constantI S_ 32 0#32)))
          (cmpi .sle (colIdx idx) (broadcastInDim S320000x1 ![0, 1] bcast_S1x1_S320000x1_0_1
            (broadcastInDim S1x1 ![1] bcast_S1_S1x1_1 (constantI S1 32 19999#32)))))
        (constantI S_ 1 1#1) reducesTo_S320000x1_S320000_d1 h_S_))
    (gatherRows x idx)
    (broadcastInDim S320000x128 ![] bcast_S_S320000x128 (constant S_ .f32 0x7FC00000#32))

/-- Edge rows added onto the node rows an index vector names, starting from zero. -/
def scatterRows (idx : IVec S320000 32) (e : FVec F S320000x128 .f32) : FVec F S20000x128 .f32 :=
  Host.scatterAdd scatter_S20000x128_S320000x1_S320000x128_1_0_0_1
    (broadcastInDim S20000x128 ![] bcast_S_S20000x128 (constant S_ .f32 0x00000000#32))
    (broadcastInDim S320000x1 ![0] bcast_S320000_S320000x1_0 idx) e

/-- The sum of each row. -/
def rowSums (x : FVec F S20000x128 .f32) : FVec F S20000 .f32 :=
  Host.reduceAdd x (constant S_ .f32 0x00000000#32) reducesTo_S20000x128_S20000_d1 h_S_

/-- Two vectors joined. -/
def joinVecs (a b : FVec F S20000 .f32) : FVec F S40000 .f32 :=
  concatenate S40000 0 [⟨S20000, a⟩, ⟨S20000, b⟩] concatenates_S20000_S20000_S40000_d0

/-- The irregular operations of the kernel program, over the extended reals. -/
def glue : MeshNet.Glue where
  gath := gatherRows (F := Ideal)
  scat := scatterRows (F := Ideal)
  rsum := rowSums (F := Ideal)
  catv := joinVecs (F := Ideal)

/-- The argument arrays of the kernel program in a launch memory. -/
def args (m : (ℓ : Loc nD τ sig) → Buf (Elt Ideal) ℓ) (c : Dev nD) : MeshNet.Args where
  nodes := m ((c.tc : Thread nD τ).loc main_arg0)
  edges := m ((c.tc : Thread nD τ).loc main_arg1)
  senders := m ((c.tc : Thread nD τ).loc main_arg2)
  receivers := m ((c.tc : Thread nD τ).loc main_arg3)
  Wn1 := m ((c.tc : Thread nD τ).loc main_arg4)
  bn1 := m ((c.tc : Thread nD τ).loc main_arg5)
  Wn2 := m ((c.tc : Thread nD τ).loc main_arg6)
  bn2 := m ((c.tc : Thread nD τ).loc main_arg7)
  We1 := m ((c.tc : Thread nD τ).loc main_arg8)
  be1 := m ((c.tc : Thread nD τ).loc main_arg9)
  We2 := m ((c.tc : Thread nD τ).loc main_arg10)
  be2 := m ((c.tc : Thread nD τ).loc main_arg11)
  Wed1 := m ((c.tc : Thread nD τ).loc main_arg12)
  bed1 := m ((c.tc : Thread nD τ).loc main_arg13)
  Wed2 := m ((c.tc : Thread nD τ).loc main_arg14)
  bed2 := m ((c.tc : Thread nD τ).loc main_arg15)
  Wnd1 := m ((c.tc : Thread nD τ).loc main_arg16)
  bnd1 := m ((c.tc : Thread nD τ).loc main_arg17)
  Wnd2 := m ((c.tc : Thread nD τ).loc main_arg18)
  bnd2 := m ((c.tc : Thread nD τ).loc main_arg19)

/-- The two index vectors of a launch memory lie in the range in which an index names a node row. -/
def InRange (m : (ℓ : Loc nD τ sig) → Buf (Elt Ideal) ℓ) : Prop :=
  ∀ (c : Dev nD) (e : S320000.Idx),
    (-20000 ≤ (m ((c.tc : Thread nD τ).loc main_arg2) e).toInt ∧ (m ((c.tc : Thread nD τ).loc main_arg2) e).toInt < 20000)
    ∧ (-20000 ≤ (m ((c.tc : Thread nD τ).loc main_arg3) e).toInt ∧ (m ((c.tc : Thread nD τ).loc main_arg3) e).toInt < 20000)

/-- The guard at one index word: with the word in -20000 … 19999, the word counted from the end when negative lies in
    0 … 19999, so both comparisons of the guard hold. (For a negative word the 32-bit sum with 20000 does not wrap.) -/
theorem guard_word (w : BitVec 32) (h₁ : -20000 ≤ w.toInt) (h₂ : w.toInt < 20000) :
    IntOp.andi
      (IntOp.cmpi .sge (Scalar.select (IntOp.cmpi .slt w 0#32) (IntOp.addi w 20000#32) w) 0#32)
      (IntOp.cmpi .sle (Scalar.select (IntOp.cmpi .slt w 0#32) (IntOp.addi w 20000#32) w) 19999#32) = 1#1 := by
  have h0 : (0#32 : BitVec 32).toInt = 0 := by decide
  have h19 : (19999#32 : BitVec 32).toInt = 19999 := by decide
  have h20 : (20000#32 : BitVec 32).toInt = 20000 := by decide
  by_cases hneg : w.toInt < 0
  · have hc : IntOp.cmpi .slt w 0#32 = 1#1 := IntOp.cmpi_slt.2 (by rw [h0]; exact hneg)
    have hadd : (IntOp.addi w 20000#32).toInt = w.toInt + 20000 := by
      show (w + 20000#32).toInt = _
      rw [BitVec.toInt_add, h20, Int.bmod_def]
      split <;> omega
    rw [hc, select_one]
    exact IntOp.andi_eq_one.2 ⟨IntOp.cmpi_sge.2 (by rw [h0, hadd]; omega), IntOp.cmpi_sle.2 (by rw [h19, hadd]; omega)⟩
  · have hc : IntOp.cmpi .slt w 0#32 = 0#1 :=
      eq_zero_of_ne_one (fun hc => hneg (by have := IntOp.cmpi_slt.1 hc; rwa [h0] at this))
    rw [hc, select_zero]
    exact IntOp.andi_eq_one.2 ⟨IntOp.cmpi_sge.2 (by rw [h0]; omega), IntOp.cmpi_sle.2 (by rw [h19]; omega)⟩

/-- A left fold by "and" from 1 over bits that are all 1 is 1. -/
theorem foldl_andi_of_all_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_of_all_one f hf l

/-- With every index in -20000 … 19999 the guard of the take is true on every row, so the take is the plain gather. -/
theorem takeFn_eq_gatherRows (x : FVec Ideal S20000x128 .f32) (idx : IVec S320000 32)
    (h : ∀ e : S320000.Idx, -20000 ≤ (idx e).toInt ∧ (idx e).toInt < 20000) :
    takeFn x idx = gatherRows x idx := by
  funext i
  -- the guard before the reduction is 1 at every index of the column
  have hmask : ∀ k : S320000x1.Idx,
      andi (cmpi .sge (colIdx idx) (broadcastInDim S320000x1 ![] bcast_S_S320000x1 (constantI S_ 32 0#32)))
        (cmpi .sle (colIdx idx) (broadcastInDim S320000x1 ![0, 1] bcast_S1x1_S320000x1_0_1
          (broadcastInDim S1x1 ![1] bcast_S1_S1x1_1 (constantI S1 32 19999#32)))) k = 1#1 := by
    intro k
    exact guard_word _ (h _).1 (h _).2
  -- so its reduction by "and" from 1 is 1 at every index
  have hred : ∀ j : S320000.Idx,
      Host.reduce IntOp.andi
        (andi (cmpi .sge (colIdx idx) (broadcastInDim S320000x1 ![] bcast_S_S320000x1 (constantI S_ 32 0#32)))
          (cmpi .sle (colIdx idx) (broadcastInDim S320000x1 ![0, 1] bcast_S1x1_S320000x1_0_1
            (broadcastInDim S1x1 ![1] bcast_S1_S1x1_1 (constantI S1 32 19999#32)))))
        (constantI S_ 1 1#1) reducesTo_S320000x1_S320000_d1 h_S_ j = 1#1 := by
    intro j
    rw [Host.reduce_eq_foldl]
    exact foldl_andi_of_all_one _ hmask _
  simp only [takeFn, select_apply]
  simp only [broadcastInDim]
  rw [hred, select_one]

end Cert.KernelIdeal.NetValue

end
-- ==== Proof.Region4.lean ====
/-
  The second edge call: as the first, on the node features and edge features of the first round.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The buffer contents a call is entered from. -/
abbrev Entry4 := (c : Dev nD) → (b : Ref sig .tc) → Buf (Elt Ideal) ((c : Thread nD τ).loc b)

namespace EdgeCall4

/-! ## The two block products at an entry

A block product of a [2000, K] block with a [K, N] matrix into the zero block has at entry (p, j) the sum over k of
x (p, k) · w (k, j). -/

theorem lhs_first_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_first_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_first_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_first_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, h) of a first-layer product: the sum over the 128 entries of row p against column h. -/
theorem first_product_apply (x : FVec Ideal S2000x128 .bf16) (w : FVec Ideal S128x256 .bf16) (p : Fin 2000) (h : Fin 256) :
    matmul dot_S2000x128_S128x256_S2000x256_1_0_0_1_n_n none x w (constant (F := Ideal) S2000x256 .f32 0x00000000#32) (ix2 p h)
      = ∑ k : Fin 128, x (ix2 p k) * w (ix2 k h) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p h) ((ValueIdx.contrEquiv1 dot_S2000x128_S128x256_S2000x256_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S2000x128_S128x256_S2000x256_1_0_0_1_n_n.rhsIdx (ix2 p h) ((ValueIdx.contrEquiv1 dot_S2000x128_S128x256_S2000x256_1_0_0_1_n_n 128 rfl rfl).symm k) = ix2 k h := funext fun a => Fin.ext (by
    match a with
    | ⟨0, _⟩ => exact (rhs_first_0 _ _).trans hk
    | ⟨1, _⟩ => exact rhs_first_1 _ _)
  rw [el, er]

theorem lhs_second_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_second_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_second_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_second_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, q) of the second-layer product: the sum over the 256 hidden entries of row p against column q. -/
theorem second_product_apply (x : FVec Ideal S2000x256 .bf16) (w : FVec Ideal S256x128 .bf16) (p : Fin 2000) (q : Fin 128) :
    matmul dot_S2000x256_S256x128_S2000x128_1_0_0_1_n_n none x w (constant (F := Ideal) S2000x128 .f32 0x00000000#32) (ix2 p q)
      = ∑ h : Fin 256, x (ix2 p h) * w (ix2 h q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The bias rows -/

/-- The 256 first-layer biases laid as one row and repeated down the block read, at (p, h), bias h. -/
theorem bias256_apply (b : Vec Ideal S256 .f32) (p : Fin 2000) (h : Fin 256) :
    broadcastTo S2000x256 (shapeCast S1x256 b shapeCasts_S256_S1x256) broadcasts_S1x256_S2000x256 (ix2 p h) = b (ix1 h) := by
  refine (broadcastTo_apply _ broadcasts_S1x256_S2000x256 (ix2 p h) (ix2 (0 : Fin 1) h) (fun a => ?_)).trans ?_
  · match a with
    | ⟨0, _⟩ => show (0 : Nat) = if (1 : Nat) = 1 then 0 else p.val; rw [if_pos rfl]
    | ⟨1, _⟩ => show h.val = if (256 : Nat) = 1 then 0 else h.val; rw [if_neg (by decide)]
  · exact shapeCast_apply b shapeCasts_S256_S1x256 (ix2 (0 : Fin 1) h) (ix1 h) (by
      rw [Shape.rowMajor_val_one, Shape.rowMajor_val_two]; show h.val = 0 * 256 + h.val; omega)

/-- The 128 second-layer biases laid as one row and repeated down the block read, at (p, q), bias q. -/
theorem bias128_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · exact shapeCast_apply b shapeCasts_S128_S1x128 (ix2 (0 : Fin 1) q) (ix1 q) (by
      rw [Shape.rowMajor_val_one, Shape.rowMajor_val_two]; show q.val = 0 * 128 + q.val; omega)

/-! ## The body's value at an entry

Entry (p, q) of what the body stores depends only on row p of the three matrix blocks: it is the rectified second layer
of the hidden row computed part by part. A change of number format is the identity on the extended reals. -/

/-- Before the last rectifier: the second layer's sum over the hidden row, plus the bias. -/
theorem second_layer_apply (x0 x1 x2 : Vec Ideal S2000x128 .f32) (w0 w1 w2 : Vec Ideal S128x256 .f32) (b1 : Vec Ideal S256 .f32)
    (W2 : Vec Ideal S256x128 .f32) (b2 : Vec Ideal S128 .f32) (p : Fin 2000) (q : Fin 128) :
    k4_pay2 (F := Ideal) x0 x1 x2 w0 w1 w2 b1 W2 b2 (ix2 p q)
      = ∑ h : Fin 256, MeshNet.rowHid3 (MeshNet.row x0 p) (MeshNet.row x1 p) (MeshNet.row x2 p) w0 w1 w2 b1 h * W2 (ix2 h q)
        + b2 (ix1 q) := by
  unfold k4_pay2
  rw [addf_apply, second_product_apply, bias128_apply]
  refine congrArg (· + b2 (ix1 q)) (Finset.sum_congr rfl fun h _ => ?_)
  rw [truncf_apply, truncf_apply, maximumf_apply, addf_apply, addf_apply, addf_apply,
    first_product_apply, first_product_apply, first_product_apply, bias256_apply, broadcast_apply,
    Ideal.ofBits_def, Ideal.ofBits_zero_f32]
  simp only [truncf_apply, shapeCast_self]
  rfl

/-- The stored block at (p, q): the edge stage's two layers on row p of the three blocks. -/
theorem body_apply (x0 x1 x2 : Vec Ideal S2000x128 .f32) (w0 w1 w2 : Vec Ideal S128x256 .f32) (b1 : Vec Ideal S256 .f32)
    (W2 : Vec Ideal S256x128 .f32) (b2 : Vec Ideal S128 .f32) (p : Fin 2000) (q : Fin 128) :
    k4_pay1 (F := Ideal) (k4_pay2 x0 x1 x2 w0 w1 w2 b1 W2 b2) (Scalar.ofBits .f32 0x00000000#32) (ix2 p q)
      = MeshNet.rowLayer (MeshNet.rowHid3 (MeshNet.row x0 p) (MeshNet.row x1 p) (MeshNet.row x2 p) w0 w1 w2 b1) W2 b2 q := by
  unfold k4_pay1
  rw [maximumf_apply, broadcast_apply, second_layer_apply]
  show max _ (Ideal.ofBits .f32 0x00000000#32) = _
  rw [Ideal.ofBits_zero_f32]
  rfl

/-! ## The blocks a point reads

Point t reads rows 2000 t … 2000 t + 1999 of each of the three matrices, and the whole of each weight matrix and bias
vector: an entry of a block sits in its array at block index × block size + its own coordinate. -/

theorem hz2 : (![0, 0] : Fin 2 → Nat) = fun _ => 0 := funext fun a => by fin_cases a <;> rfl
theorem hz1 : (![0] : Fin 1 → Nat) = fun _ => 0 := funext fun a => by fin_cases a; rfl

/-- The block indices at point t: t along the rows of the three matrices and of the result, zero everywhere else. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = t.val ∧ win4_9.index t (1 : Fin 2) = 0 :=
  (by decide +kernel : ∀ t : Fin grid4.N, _)

/-- Row p of point t's blocks is row 2000 t + p of the matrices. -/
def rowAt (t : Fin cfg4.N) (p : Fin 2000) : Fin 320000 :=
  ⟨t.val * 2000 + p.val, by have ht : t.val < 160 := lt_of_lt_of_eq t.isLt N_4; have hp := p.isLt; omega⟩

theorem senders_block (V : Entry4) (c : Dev nD) (t : Fin cfg4.N) (p : Fin 2000) :
    MeshNet.row (iblk4 V c 0 t : Vec Ideal S2000x128 .f32) p = MeshNet.row (V c main_v15) (rowAt t p) := by
  funext k
  obtain ⟨e0, e1, -⟩ := block_indices t
  unfold MeshNet.row iblk4
  rw [View.read_apply]
  show V c main_v15 _ = V c main_v15 _
  refine congrArg (V c main_v15) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

theorem receivers_block (V : Entry4) (c : Dev nD) (t : Fin cfg4.N) (p : Fin 2000) :
    MeshNet.row (iblk4 V c 1 t : Vec Ideal S2000x128 .f32) p = MeshNet.row (V c main_v16) (rowAt t p) := by
  funext k
  obtain ⟨-, -, e0, e1, -⟩ := block_indices t
  unfold MeshNet.row iblk4
  rw [View.read_apply]
  show V c main_v16 _ = V c main_v16 _
  refine congrArg (V c main_v16) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega

theorem edges_block (V : Entry4) (c : Dev nD) (t : Fin cfg4.N) (p : Fin 2000) :
    MeshNet.row (iblk4 V c 2 t : Vec Ideal S2000x128 .f32) p = MeshNet.row (V c main_v9) (rowAt t p) := by
  funext k
  obtain ⟨-, -, -, -, e0, e1, -⟩ := block_indices t
  unfold MeshNet.row iblk4
  rw [View.read_apply]
  show V c main_v9 _ = V c main_v9 _
  refine congrArg (V c main_v9) (funext fun a => Fin.ext ?_)
  match a with
  | ⟨0, _⟩ => show win4_2.index t (0 : Fin 2) * 2000 + 1 * p.val = t.val * 2000 + p.val; rw [e0]; omega
  | ⟨1, _⟩ => show win4_2.index t (1 : Fin 2) * 128 + 1 * k.val = k.val; rw [e1]; omega

theorem first_weights_a (V : Entry4) (c : Dev nD) (t : Fin cfg4.N) :
    (iblk4 V c 3 t : Vec Ideal S128x256 .f32) = V c main_v2 := by
  funext j
  obtain ⟨-, -, -, -, -, -, e0, e1, -⟩ := block_indices t
  unfold iblk4
  rw [View.read_apply]
  show V c main_v2 _ = V c main_v2 j
  refine congrArg (V c main_v2) (funext fun a => Fin.ext ?_)
  match a with
  | ⟨0, _⟩ => show win4_3.index t (0 : Fin 2) * 128 + 1 * (j 0).val = (j 0).val; rw [e0]; omega
  | ⟨1, _⟩ => show win4_3.index t (1 : Fin 2) * 256 + 1 * (j 1).val = (j 1).val; rw [e1]; omega

theorem first_weights_b (V : Entry4) (c : Dev nD) (t : Fin cfg4.N) :
    (iblk4 V c 4 t : Vec Ideal S128x256 .f32) = V c main_v3 := by
  funext j
  obtain ⟨-, -, -, -, -, -, -, -, e0, e1, -⟩ := block_indices t
  unfold iblk4
  rw [View.read_apply]
  show V c main_v3 _ = V c main_v3 j
  refine congrArg (V c main_v3) (funext fun a => Fin.ext ?_)
  match a with
  | ⟨0, _⟩ => show win4_4.index t (0 : Fin 2) * 128 + 1 * (j 0).val = (j 0).val; rw [e0]; omega
  | ⟨1, _⟩ => show win4_4.index t (1 : Fin 2) * 256 + 1 * (j 1).val = (j 1).val; rw [e1]; omega

theorem first_weights_c (V : Entry4) (c : Dev nD) (t : Fin cfg4.N) :
    (iblk4 V c 5 t : Vec Ideal S128x256 .f32) = V c main_v4 := by
  funext j
  obtain ⟨-, -, -, -, -, -, -, -, -, -, e0, e1, -⟩ := block_indices t
  unfold iblk4
  rw [View.read_apply]
  show V c main_v4 _ = V c main_v4 j
  refine congrArg (V c main_v4) (funext fun a => Fin.ext ?_)
  match a with
  | ⟨0, _⟩ => show win4_5.index t (0 : Fin 2) * 128 + 1 * (j 0).val = (j 0).val; rw [e0]; omega
  | ⟨1, _⟩ => show win4_5.index t (1 : Fin 2) * 256 + 1 * (j 1).val = (j 1).val; rw [e1]; omega

theorem first_bias (V : Entry4) (c : Dev nD) (t : Fin cfg4.N) :
    (iblk4 V c 6 t : Vec Ideal S256 .f32) = V c main_arg13 := by
  funext j
  obtain ⟨-, -, -, -, -, -, -, -, -, -, -, -, e0, -⟩ := block_indices t
  unfold iblk4
  rw [View.read_apply]
  show V c main_arg13 _ = V c main_arg13 j
  refine congrArg (V c main_arg13) (funext fun a => Fin.ext ?_)
  match a with
  | ⟨0, _⟩ => show win4_6.index t (0 : Fin 1) * 256 + 1 * (j 0).val = (j 0).val; rw [e0]; omega

theorem second_weights (V : Entry4) (c : Dev nD) (t : Fin cfg4.N) :
    (iblk4 V c 7 t : Vec Ideal S256x128 .f32) = V c main_arg14 := by
  funext j
  obtain ⟨-, -, -, -, -, -, -, -, -, -, -, -, -, e0, e1, -⟩ := block_indices t
  unfold iblk4
  rw [View.read_apply]
  show V c main_arg14 _ = V c main_arg14 j
  refine congrArg (V c main_arg14) (funext fun a => Fin.ext ?_)
  match a with
  | ⟨0, _⟩ => show win4_7.index t (0 : Fin 2) * 256 + 1 * (j 0).val = (j 0).val; rw [e0]; omega
  | ⟨1, _⟩ => show win4_7.index t (1 : Fin 2) * 128 + 1 * (j 1).val = (j 1).val; rw [e1]; omega

theorem second_bias (V : Entry4) (c : Dev nD) (t : Fin cfg4.N) :
    (iblk4 V c 8 t : Vec Ideal S128 .f32) = V c main_arg15 := by
  funext j
  obtain ⟨-, -, -, -, -, -, -, -, -, -, -, -, -, -, -, e0, -⟩ := block_indices t
  unfold iblk4
  rw [View.read_apply]
  show V c main_arg15 _ = V c main_arg15 j
  refine congrArg (V c main_arg15) (funext fun a => Fin.ext ?_)
  match a with
  | ⟨0, _⟩ => show win4_8.index t (0 : Fin 1) * 128 + 1 * (j 0).val = (j 0).val; rw [e0]; omega

/-- Entry (p, q) of the result's block at point t sits at (2000 t + p, q) of the result array. -/
theorem result_block_entry (t : Fin cfg4.N) (p : Fin 2000) (q : Fin 128) :
    ((cfg4.win 9).blk t).view.emb (ix2 p q) = ix2 (rowAt t p) q := by
  obtain ⟨-, -, -, -, -, -, -, -, -, -, -, -, -, -, -, -, e0, e1⟩ := block_indices t
  refine funext fun a => Fin.ext ?_
  match a with
  | ⟨0, _⟩ => show win4_9.index t (0 : Fin 2) * 2000 + 1 * p.val = t.val * 2000 + p.val; rw [e0]; omega
  | ⟨1, _⟩ => show win4_9.index t (1 : Fin 2) * 128 + 1 * q.val = q.val; rw [e1]; omega

/-! ## From the blocks to the array -/

/-- What point t writes back is block t of the edge stage of the whole matrices: the stage acts row by row. -/
theorem written_block (V : Entry4) (c : Dev nD) (t : Fin cfg4.N) :
    (dat4 (F := Ideal) V c).flushed 9 t = ((cfg4.win 9).blk t).view.read (Elt Ideal)
      (MeshNet.edgeParts (V c main_v15) (V c main_v16) (V c main_v9) (V c main_v2) (V c main_v3) (V c main_v4)
          (V c main_arg13) (V c main_arg14) (V c main_arg15)) := by
  show (cfg4.win 9).cut (grid4.coords t) ((dat4 (F := Ideal) V c).after 9 t) = _
  rw [after4_9]
  unfold out4_9
  rw [View.canon_unit_zero hz2]
  simp only [View.ld_unit_zero (S := S2000x128) hz2, View.ld_unit_zero (S := S128x256) hz2, View.ld_unit_zero (S := S256) hz1,
    View.ld_unit_zero (S := S256x128) hz2, View.ld_unit_zero (S := S128) hz1]
  funext j
  show k4_pay1 (F := Ideal) (k4_pay2 (iblk4 V c 0 t) (iblk4 V c 1 t) (iblk4 V c 2 t) (iblk4 V c 3 t) (iblk4 V c 4 t) (iblk4 V c 5 t)
        (iblk4 V c 6 t) (iblk4 V c 7 t) (iblk4 V c 8 t)) (Scalar.ofBits .f32 0x00000000#32) j
      = MeshNet.edgeParts (V c main_v15) (V c main_v16) (V c main_v9) (V c main_v2) (V c main_v3) (V c main_v4)
          (V c main_arg13) (V c main_arg14) (V c main_arg15) (((cfg4.win 9).blk t).view.emb j)
  obtain ⟨p, q, rfl⟩ : ∃ (p : Fin 2000) (q : Fin 128), j = ix2 p q := ⟨j 0, j 1, eq_ix2 j⟩
  refine (body_apply (iblk4 V c 0 t) (iblk4 V c 1 t) (iblk4 V c 2 t) (iblk4 V c 3 t) (iblk4 V c 4 t) (iblk4 V c 5 t)
    (iblk4 V c 6 t) (iblk4 V c 7 t) (iblk4 V c 8 t) p q).trans ?_
  refine Eq.trans ?_ (congrArg (MeshNet.edgeParts (V c main_v15) (V c main_v16) (V c main_v9) (V c main_v2) (V c main_v3) (V c main_v4)
          (V c main_arg13) (V c main_arg14) (V c main_arg15)) (result_block_entry t p q)).symm
  show _ = MeshNet.rowLayer (MeshNet.rowHid3 (MeshNet.row (V c main_v15) (rowAt t p)) (MeshNet.row (V c main_v16) (rowAt t p))
      (MeshNet.row (V c main_v9) (rowAt t p)) (V c main_v2) (V c main_v3) (V c main_v4) (V c main_arg13)) (V c main_arg14) (V c main_arg15) q
  rw [senders_block V c t p, receivers_block V c t p, edges_block V c t p, first_weights_a V c t, first_weights_b V c t,
    first_weights_c V c t, first_bias V c t, second_weights V c t, second_bias V c t]

/-- An entry of the result array is in point t's block iff each coordinate is in the block's range on its axis. -/
theorem mem_result_block (t : Fin cfg4.N) (i : S320000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v17).slice (win4_9.rect t)).set ↔ _
  rw [View.set_slice_whole, Rect.mem_set_unit]
  exact Iff.rfl

/-- Row r of the result is written by point r / 2000: the 160 blocks of 2000 rows cover the 320000 rows. -/
theorem rows_covered (i : S320000x128.Idx) :
    ∃ t : Fin cfg4.N, (cfg4.win 9).flush t = true ∧ i ∈ ((cfg4.win 9).blk t).view.set := by
  have hi0 : (i 0).val < 320000 := (i 0).isLt
  have hi1 : (i 1).val < 128 := (i 1).isLt
  have hN : cfg4.N = 160 := N_4
  refine ⟨⟨(i 0).val / 2000, by rw [hN]; omega⟩, flush4_9 _, ?_⟩
  obtain ⟨-, -, -, -, -, -, -, -, -, -, -, -, -, -, -, -, e0, e1⟩ := block_indices ⟨(i 0).val / 2000, by rw [hN]; omega⟩
  rw [mem_result_block]
  intro a
  match a with
  | ⟨0, _⟩ =>
    show win4_9.index ⟨(i 0).val / 2000, _⟩ (0 : Fin 2) * 2000 ≤ (i 0).val ∧ (i 0).val < win4_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win4_9.index ⟨(i 0).val / 2000, _⟩ (1 : Fin 2) * 128 ≤ (i 1).val ∧ (i 1).val < win4_9.index ⟨(i 0).val / 2000, _⟩ (1 : Fin 2) * 128 + 128
    rw [e1]; omega

end EdgeCall4

/-- What the call leaves in its result array, whatever contents it is entered from. -/
theorem region4_value (V : Entry4) (c : Dev nD) :
    (dat4 (F := Ideal) V c).arrAt 9 cfg4.N
      = MeshNet.edgeParts (V c main_v15) (V c main_v16) (V c main_v9) (V c main_v2) (V c main_v3) (V c main_v4)
          (V c main_arg13) (V c main_arg14) (V c main_arg15) :=
  (dat4 (F := Ideal) V c).arrAt_eq_of_cover 9
    (MeshNet.edgeParts (V c main_v15) (V c main_v16) (V c main_v9) (V c main_v2) (V c main_v3) (V c main_v4)
      (V c main_arg13) (V c main_arg14) (V c main_arg15))
    (fun t _ => EdgeCall4.written_block V c t) EdgeCall4.rows_covered

end Cert.KernelIdeal.NetValue

end
-- ==== Proof.Region5.lean ====
/-
  The second node call: as the first, on the node features of the first round and the second aggregate.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The buffer contents a call is entered from. -/
abbrev Entry5 := (c : Dev nD) → (b : Ref sig .tc) → Buf (Elt Ideal) ((c : Thread nD τ).loc b)

/-! ## The two contractions, read at an index

Each product of the body contracts the second axis of its left operand with the first axis of its right operand, so entry
(p, h) of the product is the sum over k of left (p, k) times right (k, h). -/

theorem hidLeft5_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem hidLeft5_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem hidRight5_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem hidRight5_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A first-layer product into the zero accumulator, at (p, h): the sum over the 128 entries of row p. -/
theorem hidProd5_apply (l : FVec Ideal S2000x128 .bf16) (r : FVec Ideal S128x256 .bf16) (p : Fin 2000) (h : Fin 256) :
    matmul (F := Ideal) dot_S2000x128_S128x256_S2000x256_1_0_0_1_n_n none l r (constant (F := Ideal) S2000x256 .f32 0x00000000#32) (ix2 p h)
      = ∑ k : Fin 128, l (ix2 p k) * r (ix2 k h) := by
  refine (Ideal.matmul_constant_zero_apply dot_S2000x128_S128x256_S2000x256_1_0_0_1_n_n none l r (ix2 p h)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p h) ((ValueIdx.contrEquiv1 dot_S2000x128_S128x256_S2000x256_1_0_0_1_n_n 128 rfl rfl).symm k) = ix2 p k := funext fun a => Fin.ext (by
    match a with
    | ⟨0, _⟩ => exact hidLeft5_0 _ _
    | ⟨1, _⟩ => exact (hidLeft5_1 _ _).trans hk)
  have er : dot_S2000x128_S128x256_S2000x256_1_0_0_1_n_n.rhsIdx (ix2 p h) ((ValueIdx.contrEquiv1 dot_S2000x128_S128x256_S2000x256_1_0_0_1_n_n 128 rfl rfl).symm k) = ix2 k h := funext fun a => Fin.ext (by
    match a with
    | ⟨0, _⟩ => exact (hidRight5_0 _ _).trans hk
    | ⟨1, _⟩ => exact hidRight5_1 _ _)
  rw [el, er]

theorem outLeft5_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem outLeft5_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem outRight5_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem outRight5_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second-layer product into the zero accumulator, at (p, q): the sum over the 256 entries of hidden row p. -/
theorem outProd5_apply (l : FVec Ideal S2000x256 .bf16) (r : FVec Ideal S256x128 .bf16) (p : Fin 2000) (q : Fin 128) :
    matmul (F := Ideal) dot_S2000x256_S256x128_S2000x128_1_0_0_1_n_n none l r (constant (F := Ideal) S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact outLeft5_0 _ _
    | ⟨1, _⟩ => exact (outLeft5_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (outRight5_0 _ _).trans hk
    | ⟨1, _⟩ => exact outRight5_1 _ _)
  rw [el, er]

/-! ## The biases, spread over the rows -/

/-- The first bias, cast to one row and spread over 2000 rows, at (p, h): its entry h. -/
theorem hidBias5_apply (b : FVec Ideal S256 .f32) (p : Fin 2000) (h : Fin 256) :
    broadcastTo (α := Ideal .f32) S2000x256 (shapeCast (α := Ideal .f32) S1x256 b shapeCasts_S256_S1x256) broadcasts_S1x256_S2000x256 (ix2 p h) = b (ix1 h) :=
  (broadcastTo_1b_ab_apply _ broadcasts_S1x256_S2000x256 p h).trans (shapeCast_a_1a_apply b shapeCasts_S256_S1x256 0 h)

/-- The second bias, cast to one row and spread over 2000 rows, at (p, q): its entry q. -/
theorem outBias5_apply (b : FVec Ideal S128 .f32) (p : Fin 2000) (q : Fin 128) :
    broadcastTo (α := Ideal .f32) S2000x128 (shapeCast (α := Ideal .f32) S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The zero the rectifier compares with is the extended real 0. -/
theorem zeroWord5 : (FloatOps.ofBits (F := Ideal) .f32 0x00000000#32 : Ideal .f32) = 0 := Ideal.ofBits_zero_f32

/-! ## The body's result at an index -/

/-- Entry (p, q) of what the body stores is the node stage, computed part by part, of row p of its two matrix blocks. -/
theorem payload5_apply (x a : Vec Ideal S2000x128 .f32) (Wa Wb : Vec Ideal S128x256 .f32) (b1 : Vec Ideal S256 .f32)
    (W2 : Vec Ideal S256x128 .f32) (b2 : Vec Ideal S128 .f32) (p : Fin 2000) (q : Fin 128) :
    k5_pay1 (F := Ideal) x a Wa Wb b1 W2 b2 (ix2 p q)
      = MeshNet.rowLayer (MeshNet.rowHid2 (MeshNet.row x p) (MeshNet.row a p) Wa Wb b1) W2 b2 q := by
  unfold k5_pay1
  simp only [shapeCast_self, maximumf_apply, addf_apply, broadcast_apply, outProd5_apply, outBias5_apply, truncf_apply,
    hidProd5_apply, hidBias5_apply, zeroWord5]
  rfl

/-- The body's result at any index j of its block, when row (j 0) of the two matrix blocks is row (i 0) of two matrices
    X and A and the column is the same: the node stage of X and A at i. -/
theorem payload5_rows (x a : Vec Ideal S2000x128 .f32) (Wa Wb : Vec Ideal S128x256 .f32) (b1 : Vec Ideal S256 .f32)
    (W2 : Vec Ideal S256x128 .f32) (b2 : Vec Ideal S128 .f32)
    (X A : MeshNet.Mat 20000 128) (Wa' Wb' : MeshNet.Mat 128 256) (b1' : MeshNet.Vc 256) (W2' : MeshNet.Mat 256 128)
    (b2' : MeshNet.Vc 128) (j : S2000x128.Idx) (i : S20000x128.Idx)
    (hx : ∀ k : Fin 128, x (ix2 (j 0) k) = X (ix2 (i 0) k))
    (ha : ∀ k : Fin 128, a (ix2 (j 0) k) = A (ix2 (i 0) k))
    (hq : (i 1).val = (j 1).val)
    (hWa : Wa = Wa') (hWb : Wb = Wb') (hb1 : b1 = b1') (hW2 : W2 = W2') (hb2 : b2 = b2') :
    k5_pay1 (F := Ideal) x a Wa Wb b1 W2 b2 j = MeshNet.nodeParts X A Wa' Wb' b1' W2' b2' i := by
  subst hWa hWb hb1 hW2 hb2
  obtain ⟨p, q, rfl⟩ : ∃ (p : Fin 2000) (q : Fin 128), j = ix2 p q := ⟨j 0, j 1, eq_ix2 j⟩
  rw [payload5_apply]
  unfold MeshNet.nodeParts
  have hr : MeshNet.row x p = MeshNet.row X (i 0) := funext hx
  have hr' : MeshNet.row a p = MeshNet.row A (i 0) := funext ha
  have hc : (i 1 : Fin 128) = q := Fin.ext hq
  rw [hr, hr', hc]

/-! ## From the blocks to the array -/

theorem zeroOff5 : (![0, 0] : Fin 2 → Nat) = fun _ => 0 := funext fun a => by fin_cases a <;> rfl
theorem zeroOff5v : (![0] : Fin 1 → Nat) = fun _ => 0 := funext fun a => by fin_cases a <;> rfl

/-- The windows' index maps over the grid: the two matrix windows and the result window are at block (t, 0) at point t;
    the weight and bias windows stay at block 0. -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0
    ∧ t.val < 10 :=
  (by decide +kernel : ∀ t : Fin grid5.N, _)

/-- Every one of the 10 row blocks is some point's. -/
theorem blockOnto5 : ∀ b : Fin 10, ∃ t : Fin cfg5.N, t.val = b.val :=
  (by decide +kernel : ∀ b : Fin 10, ∃ t : Fin grid5.N, t.val = b.val)

/-- The first weight block's window is the whole matrix at every point. -/
theorem weightA5 (V : Entry5) (c : Dev nD) (t : Fin cfg5.N) :
    (iblk5 (F := Ideal) V c 2 t : Vec Ideal S128x256 .f32) = V c main_v5 := by
  obtain ⟨-, -, -, -, e0, e1, -⟩ := blockIdx5 t
  unfold iblk5
  funext y
  rw [View.read_apply]
  show V c main_v5 (((cfg5.win 2).blk t).view.emb y) = V c main_v5 y
  congr 1
  funext a; apply Fin.ext
  match a with
  | ⟨0, _⟩ => show win5_2.index t (0 : Fin 2) * 128 + 1 * (y 0).val = (y 0).val; omega
  | ⟨1, _⟩ => show win5_2.index t (1 : Fin 2) * 256 + 1 * (y 1).val = (y 1).val; omega

/-- The second weight block's window is the whole matrix at every point. -/
theorem weightB5 (V : Entry5) (c : Dev nD) (t : Fin cfg5.N) :
    (iblk5 (F := Ideal) V c 3 t : Vec Ideal S128x256 .f32) = V c main_v6 := by
  obtain ⟨-, -, -, -, -, -, e0, e1, -⟩ := blockIdx5 t
  unfold iblk5
  funext y
  rw [View.read_apply]
  show V c main_v6 (((cfg5.win 3).blk t).view.emb y) = V c main_v6 y
  congr 1
  funext a; apply Fin.ext
  match a with
  | ⟨0, _⟩ => show win5_3.index t (0 : Fin 2) * 128 + 1 * (y 0).val = (y 0).val; omega
  | ⟨1, _⟩ => show win5_3.index t (1 : Fin 2) * 256 + 1 * (y 1).val = (y 1).val; omega

/-- The first bias's window is the whole vector at every point. -/
theorem biasHid5 (V : Entry5) (c : Dev nD) (t : Fin cfg5.N) :
    (iblk5 (F := Ideal) V c 4 t : Vec Ideal S256 .f32) = V c main_arg17 := by
  obtain ⟨-, -, -, -, -, -, -, -, e0, -⟩ := blockIdx5 t
  unfold iblk5
  funext y
  rw [View.read_apply]
  show V c main_arg17 (((cfg5.win 4).blk t).view.emb y) = V c main_arg17 y
  congr 1
  funext a; apply Fin.ext
  match a with
  | ⟨0, _⟩ => show win5_4.index t (0 : Fin 1) * 256 + 1 * (y 0).val = (y 0).val; omega

/-- The second weight matrix's window is the whole matrix at every point. -/
theorem weightOut5 (V : Entry5) (c : Dev nD) (t : Fin cfg5.N) :
    (iblk5 (F := Ideal) V c 5 t : Vec Ideal S256x128 .f32) = V c main_arg18 := by
  obtain ⟨-, -, -, -, -, -, -, -, -, e0, e1, -⟩ := blockIdx5 t
  unfold iblk5
  funext y
  rw [View.read_apply]
  show V c main_arg18 (((cfg5.win 5).blk t).view.emb y) = V c main_arg18 y
  congr 1
  funext a; apply Fin.ext
  match a with
  | ⟨0, _⟩ => show win5_5.index t (0 : Fin 2) * 256 + 1 * (y 0).val = (y 0).val; omega
  | ⟨1, _⟩ => show win5_5.index t (1 : Fin 2) * 128 + 1 * (y 1).val = (y 1).val; omega

/-- The second bias's window is the whole vector at every point. -/
theorem biasOut5 (V : Entry5) (c : Dev nD) (t : Fin cfg5.N) :
    (iblk5 (F := Ideal) V c 6 t : Vec Ideal S128 .f32) = V c main_arg19 := by
  obtain ⟨-, -, -, -, -, -, -, -, -, -, -, e0, -⟩ := blockIdx5 t
  unfold iblk5
  funext y
  rw [View.read_apply]
  show V c main_arg19 (((cfg5.win 6).blk t).view.emb y) = V c main_arg19 y
  congr 1
  funext a; apply Fin.ext
  match a with
  | ⟨0, _⟩ => show win5_6.index t (0 : Fin 1) * 128 + 1 * (y 0).val = (y 0).val; omega

/-- The node stage of the whole matrices as the call finds them. -/
abbrev stage5 (V : Entry5) (c : Dev nD) : MeshNet.Mat 20000 128 :=
  MeshNet.nodeParts (V c main_v13) (V c main_v20) (V c main_v5) (V c main_v6) (V c main_arg17) (V c main_arg18) (V c main_arg19)

/-- What point t writes back is block t of the node stage of the whole matrices: row p of the point's matrix blocks is row
    2000 t + p of the matrices, and the stage is row-local. -/
theorem block5_eq (V : Entry5) (c : Dev nD) (t : Fin cfg5.N) :
    (dat5 (F := Ideal) V c).flushed 7 t = ((cfg5.win 7).blk t).view.read (Elt Ideal) (stage5 V c) := by
  show (cfg5.win 7).cut (grid5.coords t) ((dat5 V c).after 7 t) = _
  rw [after5_7]
  unfold out5_7
  rw [View.canon_unit_zero zeroOff5]
  simp only [View.ld_unit_zero (S := S2000x128) zeroOff5, View.ld_unit_zero (S := S128x256) zeroOff5,
    View.ld_unit_zero (S := S256x128) zeroOff5, View.ld_unit_zero (S := S256) zeroOff5v, View.ld_unit_zero (S := S128) zeroOff5v]
  obtain ⟨a0, a1, g0, g1, -, -, -, -, -, -, -, -, o0, o1, -⟩ := blockIdx5 t
  funext j
  show k5_pay1 (F := Ideal) (iblk5 V c 0 t) (iblk5 V c 1 t) (iblk5 V c 2 t) (iblk5 V c 3 t) (iblk5 V c 4 t) (iblk5 V c 5 t) (iblk5 V c 6 t) j
    = stage5 V c (((cfg5.win 7).blk t).view.emb j)
  refine payload5_rows (iblk5 V c 0 t) (iblk5 V c 1 t) (iblk5 V c 2 t) (iblk5 V c 3 t) (iblk5 V c 4 t) (iblk5 V c 5 t) (iblk5 V c 6 t)
    (V c main_v13) (V c main_v20) (V c main_v5) (V c main_v6) (V c main_arg17) (V c main_arg18) (V c main_arg19)
    j (((cfg5.win 7).blk t).view.emb j) (fun k => ?_) (fun k => ?_) ?_
    (weightA5 V c t) (weightB5 V c t) (biasHid5 V c t) (weightOut5 V c t) (biasOut5 V c t)
  · show V c main_v13 (((cfg5.win 0).blk t).view.emb (ix2 (j 0) k)) = V c main_v13 (ix2 ((((cfg5.win 7).blk t).view.emb j) 0) k)
    congr 1
    funext a; apply Fin.ext
    match a with
    | ⟨0, _⟩ => show win5_0.index t (0 : Fin 2) * 2000 + 1 * (j 0).val = win5_7.index t (0 : Fin 2) * 2000 + 1 * (j 0).val; omega
    | ⟨1, _⟩ => show win5_0.index t (1 : Fin 2) * 128 + 1 * k.val = k.val; omega
  · show V c main_v20 (((cfg5.win 1).blk t).view.emb (ix2 (j 0) k)) = V c main_v20 (ix2 ((((cfg5.win 7).blk t).view.emb j) 0) k)
    congr 1
    funext a; apply Fin.ext
    match a with
    | ⟨0, _⟩ => show win5_1.index t (0 : Fin 2) * 2000 + 1 * (j 0).val = win5_7.index t (0 : Fin 2) * 2000 + 1 * (j 0).val; omega
    | ⟨1, _⟩ => show win5_1.index t (1 : Fin 2) * 128 + 1 * k.val = k.val; omega
  · show win5_7.index t (1 : Fin 2) * 128 + 1 * (j 1).val = (j 1).val; omega

/-- An index of the result array is in point t's block iff each coordinate is in the block's range on its axis. -/
theorem mem_block5 (t : Fin cfg5.N) (i : S20000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v21).slice (win5_7.rect t)).set ↔ _
  rw [View.set_slice_whole, Rect.mem_set_unit]
  exact Iff.rfl

/-- Row r of the result array is in the block of point r / 2000, and every point writes back. -/
theorem rows_covered5 (i : S20000x128.Idx) :
    ∃ t : Fin cfg5.N, (cfg5.win 7).flush t = true ∧ i ∈ ((cfg5.win 7).blk t).view.set := by
  have hi0 : (i 0).val < 20000 := (i 0).isLt
  have hi1 : (i 1).val < 128 := (i 1).isLt
  obtain ⟨t, ht⟩ := blockOnto5 ⟨(i 0).val / 2000, by omega⟩
  have ht' : t.val = (i 0).val / 2000 := ht
  obtain ⟨-, -, -, -, -, -, -, -, -, -, -, -, o0, o1, -⟩ := blockIdx5 t
  refine ⟨t, flush5_7 t, ?_⟩
  rw [mem_block5]
  intro a
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 128 ≤ (i 1).val ∧ (i 1).val < win5_7.index t (1 : Fin 2) * 128 + 128; omega

/-- What the call leaves in its result array, whatever contents it is entered from. -/
theorem region5_value (V : Entry5) (c : Dev nD) :
    (dat5 (F := Ideal) V c).arrAt 7 cfg5.N
      = MeshNet.nodeParts (V c main_v13) (V c main_v20) (V c main_v5) (V c main_v6)
          (V c main_arg17) (V c main_arg18) (V c main_arg19) :=
  (dat5 (F := Ideal) V c).arrAt_eq_of_cover 7 (stage5 V c) (fun t _ => block5_eq V c t) rows_covered5

end Cert.KernelIdeal.NetValue

end
-- ==== Proof.Region0.lean ====
/-
  The first embedding call: the node matrix is cut into 10 blocks of 2000 rows, each block goes through the two-layer
  perceptron with the whole weight matrices, and block t of the result is written back. Since the perceptron acts row by row,
  the blocks together are the perceptron of the whole matrix.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The buffer contents a call is entered from. -/
abbrev Entry0 := (c : Dev nD) → (b : Ref sig .tc) → Buf (Elt Ideal) ((c : Thread nD τ).loc b)

namespace Embed0

/-! ## One block: entry (p, q) of what the body stores is the perceptron of row p of the block -/

/-- In the first product, 2000×128 by 128×256 contracted over the 128, the left factor's row is the result's row … -/
theorem hidden_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … its column the summation index, … -/
theorem hidden_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- … the right factor's row the summation index … -/
theorem hidden_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and its column the result's column. -/
theorem hidden_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product into the zero matrix, at (p, h): the sum over k of l(p, k) · r(k, h). -/
theorem hidden_product (l : FVec Ideal S2000x128 .bf16) (r : FVec Ideal S128x256 .bf16) (p : Fin 2000) (h : Fin 256) :
    matmul dot_S2000x128_S128x256_S2000x256_1_0_0_1_n_n none l r (constant (F := Ideal) S2000x256 .f32 0x00000000#32) (ix2 p h)
      = ∑ k : Fin 128, l (ix2 p k) * r (ix2 k h) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p h) ((contrEquiv1 dot_S2000x128_S128x256_S2000x256_1_0_0_1_n_n 128 rfl rfl).symm k) = ix2 p k := funext fun a => Fin.ext (by
    match a with
    | ⟨0, _⟩ => exact hidden_lhs_row _ _
    | ⟨1, _⟩ => exact (hidden_lhs_col _ _).trans hk)
  have er : dot_S2000x128_S128x256_S2000x256_1_0_0_1_n_n.rhsIdx (ix2 p h) ((contrEquiv1 dot_S2000x128_S128x256_S2000x256_1_0_0_1_n_n 128 rfl rfl).symm k) = ix2 k h := funext fun a => Fin.ext (by
    match a with
    | ⟨0, _⟩ => exact (hidden_rhs_row _ _).trans hk
    | ⟨1, _⟩ => exact hidden_rhs_col _ _)
  rw [el, er]

/-- In the second product, 2000×256 by 256×128 contracted over the 256, the left factor's row is the result's row … -/
theorem out_lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … its column the summation index, … -/
theorem out_lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- … the right factor's row the summation index … -/
theorem out_rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and its column the result's column. -/
theorem out_rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product into the zero matrix, at (p, q): the sum over h of l(p, h) · r(h, q). -/
theorem out_product (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ h : Fin 256, l (ix2 p h) * r (ix2 h q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact out_lhs_row _ _
    | ⟨1, _⟩ => exact (out_lhs_col _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (out_rhs_row _ _).trans hk
    | ⟨1, _⟩ => exact out_rhs_col _ _)
  rw [el, er]

/-- The hidden layer of a block at (p, h): the product plus the bias laid along every row, rectified, is the layer of
    row p of the block. -/
theorem hidden_apply (x : FVec Ideal S2000x128 .f32) (W : FVec Ideal S128x256 .f32) (b : FVec Ideal S256 .f32) (p : Fin 2000) (h : Fin 256) :
    maximumf (addf (matmul dot_S2000x128_S128x256_S2000x256_1_0_0_1_n_n none (truncf .bf16 x bitsLt_bf16_f32) (truncf .bf16 W bitsLt_bf16_f32)
          (constant (F := Ideal) S2000x256 .f32 0x00000000#32))
        (broadcastTo S2000x256 (shapeCast S1x256 b shapeCasts_S256_S1x256) broadcasts_S1x256_S2000x256))
      (broadcast S2000x256 (Scalar.ofBits (F := Ideal) .f32 0x00000000#32)) (ix2 p h)
      = MeshNet.rowLayer (MeshNet.row x p) W b h := by
  rw [maximumf_apply, addf_apply, broadcast_apply, hidden_product, broadcastTo_1b_ab_apply, shapeCast_a_1a_apply]
  show max ((∑ k : Fin 128, x (ix2 p k) * W (ix2 k h)) + b (ix1 h)) (Ideal.ofBits .f32 0x00000000#32) = max ((∑ k : Fin 128, x (ix2 p k) * W (ix2 k h)) + b (ix1 h)) 0
  rw [Ideal.ofBits_zero_f32]

/-- The output layer of a block at (p, q), likewise, over any hidden block y. -/
theorem out_apply (y : FVec Ideal S2000x256 .f32) (W : FVec Ideal S256x128 .f32) (b : FVec Ideal S128 .f32) (p : Fin 2000) (q : Fin 128) :
    maximumf (addf (matmul dot_S2000x256_S256x128_S2000x128_1_0_0_1_n_n none (truncf .bf16 y bitsLt_bf16_f32) (truncf .bf16 W bitsLt_bf16_f32)
          (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) (ix2 p q)
      = MeshNet.rowLayer (MeshNet.row y p) W b q := by
  rw [maximumf_apply, addf_apply, broadcast_apply, out_product, broadcastTo_1b_ab_apply, shapeCast_a_1a_apply]
  show max ((∑ h : Fin 256, y (ix2 p h) * W (ix2 h q)) + b (ix1 q)) (Ideal.ofBits .f32 0x00000000#32) = max ((∑ h : Fin 256, y (ix2 p h) * W (ix2 h q)) + b (ix1 q)) 0
  rw [Ideal.ofBits_zero_f32]

/-- What the body stores, at (p, q): the two-layer perceptron of row p of the block. -/
theorem stored_apply (x : Vec Ideal S2000x128 .f32) (W1 : Vec Ideal S128x256 .f32) (b1 : Vec Ideal S256 .f32) (W2 : Vec Ideal S256x128 .f32) (b2 : Vec Ideal S128 .f32)
    (p : Fin 2000) (q : Fin 128) :
    k0_pay1 (F := Ideal) x W1 b1 W2 b2 (ix2 p q) = MeshNet.rowMlp (MeshNet.row x p) W1 b1 W2 b2 q := by
  unfold k0_pay1
  refine (out_apply _ W2 b2 p q).trans ?_
  unfold MeshNet.rowMlp
  exact congrArg (fun r => MeshNet.rowLayer r W2 b2 q) (funext fun h => hidden_apply x W1 b1 p h)

/-- The same at any index of the block. -/
theorem stored_at (x : Vec Ideal S2000x128 .f32) (W1 : Vec Ideal S128x256 .f32) (b1 : Vec Ideal S256 .f32) (W2 : Vec Ideal S256x128 .f32) (b2 : Vec Ideal S128 .f32)
    (j : S2000x128.Idx) :
    k0_pay1 (F := Ideal) x W1 b1 W2 b2 j = MeshNet.rowMlp (MeshNet.row x (j 0)) W1 b1 W2 b2 (j 1) := by
  obtain ⟨p, q, rfl⟩ : ∃ (p : Fin 2000) (q : Fin 128), j = ix2 p q := ⟨j 0, j 1, eq_ix2 j⟩
  exact stored_apply x W1 b1 W2 b2 p q

end Embed0

namespace Embed0

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point t the matrix block and the result block are block t of their arrays (rows 2000·t on),
    and the weights and biases are the whole arrays. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Entry y of the matrix block at point t is the matrix at row 2000·t + y₀, column y₁. -/
theorem rows_block (V : Entry0) (c : Dev nD) (t : Fin cfg0.N) (y : S2000x128.Idx) (i : S20000x128.Idx)
    (h0 : (i 0).val = t.val * 2000 + (y 0).val) (h1 : (i 1).val = (y 1).val) :
    (iblk0 V c 0 t : Vec Ideal S2000x128 .f32) y = (V c main_arg0 : S20000x128.Idx → EReal) i := by
  obtain ⟨e0, e1, -⟩ := block_places t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The first weight block is the first weight matrix … -/
theorem weights1_block (V : Entry0) (c : Dev nD) (t : Fin cfg0.N) :
    (iblk0 V c 1 t : Vec Ideal S128x256 .f32) = V c main_arg4 := by
  obtain ⟨-, -, e0, e1, -⟩ := block_places t
  funext y
  unfold iblk0
  rw [View.read_apply]
  show V c main_arg4 _ = V c main_arg4 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- … the first bias block the first bias … -/
theorem bias1_block (V : Entry0) (c : Dev nD) (t : Fin cfg0.N) :
    (iblk0 V c 2 t : Vec Ideal S256 .f32) = V c main_arg5 := by
  obtain ⟨-, -, -, -, e0, -⟩ := block_places t
  funext y
  unfold iblk0
  rw [View.read_apply]
  show V c main_arg5 _ = V c main_arg5 y
  congr 1
  funext a
  apply Fin.ext
  match a with
  | ⟨0, _⟩ => show win0_2.index t (0 : Fin 1) * 256 + 1 * (y 0).val = (y 0).val; rw [e0]; omega

/-- … the second weight block the second weight matrix … -/
theorem weights2_block (V : Entry0) (c : Dev nD) (t : Fin cfg0.N) :
    (iblk0 V c 3 t : Vec Ideal S256x128 .f32) = V c main_arg6 := by
  obtain ⟨-, -, -, -, -, e0, e1, -⟩ := block_places t
  funext y
  unfold iblk0
  rw [View.read_apply]
  show V c main_arg6 _ = V c main_arg6 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- … and the second bias block the second bias. -/
theorem bias2_block (V : Entry0) (c : Dev nD) (t : Fin cfg0.N) :
    (iblk0 V c 4 t : Vec Ideal S128 .f32) = V c main_arg7 := by
  obtain ⟨-, -, -, -, -, -, -, e0, -⟩ := block_places t
  funext y
  unfold iblk0
  rw [View.read_apply]
  show V c main_arg7 _ = V c main_arg7 y
  congr 1
  funext a
  apply Fin.ext
  match a with
  | ⟨0, _⟩ => show win0_4.index t (0 : Fin 1) * 128 + 1 * (y 0).val = (y 0).val; rw [e0]; omega

/-- Row-locality: if row j₀ of a block x is row i₀ of the matrix X and the columns agree, the perceptron of the block's row
    at column j₁ is the perceptron of the whole matrix at i. -/
theorem row_local (x : MeshNet.Mat 2000 128) (X : MeshNet.Mat 20000 128) (W1 : MeshNet.Mat 128 256) (b1 : MeshNet.Vc 256)
    (W2 : MeshNet.Mat 256 128) (b2 : MeshNet.Vc 128) (j : S2000x128.Idx) (i : S20000x128.Idx)
    (hrow : ∀ k : Fin 128, x (ix2 (j 0) k) = X (ix2 (i 0) k)) (hcol : (j 1).val = (i 1).val) :
    MeshNet.rowMlp (MeshNet.row x (j 0)) W1 b1 W2 b2 (j 1) = MeshNet.mlp X W1 b1 W2 b2 i := by
  unfold MeshNet.mlp
  have e : MeshNet.row x (j 0) = MeshNet.row X (i 0) := funext hrow
  rw [e]
  exact congrArg _ (Fin.ext hcol)

/-- What point t writes back is block t of the perceptron of the whole matrix. -/
theorem flushed_eq (V : Entry0) (c : Dev nD) (t : Fin cfg0.N) :
    (dat0 (F := Ideal) V c).flushed 5 t
      = ((cfg0.win 5).blk t).view.read (Elt Ideal)
          (MeshNet.mlp (V c main_arg0) (V c main_arg4) (V c main_arg5) (V c main_arg6) (V c main_arg7)) := by
  show (cfg0.win 5).cut (grid0.coords t) ((dat0 (F := Ideal) V c).after 5 t) = _
  rw [after0_5]
  unfold out0_5
  rw [View.canon_unit_zero zero2]
  simp only [View.ld_unit_zero (S := S2000x128) zero2, View.ld_unit_zero (S := S128x256) zero2, View.ld_unit_zero (S := S256x128) zero2,
    View.ld_unit_zero (S := S256) zero1, View.ld_unit_zero (S := S128) zero1]
  rw [weights1_block, bias1_block, weights2_block, bias2_block]
  obtain ⟨-, -, -, -, -, -, -, -, e0, e1⟩ := block_places t
  funext j
  rw [View.read_apply]
  refine (stored_at (iblk0 V c 0 t) (V c main_arg4) (V c main_arg5) (V c main_arg6) (V c main_arg7) _).trans ?_
  refine row_local (iblk0 V c 0 t) (V c main_arg0) (V c main_arg4) (V c main_arg5) (V c main_arg6) (V c main_arg7) _ _ (fun k => ?_) ?_
  · refine rows_block V c t _ _ ?_ rfl
    show win0_5.index t (0 : Fin 2) * 2000 + 1 * (j 0).val = t.val * 2000 + (j 0).val
    rw [e0]; omega
  · show (j 1).val = win0_5.index t (1 : Fin 2) * 128 + 1 * (j 1).val
    rw [e1]; omega

end Embed0

namespace Embed0

/-- An index of the result array lies in point t's block iff each coordinate lies in the block's range on its axis. -/
theorem mem_block (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v0).slice (win0_5.rect t)).set ↔ _
  rw [View.set_slice_whole, Rect.mem_set_unit]
  exact Iff.rfl

/-- The blocks fill the array: row r lies in the block of point r / 2000. -/
theorem blocks_cover (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, -, -, -, -, e0, e1⟩ := block_places t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

end Embed0

/-- What the call leaves in its result array, whatever contents it is entered from. -/
theorem region0_value (V : Entry0) (c : Dev nD) :
    (dat0 (F := Ideal) V c).arrAt 5 cfg0.N
      = MeshNet.mlp (V c main_arg0) (V c main_arg4) (V c main_arg5) (V c main_arg6) (V c main_arg7) :=
  (dat0 (F := Ideal) V c).arrAt_eq_of_cover 5
    (MeshNet.mlp (V c main_arg0) (V c main_arg4) (V c main_arg5) (V c main_arg6) (V c main_arg7))
    (fun t _ => Embed0.flushed_eq V c t) Embed0.blocks_cover

end Cert.KernelIdeal.NetValue

end
-- ==== Proof.Region1.lean ====
/-
  The second embedding call: the edge matrix is cut into 160 blocks of 2000 rows, each block goes through the two-layer
  perceptron with the whole weight matrices, and block t of the result is written back. Since the perceptron acts row by row,
  the blocks together are the perceptron of the whole matrix.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The buffer contents a call is entered from. -/
abbrev Entry1 := (c : Dev nD) → (b : Ref sig .tc) → Buf (Elt Ideal) ((c : Thread nD τ).loc b)

namespace Embed1

/-! ## One block: entry (p, q) of what the body stores is the perceptron of row p of the block -/

/-- In the first product, 2000×128 by 128×256 contracted over the 128, the left factor's row is the result's row … -/
theorem hidden_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … its column the summation index, … -/
theorem hidden_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- … the right factor's row the summation index … -/
theorem hidden_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and its column the result's column. -/
theorem hidden_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product into the zero matrix, at (p, h): the sum over k of l(p, k) · r(k, h). -/
theorem hidden_product (l : FVec Ideal S2000x128 .bf16) (r : FVec Ideal S128x256 .bf16) (p : Fin 2000) (h : Fin 256) :
    matmul dot_S2000x128_S128x256_S2000x256_1_0_0_1_n_n none l r (constant (F := Ideal) S2000x256 .f32 0x00000000#32) (ix2 p h)
      = ∑ k : Fin 128, l (ix2 p k) * r (ix2 k h) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p h) ((contrEquiv1 dot_S2000x128_S128x256_S2000x256_1_0_0_1_n_n 128 rfl rfl).symm k) = ix2 p k := funext fun a => Fin.ext (by
    match a with
    | ⟨0, _⟩ => exact hidden_lhs_row _ _
    | ⟨1, _⟩ => exact (hidden_lhs_col _ _).trans hk)
  have er : dot_S2000x128_S128x256_S2000x256_1_0_0_1_n_n.rhsIdx (ix2 p h) ((contrEquiv1 dot_S2000x128_S128x256_S2000x256_1_0_0_1_n_n 128 rfl rfl).symm k) = ix2 k h := funext fun a => Fin.ext (by
    match a with
    | ⟨0, _⟩ => exact (hidden_rhs_row _ _).trans hk
    | ⟨1, _⟩ => exact hidden_rhs_col _ _)
  rw [el, er]

/-- In the second product, 2000×256 by 256×128 contracted over the 256, the left factor's row is the result's row … -/
theorem out_lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … its column the summation index, … -/
theorem out_lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- … the right factor's row the summation index … -/
theorem out_rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and its column the result's column. -/
theorem out_rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product into the zero matrix, at (p, q): the sum over h of l(p, h) · r(h, q). -/
theorem out_product (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ h : Fin 256, l (ix2 p h) * r (ix2 h q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact out_lhs_row _ _
    | ⟨1, _⟩ => exact (out_lhs_col _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (out_rhs_row _ _).trans hk
    | ⟨1, _⟩ => exact out_rhs_col _ _)
  rw [el, er]

/-- The hidden layer of a block at (p, h): the product plus the bias laid along every row, rectified, is the layer of
    row p of the block. -/
theorem hidden_apply (x : FVec Ideal S2000x128 .f32) (W : FVec Ideal S128x256 .f32) (b : FVec Ideal S256 .f32) (p : Fin 2000) (h : Fin 256) :
    maximumf (addf (matmul dot_S2000x128_S128x256_S2000x256_1_0_0_1_n_n none (truncf .bf16 x bitsLt_bf16_f32) (truncf .bf16 W bitsLt_bf16_f32)
          (constant (F := Ideal) S2000x256 .f32 0x00000000#32))
        (broadcastTo S2000x256 (shapeCast S1x256 b shapeCasts_S256_S1x256) broadcasts_S1x256_S2000x256))
      (broadcast S2000x256 (Scalar.ofBits (F := Ideal) .f32 0x00000000#32)) (ix2 p h)
      = MeshNet.rowLayer (MeshNet.row x p) W b h := by
  rw [maximumf_apply, addf_apply, broadcast_apply, hidden_product, broadcastTo_1b_ab_apply, shapeCast_a_1a_apply]
  show max ((∑ k : Fin 128, x (ix2 p k) * W (ix2 k h)) + b (ix1 h)) (Ideal.ofBits .f32 0x00000000#32) = max ((∑ k : Fin 128, x (ix2 p k) * W (ix2 k h)) + b (ix1 h)) 0
  rw [Ideal.ofBits_zero_f32]

/-- The output layer of a block at (p, q), likewise, over any hidden block y. -/
theorem out_apply (y : FVec Ideal S2000x256 .f32) (W : FVec Ideal S256x128 .f32) (b : FVec Ideal S128 .f32) (p : Fin 2000) (q : Fin 128) :
    maximumf (addf (matmul dot_S2000x256_S256x128_S2000x128_1_0_0_1_n_n none (truncf .bf16 y bitsLt_bf16_f32) (truncf .bf16 W bitsLt_bf16_f32)
          (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) (ix2 p q)
      = MeshNet.rowLayer (MeshNet.row y p) W b q := by
  rw [maximumf_apply, addf_apply, broadcast_apply, out_product, broadcastTo_1b_ab_apply, shapeCast_a_1a_apply]
  show max ((∑ h : Fin 256, y (ix2 p h) * W (ix2 h q)) + b (ix1 q)) (Ideal.ofBits .f32 0x00000000#32) = max ((∑ h : Fin 256, y (ix2 p h) * W (ix2 h q)) + b (ix1 q)) 0
  rw [Ideal.ofBits_zero_f32]

/-- What the body stores, at (p, q): the two-layer perceptron of row p of the block. -/
theorem stored_apply (x : Vec Ideal S2000x128 .f32) (W1 : Vec Ideal S128x256 .f32) (b1 : Vec Ideal S256 .f32) (W2 : Vec Ideal S256x128 .f32) (b2 : Vec Ideal S128 .f32)
    (p : Fin 2000) (q : Fin 128) :
    k1_pay1 (F := Ideal) x W1 b1 W2 b2 (ix2 p q) = MeshNet.rowMlp (MeshNet.row x p) W1 b1 W2 b2 q := by
  unfold k1_pay1
  refine (out_apply _ W2 b2 p q).trans ?_
  unfold MeshNet.rowMlp
  exact congrArg (fun r => MeshNet.rowLayer r W2 b2 q) (funext fun h => hidden_apply x W1 b1 p h)

/-- The same at any index of the block. -/
theorem stored_at (x : Vec Ideal S2000x128 .f32) (W1 : Vec Ideal S128x256 .f32) (b1 : Vec Ideal S256 .f32) (W2 : Vec Ideal S256x128 .f32) (b2 : Vec Ideal S128 .f32)
    (j : S2000x128.Idx) :
    k1_pay1 (F := Ideal) x W1 b1 W2 b2 j = MeshNet.rowMlp (MeshNet.row x (j 0)) W1 b1 W2 b2 (j 1) := by
  obtain ⟨p, q, rfl⟩ : ∃ (p : Fin 2000) (q : Fin 128), j = ix2 p q := ⟨j 0, j 1, eq_ix2 j⟩
  exact stored_apply x W1 b1 W2 b2 p q

end Embed1

namespace Embed1

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point t the matrix block and the result block are block t of their arrays (rows 2000·t on),
    and the weights and biases are the whole arrays. -/
theorem block_places : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Entry y of the matrix block at point t is the matrix at row 2000·t + y₀, column y₁. -/
theorem rows_block (V : Entry1) (c : Dev nD) (t : Fin cfg1.N) (y : S2000x128.Idx) (i : S320000x128.Idx)
    (h0 : (i 0).val = t.val * 2000 + (y 0).val) (h1 : (i 1).val = (y 1).val) :
    (iblk1 V c 0 t : Vec Ideal S2000x128 .f32) y = (V c main_arg1 : S320000x128.Idx → EReal) i := by
  obtain ⟨e0, e1, -⟩ := block_places t
  unfold iblk1
  rw [View.read_apply]
  show V c main_arg1 _ = V c main_arg1 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The first weight block is the first weight matrix … -/
theorem weights1_block (V : Entry1) (c : Dev nD) (t : Fin cfg1.N) :
    (iblk1 V c 1 t : Vec Ideal S128x256 .f32) = V c main_arg8 := by
  obtain ⟨-, -, e0, e1, -⟩ := block_places t
  funext y
  unfold iblk1
  rw [View.read_apply]
  show V c main_arg8 _ = V c main_arg8 y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 256 + 1 * (y 1).val = (y 1).val; rw [e1]; omega

/-- … the first bias block the first bias … -/
theorem bias1_block (V : Entry1) (c : Dev nD) (t : Fin cfg1.N) :
    (iblk1 V c 2 t : Vec Ideal S256 .f32) = V c main_arg9 := by
  obtain ⟨-, -, -, -, e0, -⟩ := block_places t
  funext y
  unfold iblk1
  rw [View.read_apply]
  show V c main_arg9 _ = V c main_arg9 y
  congr 1
  funext a
  apply Fin.ext
  match a with
  | ⟨0, _⟩ => show win1_2.index t (0 : Fin 1) * 256 + 1 * (y 0).val = (y 0).val; rw [e0]; omega

/-- … the second weight block the second weight matrix … -/
theorem weights2_block (V : Entry1) (c : Dev nD) (t : Fin cfg1.N) :
    (iblk1 V c 3 t : Vec Ideal S256x128 .f32) = V c main_arg10 := by
  obtain ⟨-, -, -, -, -, e0, e1, -⟩ := block_places t
  funext y
  unfold iblk1
  rw [View.read_apply]
  show V c main_arg10 _ = V c main_arg10 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- … and the second bias block the second bias. -/
theorem bias2_block (V : Entry1) (c : Dev nD) (t : Fin cfg1.N) :
    (iblk1 V c 4 t : Vec Ideal S128 .f32) = V c main_arg11 := by
  obtain ⟨-, -, -, -, -, -, -, e0, -⟩ := block_places t
  funext y
  unfold iblk1
  rw [View.read_apply]
  show V c main_arg11 _ = V c main_arg11 y
  congr 1
  funext a
  apply Fin.ext
  match a with
  | ⟨0, _⟩ => show win1_4.index t (0 : Fin 1) * 128 + 1 * (y 0).val = (y 0).val; rw [e0]; omega

/-- Row-locality: if row j₀ of a block x is row i₀ of the matrix X and the columns agree, the perceptron of the block's row
    at column j₁ is the perceptron of the whole matrix at i. -/
theorem row_local (x : MeshNet.Mat 2000 128) (X : MeshNet.Mat 320000 128) (W1 : MeshNet.Mat 128 256) (b1 : MeshNet.Vc 256)
    (W2 : MeshNet.Mat 256 128) (b2 : MeshNet.Vc 128) (j : S2000x128.Idx) (i : S320000x128.Idx)
    (hrow : ∀ k : Fin 128, x (ix2 (j 0) k) = X (ix2 (i 0) k)) (hcol : (j 1).val = (i 1).val) :
    MeshNet.rowMlp (MeshNet.row x (j 0)) W1 b1 W2 b2 (j 1) = MeshNet.mlp X W1 b1 W2 b2 i := by
  unfold MeshNet.mlp
  have e : MeshNet.row x (j 0) = MeshNet.row X (i 0) := funext hrow
  rw [e]
  exact congrArg _ (Fin.ext hcol)

/-- What point t writes back is block t of the perceptron of the whole matrix. -/
theorem flushed_eq (V : Entry1) (c : Dev nD) (t : Fin cfg1.N) :
    (dat1 (F := Ideal) V c).flushed 5 t
      = ((cfg1.win 5).blk t).view.read (Elt Ideal)
          (MeshNet.mlp (V c main_arg1) (V c main_arg8) (V c main_arg9) (V c main_arg10) (V c main_arg11)) := by
  show (cfg1.win 5).cut (grid1.coords t) ((dat1 (F := Ideal) V c).after 5 t) = _
  rw [after1_5]
  unfold out1_5
  rw [View.canon_unit_zero zero2]
  simp only [View.ld_unit_zero (S := S2000x128) zero2, View.ld_unit_zero (S := S128x256) zero2, View.ld_unit_zero (S := S256x128) zero2,
    View.ld_unit_zero (S := S256) zero1, View.ld_unit_zero (S := S128) zero1]
  rw [weights1_block, bias1_block, weights2_block, bias2_block]
  obtain ⟨-, -, -, -, -, -, -, -, e0, e1⟩ := block_places t
  funext j
  rw [View.read_apply]
  refine (stored_at (iblk1 V c 0 t) (V c main_arg8) (V c main_arg9) (V c main_arg10) (V c main_arg11) _).trans ?_
  refine row_local (iblk1 V c 0 t) (V c main_arg1) (V c main_arg8) (V c main_arg9) (V c main_arg10) (V c main_arg11) _ _ (fun k => ?_) ?_
  · refine rows_block V c t _ _ ?_ rfl
    show win1_5.index t (0 : Fin 2) * 2000 + 1 * (j 0).val = t.val * 2000 + (j 0).val
    rw [e0]; omega
  · show (j 1).val = win1_5.index t (1 : Fin 2) * 128 + 1 * (j 1).val
    rw [e1]; omega

end Embed1

namespace Embed1

/-- An index of the result array lies in point t's block iff each coordinate lies in the block's range on its axis. -/
theorem mem_block (t : Fin cfg1.N) (i : S320000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v1).slice (win1_5.rect t)).set ↔ _
  rw [View.set_slice_whole, Rect.mem_set_unit]
  exact Iff.rfl

/-- The blocks fill the array: row r lies in the block of point r / 2000. -/
theorem blocks_cover (i : S320000x128.Idx) :
    ∃ t : Fin cfg1.N, (cfg1.win 5).flush t = true ∧ i ∈ ((cfg1.win 5).blk t).view.set := by
  have hi0 : (i 0).val < 320000 := (i 0).isLt
  have hi1 : (i 1).val < 128 := (i 1).isLt
  obtain ⟨t, ht⟩ : ∃ t : Fin cfg1.N, t.val = (i 0).val / 2000 :=
    ⟨⟨(i 0).val / 2000, by rw [show cfg1.N = 160 from N_1]; omega⟩, rfl⟩
  obtain ⟨-, -, -, -, -, -, -, -, e0, e1⟩ := block_places t
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

end Embed1

/-- What the call leaves in its result array, whatever contents it is entered from. -/
theorem region1_value (V : Entry1) (c : Dev nD) :
    (dat1 (F := Ideal) V c).arrAt 5 cfg1.N
      = MeshNet.mlp (V c main_arg1) (V c main_arg8) (V c main_arg9) (V c main_arg10) (V c main_arg11) :=
  (dat1 (F := Ideal) V c).arrAt_eq_of_cover 5
    (MeshNet.mlp (V c main_arg1) (V c main_arg8) (V c main_arg9) (V c main_arg10) (V c main_arg11))
    (fun t _ => Embed1.flushed_eq V c t) Embed1.blocks_cover

end Cert.KernelIdeal.NetValue

end
-- ==== Proof.Region2.lean ====
/-
  The first edge call: sender rows, receiver rows and edge rows, 160 blocks of 2000 rows each, go through the edge stage
  computed part by part (each part against its own block of rows of the first weight matrix); block t of the result is written
  back. The stage acts row by row, so the blocks together are the stage of the whole matrices.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The buffer contents a call is entered from. -/
abbrev Entry2 := (c : Dev nD) → (b : Ref sig .tc) → Buf (Elt Ideal) ((c : Thread nD τ).loc b)

namespace EdgeCall2

/-! ## The two block products at an entry

A block product of a [2000, K] block with a [K, N] matrix into the zero block has at entry (p, j) the sum over k of
x (p, k) · w (k, j). -/

theorem lhs_first_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_first_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_first_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_first_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, h) of a first-layer product: the sum over the 128 entries of row p against column h. -/
theorem first_product_apply (x : FVec Ideal S2000x128 .bf16) (w : FVec Ideal S128x256 .bf16) (p : Fin 2000) (h : Fin 256) :
    matmul dot_S2000x128_S128x256_S2000x256_1_0_0_1_n_n none x w (constant (F := Ideal) S2000x256 .f32 0x00000000#32) (ix2 p h)
      = ∑ k : Fin 128, x (ix2 p k) * w (ix2 k h) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p h) ((ValueIdx.contrEquiv1 dot_S2000x128_S128x256_S2000x256_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S2000x128_S128x256_S2000x256_1_0_0_1_n_n.rhsIdx (ix2 p h) ((ValueIdx.contrEquiv1 dot_S2000x128_S128x256_S2000x256_1_0_0_1_n_n 128 rfl rfl).symm k) = ix2 k h := funext fun a => Fin.ext (by
    match a with
    | ⟨0, _⟩ => exact (rhs_first_0 _ _).trans hk
    | ⟨1, _⟩ => exact rhs_first_1 _ _)
  rw [el, er]

theorem lhs_second_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_second_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_second_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_second_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, q) of the second-layer product: the sum over the 256 hidden entries of row p against column q. -/
theorem second_product_apply (x : FVec Ideal S2000x256 .bf16) (w : FVec Ideal S256x128 .bf16) (p : Fin 2000) (q : Fin 128) :
    matmul dot_S2000x256_S256x128_S2000x128_1_0_0_1_n_n none x w (constant (F := Ideal) S2000x128 .f32 0x00000000#32) (ix2 p q)
      = ∑ h : Fin 256, x (ix2 p h) * w (ix2 h q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The bias rows -/

/-- The 256 first-layer biases laid as one row and repeated down the block read, at (p, h), bias h. -/
theorem bias256_apply (b : Vec Ideal S256 .f32) (p : Fin 2000) (h : Fin 256) :
    broadcastTo S2000x256 (shapeCast S1x256 b shapeCasts_S256_S1x256) broadcasts_S1x256_S2000x256 (ix2 p h) = b (ix1 h) := by
  refine (broadcastTo_apply _ broadcasts_S1x256_S2000x256 (ix2 p h) (ix2 (0 : Fin 1) h) (fun a => ?_)).trans ?_
  · match a with
    | ⟨0, _⟩ => show (0 : Nat) = if (1 : Nat) = 1 then 0 else p.val; rw [if_pos rfl]
    | ⟨1, _⟩ => show h.val = if (256 : Nat) = 1 then 0 else h.val; rw [if_neg (by decide)]
  · exact shapeCast_apply b shapeCasts_S256_S1x256 (ix2 (0 : Fin 1) h) (ix1 h) (by
      rw [Shape.rowMajor_val_one, Shape.rowMajor_val_two]; show h.val = 0 * 256 + h.val; omega)

/-- The 128 second-layer biases laid as one row and repeated down the block read, at (p, q), bias q. -/
theorem bias128_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · exact shapeCast_apply b shapeCasts_S128_S1x128 (ix2 (0 : Fin 1) q) (ix1 q) (by
      rw [Shape.rowMajor_val_one, Shape.rowMajor_val_two]; show q.val = 0 * 128 + q.val; omega)

/-! ## The body's value at an entry

Entry (p, q) of what the body stores depends only on row p of the three matrix blocks: it is the rectified second layer
of the hidden row computed part by part. A change of number format is the identity on the extended reals. -/

/-- Before the last rectifier: the second layer's sum over the hidden row, plus the bias. -/
theorem second_layer_apply (x0 x1 x2 : Vec Ideal S2000x128 .f32) (w0 w1 w2 : Vec Ideal S128x256 .f32) (b1 : Vec Ideal S256 .f32)
    (W2 : Vec Ideal S256x128 .f32) (b2 : Vec Ideal S128 .f32) (p : Fin 2000) (q : Fin 128) :
    k2_pay2 (F := Ideal) x0 x1 x2 w0 w1 w2 b1 W2 b2 (ix2 p q)
      = ∑ h : Fin 256, MeshNet.rowHid3 (MeshNet.row x0 p) (MeshNet.row x1 p) (MeshNet.row x2 p) w0 w1 w2 b1 h * W2 (ix2 h q)
        + b2 (ix1 q) := by
  unfold k2_pay2
  rw [addf_apply, second_product_apply, bias128_apply]
  refine congrArg (· + b2 (ix1 q)) (Finset.sum_congr rfl fun h _ => ?_)
  rw [truncf_apply, truncf_apply, maximumf_apply, addf_apply, addf_apply, addf_apply,
    first_product_apply, first_product_apply, first_product_apply, bias256_apply, broadcast_apply,
    Ideal.ofBits_def, Ideal.ofBits_zero_f32]
  simp only [truncf_apply, shapeCast_self]
  rfl

/-- The stored block at (p, q): the edge stage's two layers on row p of the three blocks. -/
theorem body_apply (x0 x1 x2 : Vec Ideal S2000x128 .f32) (w0 w1 w2 : Vec Ideal S128x256 .f32) (b1 : Vec Ideal S256 .f32)
    (W2 : Vec Ideal S256x128 .f32) (b2 : Vec Ideal S128 .f32) (p : Fin 2000) (q : Fin 128) :
    k2_pay1 (F := Ideal) (k2_pay2 x0 x1 x2 w0 w1 w2 b1 W2 b2) (Scalar.ofBits .f32 0x00000000#32) (ix2 p q)
      = MeshNet.rowLayer (MeshNet.rowHid3 (MeshNet.row x0 p) (MeshNet.row x1 p) (MeshNet.row x2 p) w0 w1 w2 b1) W2 b2 q := by
  unfold k2_pay1
  rw [maximumf_apply, broadcast_apply, second_layer_apply]
  show max _ (Ideal.ofBits .f32 0x00000000#32) = _
  rw [Ideal.ofBits_zero_f32]
  rfl

/-! ## The blocks a point reads

Point t reads rows 2000 t … 2000 t + 1999 of each of the three matrices, and the whole of each weight matrix and bias
vector: an entry of a block sits in its array at block index × block size + its own coordinate. -/

theorem hz2 : (![0, 0] : Fin 2 → Nat) = fun _ => 0 := funext fun a => by fin_cases a <;> rfl
theorem hz1 : (![0] : Fin 1 → Nat) = fun _ => 0 := funext fun a => by fin_cases a; rfl

/-- The block indices at point t: t along the rows of the three matrices and of the result, zero everywhere else. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = t.val ∧ win2_9.index t (1 : Fin 2) = 0 :=
  (by decide +kernel : ∀ t : Fin grid2.N, _)

/-- Row p of point t's blocks is row 2000 t + p of the matrices. -/
def rowAt (t : Fin cfg2.N) (p : Fin 2000) : Fin 320000 :=
  ⟨t.val * 2000 + p.val, by have ht : t.val < 160 := lt_of_lt_of_eq t.isLt N_2; have hp := p.isLt; omega⟩

theorem senders_block (V : Entry2) (c : Dev nD) (t : Fin cfg2.N) (p : Fin 2000) :
    MeshNet.row (iblk2 V c 0 t : Vec Ideal S2000x128 .f32) p = MeshNet.row (V c main_v7) (rowAt t p) := by
  funext k
  obtain ⟨e0, e1, -⟩ := block_indices t
  unfold MeshNet.row iblk2
  rw [View.read_apply]
  show V c main_v7 _ = V c main_v7 _
  refine congrArg (V c main_v7) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem receivers_block (V : Entry2) (c : Dev nD) (t : Fin cfg2.N) (p : Fin 2000) :
    MeshNet.row (iblk2 V c 1 t : Vec Ideal S2000x128 .f32) p = MeshNet.row (V c main_v8) (rowAt t p) := by
  funext k
  obtain ⟨-, -, e0, e1, -⟩ := block_indices t
  unfold MeshNet.row iblk2
  rw [View.read_apply]
  show V c main_v8 _ = V c main_v8 _
  refine congrArg (V c main_v8) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

theorem edges_block (V : Entry2) (c : Dev nD) (t : Fin cfg2.N) (p : Fin 2000) :
    MeshNet.row (iblk2 V c 2 t : Vec Ideal S2000x128 .f32) p = MeshNet.row (V c main_v1) (rowAt t p) := by
  funext k
  obtain ⟨-, -, -, -, e0, e1, -⟩ := block_indices t
  unfold MeshNet.row iblk2
  rw [View.read_apply]
  show V c main_v1 _ = V c main_v1 _
  refine congrArg (V c main_v1) (funext fun a => Fin.ext ?_)
  match a with
  | ⟨0, _⟩ => show win2_2.index t (0 : Fin 2) * 2000 + 1 * p.val = t.val * 2000 + p.val; rw [e0]; omega
  | ⟨1, _⟩ => show win2_2.index t (1 : Fin 2) * 128 + 1 * k.val = k.val; rw [e1]; omega

theorem first_weights_a (V : Entry2) (c : Dev nD) (t : Fin cfg2.N) :
    (iblk2 V c 3 t : Vec Ideal S128x256 .f32) = V c main_v2 := by
  funext j
  obtain ⟨-, -, -, -, -, -, e0, e1, -⟩ := block_indices t
  unfold iblk2
  rw [View.read_apply]
  show V c main_v2 _ = V c main_v2 j
  refine congrArg (V c main_v2) (funext fun a => Fin.ext ?_)
  match a with
  | ⟨0, _⟩ => show win2_3.index t (0 : Fin 2) * 128 + 1 * (j 0).val = (j 0).val; rw [e0]; omega
  | ⟨1, _⟩ => show win2_3.index t (1 : Fin 2) * 256 + 1 * (j 1).val = (j 1).val; rw [e1]; omega

theorem first_weights_b (V : Entry2) (c : Dev nD) (t : Fin cfg2.N) :
    (iblk2 V c 4 t : Vec Ideal S128x256 .f32) = V c main_v3 := by
  funext j
  obtain ⟨-, -, -, -, -, -, -, -, e0, e1, -⟩ := block_indices t
  unfold iblk2
  rw [View.read_apply]
  show V c main_v3 _ = V c main_v3 j
  refine congrArg (V c main_v3) (funext fun a => Fin.ext ?_)
  match a with
  | ⟨0, _⟩ => show win2_4.index t (0 : Fin 2) * 128 + 1 * (j 0).val = (j 0).val; rw [e0]; omega
  | ⟨1, _⟩ => show win2_4.index t (1 : Fin 2) * 256 + 1 * (j 1).val = (j 1).val; rw [e1]; omega

theorem first_weights_c (V : Entry2) (c : Dev nD) (t : Fin cfg2.N) :
    (iblk2 V c 5 t : Vec Ideal S128x256 .f32) = V c main_v4 := by
  funext j
  obtain ⟨-, -, -, -, -, -, -, -, -, -, e0, e1, -⟩ := block_indices t
  unfold iblk2
  rw [View.read_apply]
  show V c main_v4 _ = V c main_v4 j
  refine congrArg (V c main_v4) (funext fun a => Fin.ext ?_)
  match a with
  | ⟨0, _⟩ => show win2_5.index t (0 : Fin 2) * 128 + 1 * (j 0).val = (j 0).val; rw [e0]; omega
  | ⟨1, _⟩ => show win2_5.index t (1 : Fin 2) * 256 + 1 * (j 1).val = (j 1).val; rw [e1]; omega

theorem first_bias (V : Entry2) (c : Dev nD) (t : Fin cfg2.N) :
    (iblk2 V c 6 t : Vec Ideal S256 .f32) = V c main_arg13 := by
  funext j
  obtain ⟨-, -, -, -, -, -, -, -, -, -, -, -, e0, -⟩ := block_indices t
  unfold iblk2
  rw [View.read_apply]
  show V c main_arg13 _ = V c main_arg13 j
  refine congrArg (V c main_arg13) (funext fun a => Fin.ext ?_)
  match a with
  | ⟨0, _⟩ => show win2_6.index t (0 : Fin 1) * 256 + 1 * (j 0).val = (j 0).val; rw [e0]; omega

theorem second_weights (V : Entry2) (c : Dev nD) (t : Fin cfg2.N) :
    (iblk2 V c 7 t : Vec Ideal S256x128 .f32) = V c main_arg14 := by
  funext j
  obtain ⟨-, -, -, -, -, -, -, -, -, -, -, -, -, e0, e1, -⟩ := block_indices t
  unfold iblk2
  rw [View.read_apply]
  show V c main_arg14 _ = V c main_arg14 j
  refine congrArg (V c main_arg14) (funext fun a => Fin.ext ?_)
  match a with
  | ⟨0, _⟩ => show win2_7.index t (0 : Fin 2) * 256 + 1 * (j 0).val = (j 0).val; rw [e0]; omega
  | ⟨1, _⟩ => show win2_7.index t (1 : Fin 2) * 128 + 1 * (j 1).val = (j 1).val; rw [e1]; omega

theorem second_bias (V : Entry2) (c : Dev nD) (t : Fin cfg2.N) :
    (iblk2 V c 8 t : Vec Ideal S128 .f32) = V c main_arg15 := by
  funext j
  obtain ⟨-, -, -, -, -, -, -, -, -, -, -, -, -, -, -, e0, -⟩ := block_indices t
  unfold iblk2
  rw [View.read_apply]
  show V c main_arg15 _ = V c main_arg15 j
  refine congrArg (V c main_arg15) (funext fun a => Fin.ext ?_)
  match a with
  | ⟨0, _⟩ => show win2_8.index t (0 : Fin 1) * 128 + 1 * (j 0).val = (j 0).val; rw [e0]; omega

/-- Entry (p, q) of the result's block at point t sits at (2000 t + p, q) of the result array. -/
theorem result_block_entry (t : Fin cfg2.N) (p : Fin 2000) (q : Fin 128) :
    ((cfg2.win 9).blk t).view.emb (ix2 p q) = ix2 (rowAt t p) q := by
  obtain ⟨-, -, -, -, -, -, -, -, -, -, -, -, -, -, -, -, e0, e1⟩ := block_indices t
  refine funext fun a => Fin.ext ?_
  match a with
  | ⟨0, _⟩ => show win2_9.index t (0 : Fin 2) * 2000 + 1 * p.val = t.val * 2000 + p.val; rw [e0]; omega
  | ⟨1, _⟩ => show win2_9.index t (1 : Fin 2) * 128 + 1 * q.val = q.val; rw [e1]; omega

/-! ## From the blocks to the array -/

/-- What point t writes back is block t of the edge stage of the whole matrices: the stage acts row by row. -/
theorem written_block (V : Entry2) (c : Dev nD) (t : Fin cfg2.N) :
    (dat2 (F := Ideal) V c).flushed 9 t = ((cfg2.win 9).blk t).view.read (Elt Ideal)
      (MeshNet.edgeParts (V c main_v7) (V c main_v8) (V c main_v1) (V c main_v2) (V c main_v3) (V c main_v4)
          (V c main_arg13) (V c main_arg14) (V c main_arg15)) := by
  show (cfg2.win 9).cut (grid2.coords t) ((dat2 (F := Ideal) V c).after 9 t) = _
  rw [after2_9]
  unfold out2_9
  rw [View.canon_unit_zero hz2]
  simp only [View.ld_unit_zero (S := S2000x128) hz2, View.ld_unit_zero (S := S128x256) hz2, View.ld_unit_zero (S := S256) hz1,
    View.ld_unit_zero (S := S256x128) hz2, View.ld_unit_zero (S := S128) hz1]
  funext j
  show k2_pay1 (F := Ideal) (k2_pay2 (iblk2 V c 0 t) (iblk2 V c 1 t) (iblk2 V c 2 t) (iblk2 V c 3 t) (iblk2 V c 4 t) (iblk2 V c 5 t)
        (iblk2 V c 6 t) (iblk2 V c 7 t) (iblk2 V c 8 t)) (Scalar.ofBits .f32 0x00000000#32) j
      = MeshNet.edgeParts (V c main_v7) (V c main_v8) (V c main_v1) (V c main_v2) (V c main_v3) (V c main_v4)
          (V c main_arg13) (V c main_arg14) (V c main_arg15) (((cfg2.win 9).blk t).view.emb j)
  obtain ⟨p, q, rfl⟩ : ∃ (p : Fin 2000) (q : Fin 128), j = ix2 p q := ⟨j 0, j 1, eq_ix2 j⟩
  refine (body_apply (iblk2 V c 0 t) (iblk2 V c 1 t) (iblk2 V c 2 t) (iblk2 V c 3 t) (iblk2 V c 4 t) (iblk2 V c 5 t)
    (iblk2 V c 6 t) (iblk2 V c 7 t) (iblk2 V c 8 t) p q).trans ?_
  refine Eq.trans ?_ (congrArg (MeshNet.edgeParts (V c main_v7) (V c main_v8) (V c main_v1) (V c main_v2) (V c main_v3) (V c main_v4)
          (V c main_arg13) (V c main_arg14) (V c main_arg15)) (result_block_entry t p q)).symm
  show _ = MeshNet.rowLayer (MeshNet.rowHid3 (MeshNet.row (V c main_v7) (rowAt t p)) (MeshNet.row (V c main_v8) (rowAt t p))
      (MeshNet.row (V c main_v1) (rowAt t p)) (V c main_v2) (V c main_v3) (V c main_v4) (V c main_arg13)) (V c main_arg14) (V c main_arg15) q
  rw [senders_block V c t p, receivers_block V c t p, edges_block V c t p, first_weights_a V c t, first_weights_b V c t,
    first_weights_c V c t, first_bias V c t, second_weights V c t, second_bias V c t]

/-- An entry of the result array is in point t's block iff each coordinate is in the block's range on its axis. -/
theorem mem_result_block (t : Fin cfg2.N) (i : S320000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v9).slice (win2_9.rect t)).set ↔ _
  rw [View.set_slice_whole, Rect.mem_set_unit]
  exact Iff.rfl

/-- Row r of the result is written by point r / 2000: the 160 blocks of 2000 rows cover the 320000 rows. -/
theorem rows_covered (i : S320000x128.Idx) :
    ∃ t : Fin cfg2.N, (cfg2.win 9).flush t = true ∧ i ∈ ((cfg2.win 9).blk t).view.set := by
  have hi0 : (i 0).val < 320000 := (i 0).isLt
  have hi1 : (i 1).val < 128 := (i 1).isLt
  have hN : cfg2.N = 160 := N_2
  refine ⟨⟨(i 0).val / 2000, by rw [hN]; omega⟩, flush2_9 _, ?_⟩
  obtain ⟨-, -, -, -, -, -, -, -, -, -, -, -, -, -, -, -, e0, e1⟩ := block_indices ⟨(i 0).val / 2000, by rw [hN]; omega⟩
  rw [mem_result_block]
  intro a
  match a with
  | ⟨0, _⟩ =>
    show win2_9.index ⟨(i 0).val / 2000, _⟩ (0 : Fin 2) * 2000 ≤ (i 0).val ∧ (i 0).val < win2_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_9.index ⟨(i 0).val / 2000, _⟩ (1 : Fin 2) * 128 ≤ (i 1).val ∧ (i 1).val < win2_9.index ⟨(i 0).val / 2000, _⟩ (1 : Fin 2) * 128 + 128
    rw [e1]; omega

end EdgeCall2

/-- What the call leaves in its result array, whatever contents it is entered from. -/
theorem region2_value (V : Entry2) (c : Dev nD) :
    (dat2 (F := Ideal) V c).arrAt 9 cfg2.N
      = MeshNet.edgeParts (V c main_v7) (V c main_v8) (V c main_v1) (V c main_v2) (V c main_v3) (V c main_v4)
          (V c main_arg13) (V c main_arg14) (V c main_arg15) :=
  (dat2 (F := Ideal) V c).arrAt_eq_of_cover 9
    (MeshNet.edgeParts (V c main_v7) (V c main_v8) (V c main_v1) (V c main_v2) (V c main_v3) (V c main_v4)
      (V c main_arg13) (V c main_arg14) (V c main_arg15))
    (fun t _ => EdgeCall2.written_block V c t) EdgeCall2.rows_covered

end Cert.KernelIdeal.NetValue

end
-- ==== Proof.Region3.lean ====
/-
  The first node call: node rows and aggregated rows, 10 blocks of 2000 rows each, go through the node stage computed part
  by part; block t of the result is written back. The stage acts row by row, so the blocks together are the stage of the whole
  matrices.
-/
import proofs.«428749_j52252572123266_1_alg».proof.Proof.Gen.KernelIdeal.Frame
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The buffer contents a call is entered from. -/
abbrev Entry3 := (c : Dev nD) → (b : Ref sig .tc) → Buf (Elt Ideal) ((c : Thread nD τ).loc b)

/-! ## The two contractions, read at an index

Each product of the body contracts the second axis of its left operand with the first axis of its right operand, so entry
(p, h) of the product is the sum over k of left (p, k) times right (k, h). -/

theorem hidLeft3_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem hidLeft3_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem hidRight3_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem hidRight3_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A first-layer product into the zero accumulator, at (p, h): the sum over the 128 entries of row p. -/
theorem hidProd3_apply (l : FVec Ideal S2000x128 .bf16) (r : FVec Ideal S128x256 .bf16) (p : Fin 2000) (h : Fin 256) :
    matmul (F := Ideal) dot_S2000x128_S128x256_S2000x256_1_0_0_1_n_n none l r (constant (F := Ideal) S2000x256 .f32 0x00000000#32) (ix2 p h)
      = ∑ k : Fin 128, l (ix2 p k) * r (ix2 k h) := by
  refine (Ideal.matmul_constant_zero_apply dot_S2000x128_S128x256_S2000x256_1_0_0_1_n_n none l r (ix2 p h)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p h) ((ValueIdx.contrEquiv1 dot_S2000x128_S128x256_S2000x256_1_0_0_1_n_n 128 rfl rfl).symm k) = ix2 p k := funext fun a => Fin.ext (by
    match a with
    | ⟨0, _⟩ => exact hidLeft3_0 _ _
    | ⟨1, _⟩ => exact (hidLeft3_1 _ _).trans hk)
  have er : dot_S2000x128_S128x256_S2000x256_1_0_0_1_n_n.rhsIdx (ix2 p h) ((ValueIdx.contrEquiv1 dot_S2000x128_S128x256_S2000x256_1_0_0_1_n_n 128 rfl rfl).symm k) = ix2 k h := funext fun a => Fin.ext (by
    match a with
    | ⟨0, _⟩ => exact (hidRight3_0 _ _).trans hk
    | ⟨1, _⟩ => exact hidRight3_1 _ _)
  rw [el, er]

theorem outLeft3_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem outLeft3_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem outRight3_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem outRight3_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second-layer product into the zero accumulator, at (p, q): the sum over the 256 entries of hidden row p. -/
theorem outProd3_apply (l : FVec Ideal S2000x256 .bf16) (r : FVec Ideal S256x128 .bf16) (p : Fin 2000) (q : Fin 128) :
    matmul (F := Ideal) dot_S2000x256_S256x128_S2000x128_1_0_0_1_n_n none l r (constant (F := Ideal) S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact outLeft3_0 _ _
    | ⟨1, _⟩ => exact (outLeft3_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (outRight3_0 _ _).trans hk
    | ⟨1, _⟩ => exact outRight3_1 _ _)
  rw [el, er]

/-! ## The biases, spread over the rows -/

/-- The first bias, cast to one row and spread over 2000 rows, at (p, h): its entry h. -/
theorem hidBias3_apply (b : FVec Ideal S256 .f32) (p : Fin 2000) (h : Fin 256) :
    broadcastTo (α := Ideal .f32) S2000x256 (shapeCast (α := Ideal .f32) S1x256 b shapeCasts_S256_S1x256) broadcasts_S1x256_S2000x256 (ix2 p h) = b (ix1 h) :=
  (broadcastTo_1b_ab_apply _ broadcasts_S1x256_S2000x256 p h).trans (shapeCast_a_1a_apply b shapeCasts_S256_S1x256 0 h)

/-- The second bias, cast to one row and spread over 2000 rows, at (p, q): its entry q. -/
theorem outBias3_apply (b : FVec Ideal S128 .f32) (p : Fin 2000) (q : Fin 128) :
    broadcastTo (α := Ideal .f32) S2000x128 (shapeCast (α := Ideal .f32) S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The zero the rectifier compares with is the extended real 0. -/
theorem zeroWord3 : (FloatOps.ofBits (F := Ideal) .f32 0x00000000#32 : Ideal .f32) = 0 := Ideal.ofBits_zero_f32

/-! ## The body's result at an index -/

/-- Entry (p, q) of what the body stores is the node stage, computed part by part, of row p of its two matrix blocks. -/
theorem payload3_apply (x a : Vec Ideal S2000x128 .f32) (Wa Wb : Vec Ideal S128x256 .f32) (b1 : Vec Ideal S256 .f32)
    (W2 : Vec Ideal S256x128 .f32) (b2 : Vec Ideal S128 .f32) (p : Fin 2000) (q : Fin 128) :
    k3_pay1 (F := Ideal) x a Wa Wb b1 W2 b2 (ix2 p q)
      = MeshNet.rowLayer (MeshNet.rowHid2 (MeshNet.row x p) (MeshNet.row a p) Wa Wb b1) W2 b2 q := by
  unfold k3_pay1
  simp only [shapeCast_self, maximumf_apply, addf_apply, broadcast_apply, outProd3_apply, outBias3_apply, truncf_apply,
    hidProd3_apply, hidBias3_apply, zeroWord3]
  rfl

/-- The body's result at any index j of its block, when row (j 0) of the two matrix blocks is row (i 0) of two matrices
    X and A and the column is the same: the node stage of X and A at i. -/
theorem payload3_rows (x a : Vec Ideal S2000x128 .f32) (Wa Wb : Vec Ideal S128x256 .f32) (b1 : Vec Ideal S256 .f32)
    (W2 : Vec Ideal S256x128 .f32) (b2 : Vec Ideal S128 .f32)
    (X A : MeshNet.Mat 20000 128) (Wa' Wb' : MeshNet.Mat 128 256) (b1' : MeshNet.Vc 256) (W2' : MeshNet.Mat 256 128)
    (b2' : MeshNet.Vc 128) (j : S2000x128.Idx) (i : S20000x128.Idx)
    (hx : ∀ k : Fin 128, x (ix2 (j 0) k) = X (ix2 (i 0) k))
    (ha : ∀ k : Fin 128, a (ix2 (j 0) k) = A (ix2 (i 0) k))
    (hq : (i 1).val = (j 1).val)
    (hWa : Wa = Wa') (hWb : Wb = Wb') (hb1 : b1 = b1') (hW2 : W2 = W2') (hb2 : b2 = b2') :
    k3_pay1 (F := Ideal) x a Wa Wb b1 W2 b2 j = MeshNet.nodeParts X A Wa' Wb' b1' W2' b2' i := by
  subst hWa hWb hb1 hW2 hb2
  obtain ⟨p, q, rfl⟩ : ∃ (p : Fin 2000) (q : Fin 128), j = ix2 p q := ⟨j 0, j 1, eq_ix2 j⟩
  rw [payload3_apply]
  unfold MeshNet.nodeParts
  have hr : MeshNet.row x p = MeshNet.row X (i 0) := funext hx
  have hr' : MeshNet.row a p = MeshNet.row A (i 0) := funext ha
  have hc : (i 1 : Fin 128) = q := Fin.ext hq
  rw [hr, hr', hc]

/-! ## From the blocks to the array -/

theorem zeroOff3 : (![0, 0] : Fin 2 → Nat) = fun _ => 0 := funext fun a => by fin_cases a <;> rfl
theorem zeroOff3v : (![0] : Fin 1 → Nat) = fun _ => 0 := funext fun a => by fin_cases a <;> rfl

/-- The windows' index maps over the grid: the two matrix windows and the result window are at block (t, 0) at point t;
    the weight and bias windows stay at block 0. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0
    ∧ t.val < 10 :=
  (by decide +kernel : ∀ t : Fin grid3.N, _)

/-- Every one of the 10 row blocks is some point's. -/
theorem blockOnto3 : ∀ b : Fin 10, ∃ t : Fin cfg3.N, t.val = b.val :=
  (by decide +kernel : ∀ b : Fin 10, ∃ t : Fin grid3.N, t.val = b.val)

/-- The first weight block's window is the whole matrix at every point. -/
theorem weightA3 (V : Entry3) (c : Dev nD) (t : Fin cfg3.N) :
    (iblk3 (F := Ideal) V c 2 t : Vec Ideal S128x256 .f32) = V c main_v5 := by
  obtain ⟨-, -, -, -, e0, e1, -⟩ := blockIdx3 t
  unfold iblk3
  funext y
  rw [View.read_apply]
  show V c main_v5 (((cfg3.win 2).blk t).view.emb y) = V c main_v5 y
  congr 1
  funext a; apply Fin.ext
  match a with
  | ⟨0, _⟩ => show win3_2.index t (0 : Fin 2) * 128 + 1 * (y 0).val = (y 0).val; omega
  | ⟨1, _⟩ => show win3_2.index t (1 : Fin 2) * 256 + 1 * (y 1).val = (y 1).val; omega

/-- The second weight block's window is the whole matrix at every point. -/
theorem weightB3 (V : Entry3) (c : Dev nD) (t : Fin cfg3.N) :
    (iblk3 (F := Ideal) V c 3 t : Vec Ideal S128x256 .f32) = V c main_v6 := by
  obtain ⟨-, -, -, -, -, -, e0, e1, -⟩ := blockIdx3 t
  unfold iblk3
  funext y
  rw [View.read_apply]
  show V c main_v6 (((cfg3.win 3).blk t).view.emb y) = V c main_v6 y
  congr 1
  funext a; apply Fin.ext
  match a with
  | ⟨0, _⟩ => show win3_3.index t (0 : Fin 2) * 128 + 1 * (y 0).val = (y 0).val; omega
  | ⟨1, _⟩ => show win3_3.index t (1 : Fin 2) * 256 + 1 * (y 1).val = (y 1).val; omega

/-- The first bias's window is the whole vector at every point. -/
theorem biasHid3 (V : Entry3) (c : Dev nD) (t : Fin cfg3.N) :
    (iblk3 (F := Ideal) V c 4 t : Vec Ideal S256 .f32) = V c main_arg17 := by
  obtain ⟨-, -, -, -, -, -, -, -, e0, -⟩ := blockIdx3 t
  unfold iblk3
  funext y
  rw [View.read_apply]
  show V c main_arg17 (((cfg3.win 4).blk t).view.emb y) = V c main_arg17 y
  congr 1
  funext a; apply Fin.ext
  match a with
  | ⟨0, _⟩ => show win3_4.index t (0 : Fin 1) * 256 + 1 * (y 0).val = (y 0).val; omega

/-- The second weight matrix's window is the whole matrix at every point. -/
theorem weightOut3 (V : Entry3) (c : Dev nD) (t : Fin cfg3.N) :
    (iblk3 (F := Ideal) V c 5 t : Vec Ideal S256x128 .f32) = V c main_arg18 := by
  obtain ⟨-, -, -, -, -, -, -, -, -, e0, e1, -⟩ := blockIdx3 t
  unfold iblk3
  funext y
  rw [View.read_apply]
  show V c main_arg18 (((cfg3.win 5).blk t).view.emb y) = V c main_arg18 y
  congr 1
  funext a; apply Fin.ext
  match a with
  | ⟨0, _⟩ => show win3_5.index t (0 : Fin 2) * 256 + 1 * (y 0).val = (y 0).val; omega
  | ⟨1, _⟩ => show win3_5.index t (1 : Fin 2) * 128 + 1 * (y 1).val = (y 1).val; omega

/-- The second bias's window is the whole vector at every point. -/
theorem biasOut3 (V : Entry3) (c : Dev nD) (t : Fin cfg3.N) :
    (iblk3 (F := Ideal) V c 6 t : Vec Ideal S128 .f32) = V c main_arg19 := by
  obtain ⟨-, -, -, -, -, -, -, -, -, -, -, e0, -⟩ := blockIdx3 t
  unfold iblk3
  funext y
  rw [View.read_apply]
  show V c main_arg19 (((cfg3.win 6).blk t).view.emb y) = V c main_arg19 y
  congr 1
  funext a; apply Fin.ext
  match a with
  | ⟨0, _⟩ => show win3_6.index t (0 : Fin 1) * 128 + 1 * (y 0).val = (y 0).val; omega

/-- The node stage of the whole matrices as the call finds them. -/
abbrev stage3 (V : Entry3) (c : Dev nD) : MeshNet.Mat 20000 128 :=
  MeshNet.nodeParts (V c main_v0) (V c main_v12) (V c main_v5) (V c main_v6) (V c main_arg17) (V c main_arg18) (V c main_arg19)

/-- What point t writes back is block t of the node stage of the whole matrices: row p of the point's matrix blocks is row
    2000 t + p of the matrices, and the stage is row-local. -/
theorem block3_eq (V : Entry3) (c : Dev nD) (t : Fin cfg3.N) :
    (dat3 (F := Ideal) V c).flushed 7 t = ((cfg3.win 7).blk t).view.read (Elt Ideal) (stage3 V c) := by
  show (cfg3.win 7).cut (grid3.coords t) ((dat3 V c).after 7 t) = _
  rw [after3_7]
  unfold out3_7
  rw [View.canon_unit_zero zeroOff3]
  simp only [View.ld_unit_zero (S := S2000x128) zeroOff3, View.ld_unit_zero (S := S128x256) zeroOff3,
    View.ld_unit_zero (S := S256x128) zeroOff3, View.ld_unit_zero (S := S256) zeroOff3v, View.ld_unit_zero (S := S128) zeroOff3v]
  obtain ⟨a0, a1, g0, g1, -, -, -, -, -, -, -, -, o0, o1, -⟩ := blockIdx3 t
  funext j
  show k3_pay1 (F := Ideal) (iblk3 V c 0 t) (iblk3 V c 1 t) (iblk3 V c 2 t) (iblk3 V c 3 t) (iblk3 V c 4 t) (iblk3 V c 5 t) (iblk3 V c 6 t) j
    = stage3 V c (((cfg3.win 7).blk t).view.emb j)
  refine payload3_rows (iblk3 V c 0 t) (iblk3 V c 1 t) (iblk3 V c 2 t) (iblk3 V c 3 t) (iblk3 V c 4 t) (iblk3 V c 5 t) (iblk3 V c 6 t)
    (V c main_v0) (V c main_v12) (V c main_v5) (V c main_v6) (V c main_arg17) (V c main_arg18) (V c main_arg19)
    j (((cfg3.win 7).blk t).view.emb j) (fun k => ?_) (fun k => ?_) ?_
    (weightA3 V c t) (weightB3 V c t) (biasHid3 V c t) (weightOut3 V c t) (biasOut3 V c t)
  · show V c main_v0 (((cfg3.win 0).blk t).view.emb (ix2 (j 0) k)) = V c main_v0 (ix2 ((((cfg3.win 7).blk t).view.emb j) 0) k)
    congr 1
    funext a; apply Fin.ext
    match a with
    | ⟨0, _⟩ => show win3_0.index t (0 : Fin 2) * 2000 + 1 * (j 0).val = win3_7.index t (0 : Fin 2) * 2000 + 1 * (j 0).val; omega
    | ⟨1, _⟩ => show win3_0.index t (1 : Fin 2) * 128 + 1 * k.val = k.val; omega
  · show V c main_v12 (((cfg3.win 1).blk t).view.emb (ix2 (j 0) k)) = V c main_v12 (ix2 ((((cfg3.win 7).blk t).view.emb j) 0) k)
    congr 1
    funext a; apply Fin.ext
    match a with
    | ⟨0, _⟩ => show win3_1.index t (0 : Fin 2) * 2000 + 1 * (j 0).val = win3_7.index t (0 : Fin 2) * 2000 + 1 * (j 0).val; omega
    | ⟨1, _⟩ => show win3_1.index t (1 : Fin 2) * 128 + 1 * k.val = k.val; omega
  · show win3_7.index t (1 : Fin 2) * 128 + 1 * (j 1).val = (j 1).val; omega

/-- An index of the result array is in point t's block iff each coordinate is in the block's range on its axis. -/
theorem mem_block3 (t : Fin cfg3.N) (i : S20000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v13).slice (win3_7.rect t)).set ↔ _
  rw [View.set_slice_whole, Rect.mem_set_unit]
  exact Iff.rfl

/-- Row r of the result array is in the block of point r / 2000, and every point writes back. -/
theorem rows_covered3 (i : S20000x128.Idx) :
    ∃ t : Fin cfg3.N, (cfg3.win 7).flush t = true ∧ i ∈ ((cfg3.win 7).blk t).view.set := by
  have hi0 : (i 0).val < 20000 := (i 0).isLt
  have hi1 : (i 1).val < 128 := (i 1).isLt
  obtain ⟨t, ht⟩ := blockOnto3 ⟨(i 0).val / 2000, by omega⟩
  have ht' : t.val = (i 0).val / 2000 := ht
  obtain ⟨-, -, -, -, -, -, -, -, -, -, -, -, o0, o1, -⟩ := blockIdx3 t
  refine ⟨t, flush3_7 t, ?_⟩
  rw [mem_block3]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- What the call leaves in its result array, whatever contents it is entered from. -/
theorem region3_value (V : Entry3) (c : Dev nD) :
    (dat3 (F := Ideal) V c).arrAt 7 cfg3.N
      = MeshNet.nodeParts (V c main_v0) (V c main_v12) (V c main_v5) (V c main_v6)
          (V c main_arg17) (V c main_arg18) (V c main_arg19) :=
  (dat3 (F := Ideal) V c).arrAt_eq_of_cover 7 (stage3 V c) (fun t _ => block3_eq V c t) rows_covered3

end Cert.KernelIdeal.NetValue

end
-- ==== Proof.ChainA.lean ====
/-
  The kernel program's buffers up to the exit of its first node call, as values. Walking the program's segments from the launch:
  the two embedding calls leave the embedded node and edge features; the host cuts the two first-layer weight matrices into
  their blocks of rows and takes the node rows at the senders and at the receivers (plain gathers, the indices being in range);
  the first edge call leaves the edge features of round one; the host adds them onto their receivers; the first node call leaves
  the node features of round one. Buffers no segment writes keep their contents.
-/
import proofs.«428749_j52252572123266_1_alg».proof.Proof.Gen.KernelIdeal.Frame
import proofs.«428749_j52252572123266_1_alg».proof.Proof.Take
import proofs.«428749_j52252572123266_1_alg».proof.Proof.Region0
import proofs.«428749_j52252572123266_1_alg».proof.Proof.Region1
import proofs.«428749_j52252572123266_1_alg».proof.Proof.Region2
import proofs.«428749_j52252572123266_1_alg».proof.Proof.Region3
import Idealize.ShloMosaic.Lib.StableHlo.Run
import Idealize.ShloMosaic.Lib.Pipeline.Value

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A stretch of host operations none of which writes a buffer leaves that buffer as it was. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### The argument arrays: no segment up to the first node call's exit writes one, so each still holds what the launch
    memory gave it (a call that reads one through an input window hands it back unchanged) -/

theorem W1_main_arg2 (c : Dev nD) : W1 m ρ c (Proc.devRef .tc main_arg2) = m ((c.tc : Thread nD τ).loc main_arg2) :=
  (W1_of_ne m ρ c main_arg2 (by decide))
theorem W2_main_arg2 (c : Dev nD) : W2 m ρ c (Proc.devRef .tc main_arg2) = m ((c.tc : Thread nD τ).loc main_arg2) :=
  Eq.trans (W2_of_ne m ρ c main_arg2 (by decide)) (W1_main_arg2 m ρ c)
theorem W3_main_arg2 (c : Dev nD) : W3 m ρ c (Proc.devRef .tc main_arg2) = m ((c.tc : Thread nD τ).loc main_arg2) :=
  Eq.trans (by host_keeps hostOps2) (W2_main_arg2 m ρ c)
theorem W4_main_arg2 (c : Dev nD) : W4 m ρ c (Proc.devRef .tc main_arg2) = m ((c.tc : Thread nD τ).loc main_arg2) :=
  Eq.trans (by host_keeps hostOps2_1) (W3_main_arg2 m ρ c)
theorem W5_main_arg2 (c : Dev nD) : W5 m ρ c (Proc.devRef .tc main_arg2) = m ((c.tc : Thread nD τ).loc main_arg2) :=
  Eq.trans (by host_keeps hostOps2_2) (W4_main_arg2 m ρ c)
theorem W6_main_arg2 (c : Dev nD) : W6 m ρ c (Proc.devRef .tc main_arg2) = m ((c.tc : Thread nD τ).loc main_arg2) :=
  Eq.trans (W6_of_ne m ρ c main_arg2 (by decide)) (W5_main_arg2 m ρ c)
theorem W7_main_arg2 (c : Dev nD) : W7 m ρ c (Proc.devRef .tc main_arg2) = m ((c.tc : Thread nD τ).loc main_arg2) :=
  Eq.trans (by host_keeps hostOps3) (W6_main_arg2 m ρ c)
/-- Nothing up to the first node call's exit writes this argument array. -/
theorem W8_main_arg2 (c : Dev nD) : W8 m ρ c (Proc.devRef .tc main_arg2) = m ((c.tc : Thread nD τ).loc main_arg2) :=
  Eq.trans (W8_of_ne m ρ c main_arg2 (by decide)) (W7_main_arg2 m ρ c)

theorem W1_main_arg3 (c : Dev nD) : W1 m ρ c (Proc.devRef .tc main_arg3) = m ((c.tc : Thread nD τ).loc main_arg3) :=
  (W1_of_ne m ρ c main_arg3 (by decide))
theorem W2_main_arg3 (c : Dev nD) : W2 m ρ c (Proc.devRef .tc main_arg3) = m ((c.tc : Thread nD τ).loc main_arg3) :=
  Eq.trans (W2_of_ne m ρ c main_arg3 (by decide)) (W1_main_arg3 m ρ c)
theorem W3_main_arg3 (c : Dev nD) : W3 m ρ c (Proc.devRef .tc main_arg3) = m ((c.tc : Thread nD τ).loc main_arg3) :=
  Eq.trans (by host_keeps hostOps2) (W2_main_arg3 m ρ c)
theorem W4_main_arg3 (c : Dev nD) : W4 m ρ c (Proc.devRef .tc main_arg3) = m ((c.tc : Thread nD τ).loc main_arg3) :=
  Eq.trans (by host_keeps hostOps2_1) (W3_main_arg3 m ρ c)
theorem W5_main_arg3 (c : Dev nD) : W5 m ρ c (Proc.devRef .tc main_arg3) = m ((c.tc : Thread nD τ).loc main_arg3) :=
  Eq.trans (by host_keeps hostOps2_2) (W4_main_arg3 m ρ c)
theorem W6_main_arg3 (c : Dev nD) : W6 m ρ c (Proc.devRef .tc main_arg3) = m ((c.tc : Thread nD τ).loc main_arg3) :=
  Eq.trans (W6_of_ne m ρ c main_arg3 (by decide)) (W5_main_arg3 m ρ c)
theorem W7_main_arg3 (c : Dev nD) : W7 m ρ c (Proc.devRef .tc main_arg3) = m ((c.tc : Thread nD τ).loc main_arg3) :=
  Eq.trans (by host_keeps hostOps3) (W6_main_arg3 m ρ c)
/-- Nothing up to the first node call's exit writes this argument array. -/
theorem W8_main_arg3 (c : Dev nD) : W8 m ρ c (Proc.devRef .tc main_arg3) = m ((c.tc : Thread nD τ).loc main_arg3) :=
  Eq.trans (W8_of_ne m ρ c main_arg3 (by decide)) (W7_main_arg3 m ρ c)

theorem W1_main_arg12 (c : Dev nD) : W1 m ρ c (Proc.devRef .tc main_arg12) = m ((c.tc : Thread nD τ).loc main_arg12) :=
  (W1_of_ne m ρ c main_arg12 (by decide))
theorem W2_main_arg12 (c : Dev nD) : W2 m ρ c (Proc.devRef .tc main_arg12) = m ((c.tc : Thread nD τ).loc main_arg12) :=
  Eq.trans (W2_of_ne m ρ c main_arg12 (by decide)) (W1_main_arg12 m ρ c)

theorem W1_main_arg16 (c : Dev nD) : W1 m ρ c (Proc.devRef .tc main_arg16) = m ((c.tc : Thread nD τ).loc main_arg16) :=
  (W1_of_ne m ρ c main_arg16 (by decide))
theorem W2_main_arg16 (c : Dev nD) : W2 m ρ c (Proc.devRef .tc main_arg16) = m ((c.tc : Thread nD τ).loc main_arg16) :=
  Eq.trans (W2_of_ne m ρ c main_arg16 (by decide)) (W1_main_arg16 m ρ c)

theorem W1_main_arg13 (c : Dev nD) : W1 m ρ c (Proc.devRef .tc main_arg13) = m ((c.tc : Thread nD τ).loc main_arg13) :=
  (W1_of_ne m ρ c main_arg13 (by decide))
theorem W2_main_arg13 (c : Dev nD) : W2 m ρ c (Proc.devRef .tc main_arg13) = m ((c.tc : Thread nD τ).loc main_arg13) :=
  Eq.trans (W2_of_ne m ρ c main_arg13 (by decide)) (W1_main_arg13 m ρ c)
theorem W3_main_arg13 (c : Dev nD) : W3 m ρ c (Proc.devRef .tc main_arg13) = m ((c.tc : Thread nD τ).loc main_arg13) :=
  Eq.trans (by host_keeps hostOps2) (W2_main_arg13 m ρ c)
theorem W4_main_arg13 (c : Dev nD) : W4 m ρ c (Proc.devRef .tc main_arg13) = m ((c.tc : Thread nD τ).loc main_arg13) :=
  Eq.trans (by host_keeps hostOps2_1) (W3_main_arg13 m ρ c)
theorem W5_main_arg13 (c : Dev nD) : W5 m ρ c (Proc.devRef .tc main_arg13) = m ((c.tc : Thread nD τ).loc main_arg13) :=
  Eq.trans (by host_keeps hostOps2_2) (W4_main_arg13 m ρ c)
theorem W6_main_arg13 (c : Dev nD) : W6 m ρ c (Proc.devRef .tc main_arg13) = m ((c.tc : Thread nD τ).loc main_arg13) :=
  Eq.trans ((W6_arr m ρ c 6).trans (((dat2 (V5 m ρ) c).arrAt_in 6 rfl _).trans (A_eq2 (V5 m ρ) c 6))) (W5_main_arg13 m ρ c)
theorem W7_main_arg13 (c : Dev nD) : W7 m ρ c (Proc.devRef .tc main_arg13) = m ((c.tc : Thread nD τ).loc main_arg13) :=
  Eq.trans (by host_keeps hostOps3) (W6_main_arg13 m ρ c)
/-- Nothing up to the first node call's exit writes this argument array. -/
theorem W8_main_arg13 (c : Dev nD) : W8 m ρ c (Proc.devRef .tc main_arg13) = m ((c.tc : Thread nD τ).loc main_arg13) :=
  Eq.trans (W8_of_ne m ρ c main_arg13 (by decide)) (W7_main_arg13 m ρ c)

theorem W1_main_arg14 (c : Dev nD) : W1 m ρ c (Proc.devRef .tc main_arg14) = m ((c.tc : Thread nD τ).loc main_arg14) :=
  (W1_of_ne m ρ c main_arg14 (by decide))
theorem W2_main_arg14 (c : Dev nD) : W2 m ρ c (Proc.devRef .tc main_arg14) = m ((c.tc : Thread nD τ).loc main_arg14) :=
  Eq.trans (W2_of_ne m ρ c main_arg14 (by decide)) (W1_main_arg14 m ρ c)
theorem W3_main_arg14 (c : Dev nD) : W3 m ρ c (Proc.devRef .tc main_arg14) = m ((c.tc : Thread nD τ).loc main_arg14) :=
  Eq.trans (by host_keeps hostOps2) (W2_main_arg14 m ρ c)
theorem W4_main_arg14 (c : Dev nD) : W4 m ρ c (Proc.devRef .tc main_arg14) = m ((c.tc : Thread nD τ).loc main_arg14) :=
  Eq.trans (by host_keeps hostOps2_1) (W3_main_arg14 m ρ c)
theorem W5_main_arg14 (c : Dev nD) : W5 m ρ c (Proc.devRef .tc main_arg14) = m ((c.tc : Thread nD τ).loc main_arg14) :=
  Eq.trans (by host_keeps hostOps2_2) (W4_main_arg14 m ρ c)
theorem W6_main_arg14 (c : Dev nD) : W6 m ρ c (Proc.devRef .tc main_arg14) = m ((c.tc : Thread nD τ).loc main_arg14) :=
  Eq.trans ((W6_arr m ρ c 7).trans (((dat2 (V5 m ρ) c).arrAt_in 7 rfl _).trans (A_eq2 (V5 m ρ) c 7))) (W5_main_arg14 m ρ c)
theorem W7_main_arg14 (c : Dev nD) : W7 m ρ c (Proc.devRef .tc main_arg14) = m ((c.tc : Thread nD τ).loc main_arg14) :=
  Eq.trans (by host_keeps hostOps3) (W6_main_arg14 m ρ c)
/-- Nothing up to the first node call's exit writes this argument array. -/
theorem W8_main_arg14 (c : Dev nD) : W8 m ρ c (Proc.devRef .tc main_arg14) = m ((c.tc : Thread nD τ).loc main_arg14) :=
  Eq.trans (W8_of_ne m ρ c main_arg14 (by decide)) (W7_main_arg14 m ρ c)

theorem W1_main_arg15 (c : Dev nD) : W1 m ρ c (Proc.devRef .tc main_arg15) = m ((c.tc : Thread nD τ).loc main_arg15) :=
  (W1_of_ne m ρ c main_arg15 (by decide))
theorem W2_main_arg15 (c : Dev nD) : W2 m ρ c (Proc.devRef .tc main_arg15) = m ((c.tc : Thread nD τ).loc main_arg15) :=
  Eq.trans (W2_of_ne m ρ c main_arg15 (by decide)) (W1_main_arg15 m ρ c)
theorem W3_main_arg15 (c : Dev nD) : W3 m ρ c (Proc.devRef .tc main_arg15) = m ((c.tc : Thread nD τ).loc main_arg15) :=
  Eq.trans (by host_keeps hostOps2) (W2_main_arg15 m ρ c)
theorem W4_main_arg15 (c : Dev nD) : W4 m ρ c (Proc.devRef .tc main_arg15) = m ((c.tc : Thread nD τ).loc main_arg15) :=
  Eq.trans (by host_keeps hostOps2_1) (W3_main_arg15 m ρ c)
theorem W5_main_arg15 (c : Dev nD) : W5 m ρ c (Proc.devRef .tc main_arg15) = m ((c.tc : Thread nD τ).loc main_arg15) :=
  Eq.trans (by host_keeps hostOps2_2) (W4_main_arg15 m ρ c)
theorem W6_main_arg15 (c : Dev nD) : W6 m ρ c (Proc.devRef .tc main_arg15) = m ((c.tc : Thread nD τ).loc main_arg15) :=
  Eq.trans ((W6_arr m ρ c 8).trans (((dat2 (V5 m ρ) c).arrAt_in 8 rfl _).trans (A_eq2 (V5 m ρ) c 8))) (W5_main_arg15 m ρ c)
theorem W7_main_arg15 (c : Dev nD) : W7 m ρ c (Proc.devRef .tc main_arg15) = m ((c.tc : Thread nD τ).loc main_arg15) :=
  Eq.trans (by host_keeps hostOps3) (W6_main_arg15 m ρ c)
/-- Nothing up to the first node call's exit writes this argument array. -/
theorem W8_main_arg15 (c : Dev nD) : W8 m ρ c (Proc.devRef .tc main_arg15) = m ((c.tc : Thread nD τ).loc main_arg15) :=
  Eq.trans (W8_of_ne m ρ c main_arg15 (by decide)) (W7_main_arg15 m ρ c)

theorem W1_main_arg17 (c : Dev nD) : W1 m ρ c (Proc.devRef .tc main_arg17) = m ((c.tc : Thread nD τ).loc main_arg17) :=
  (W1_of_ne m ρ c main_arg17 (by decide))
theorem W2_main_arg17 (c : Dev nD) : W2 m ρ c (Proc.devRef .tc main_arg17) = m ((c.tc : Thread nD τ).loc main_arg17) :=
  Eq.trans (W2_of_ne m ρ c main_arg17 (by decide)) (W1_main_arg17 m ρ c)
theorem W3_main_arg17 (c : Dev nD) : W3 m ρ c (Proc.devRef .tc main_arg17) = m ((c.tc : Thread nD τ).loc main_arg17) :=
  Eq.trans (by host_keeps hostOps2) (W2_main_arg17 m ρ c)
theorem W4_main_arg17 (c : Dev nD) : W4 m ρ c (Proc.devRef .tc main_arg17) = m ((c.tc : Thread nD τ).loc main_arg17) :=
  Eq.trans (by host_keeps hostOps2_1) (W3_main_arg17 m ρ c)
theorem W5_main_arg17 (c : Dev nD) : W5 m ρ c (Proc.devRef .tc main_arg17) = m ((c.tc : Thread nD τ).loc main_arg17) :=
  Eq.trans (by host_keeps hostOps2_2) (W4_main_arg17 m ρ c)
theorem W6_main_arg17 (c : Dev nD) : W6 m ρ c (Proc.devRef .tc main_arg17) = m ((c.tc : Thread nD τ).loc main_arg17) :=
  Eq.trans (W6_of_ne m ρ c main_arg17 (by decide)) (W5_main_arg17 m ρ c)
theorem W7_main_arg17 (c : Dev nD) : W7 m ρ c (Proc.devRef .tc main_arg17) = m ((c.tc : Thread nD τ).loc main_arg17) :=
  Eq.trans (by host_keeps hostOps3) (W6_main_arg17 m ρ c)
/-- Nothing up to the first node call's exit writes this argument array. -/
theorem W8_main_arg17 (c : Dev nD) : W8 m ρ c (Proc.devRef .tc main_arg17) = m ((c.tc : Thread nD τ).loc main_arg17) :=
  Eq.trans ((W8_arr m ρ c 4).trans (((dat3 (V7 m ρ) c).arrAt_in 4 rfl _).trans (A_eq3 (V7 m ρ) c 4))) (W7_main_arg17 m ρ c)

theorem W1_main_arg18 (c : Dev nD) : W1 m ρ c (Proc.devRef .tc main_arg18) = m ((c.tc : Thread nD τ).loc main_arg18) :=
  (W1_of_ne m ρ c main_arg18 (by decide))
theorem W2_main_arg18 (c : Dev nD) : W2 m ρ c (Proc.devRef .tc main_arg18) = m ((c.tc : Thread nD τ).loc main_arg18) :=
  Eq.trans (W2_of_ne m ρ c main_arg18 (by decide)) (W1_main_arg18 m ρ c)
theorem W3_main_arg18 (c : Dev nD) : W3 m ρ c (Proc.devRef .tc main_arg18) = m ((c.tc : Thread nD τ).loc main_arg18) :=
  Eq.trans (by host_keeps hostOps2) (W2_main_arg18 m ρ c)
theorem W4_main_arg18 (c : Dev nD) : W4 m ρ c (Proc.devRef .tc main_arg18) = m ((c.tc : Thread nD τ).loc main_arg18) :=
  Eq.trans (by host_keeps hostOps2_1) (W3_main_arg18 m ρ c)
theorem W5_main_arg18 (c : Dev nD) : W5 m ρ c (Proc.devRef .tc main_arg18) = m ((c.tc : Thread nD τ).loc main_arg18) :=
  Eq.trans (by host_keeps hostOps2_2) (W4_main_arg18 m ρ c)
theorem W6_main_arg18 (c : Dev nD) : W6 m ρ c (Proc.devRef .tc main_arg18) = m ((c.tc : Thread nD τ).loc main_arg18) :=
  Eq.trans (W6_of_ne m ρ c main_arg18 (by decide)) (W5_main_arg18 m ρ c)
theorem W7_main_arg18 (c : Dev nD) : W7 m ρ c (Proc.devRef .tc main_arg18) = m ((c.tc : Thread nD τ).loc main_arg18) :=
  Eq.trans (by host_keeps hostOps3) (W6_main_arg18 m ρ c)
/-- Nothing up to the first node call's exit writes this argument array. -/
theorem W8_main_arg18 (c : Dev nD) : W8 m ρ c (Proc.devRef .tc main_arg18) = m ((c.tc : Thread nD τ).loc main_arg18) :=
  Eq.trans ((W8_arr m ρ c 5).trans (((dat3 (V7 m ρ) c).arrAt_in 5 rfl _).trans (A_eq3 (V7 m ρ) c 5))) (W7_main_arg18 m ρ c)

theorem W1_main_arg19 (c : Dev nD) : W1 m ρ c (Proc.devRef .tc main_arg19) = m ((c.tc : Thread nD τ).loc main_arg19) :=
  (W1_of_ne m ρ c main_arg19 (by decide))
theorem W2_main_arg19 (c : Dev nD) : W2 m ρ c (Proc.devRef .tc main_arg19) = m ((c.tc : Thread nD τ).loc main_arg19) :=
  Eq.trans (W2_of_ne m ρ c main_arg19 (by decide)) (W1_main_arg19 m ρ c)
theorem W3_main_arg19 (c : Dev nD) : W3 m ρ c (Proc.devRef .tc main_arg19) = m ((c.tc : Thread nD τ).loc main_arg19) :=
  Eq.trans (by host_keeps hostOps2) (W2_main_arg19 m ρ c)
theorem W4_main_arg19 (c : Dev nD) : W4 m ρ c (Proc.devRef .tc main_arg19) = m ((c.tc : Thread nD τ).loc main_arg19) :=
  Eq.trans (by host_keeps hostOps2_1) (W3_main_arg19 m ρ c)
theorem W5_main_arg19 (c : Dev nD) : W5 m ρ c (Proc.devRef .tc main_arg19) = m ((c.tc : Thread nD τ).loc main_arg19) :=
  Eq.trans (by host_keeps hostOps2_2) (W4_main_arg19 m ρ c)
theorem W6_main_arg19 (c : Dev nD) : W6 m ρ c (Proc.devRef .tc main_arg19) = m ((c.tc : Thread nD τ).loc main_arg19) :=
  Eq.trans (W6_of_ne m ρ c main_arg19 (by decide)) (W5_main_arg19 m ρ c)
theorem W7_main_arg19 (c : Dev nD) : W7 m ρ c (Proc.devRef .tc main_arg19) = m ((c.tc : Thread nD τ).loc main_arg19) :=
  Eq.trans (by host_keeps hostOps3) (W6_main_arg19 m ρ c)
/-- Nothing up to the first node call's exit writes this argument array. -/
theorem W8_main_arg19 (c : Dev nD) : W8 m ρ c (Proc.devRef .tc main_arg19) = m ((c.tc : Thread nD τ).loc main_arg19) :=
  Eq.trans ((W8_arr m ρ c 6).trans (((dat3 (V7 m ρ) c).arrAt_in 6 rfl _).trans (A_eq3 (V7 m ρ) c 6))) (W7_main_arg19 m ρ c)

theorem W1_main_arg1 (c : Dev nD) : W1 m ρ c (Proc.devRef .tc main_arg1) = m ((c.tc : Thread nD τ).loc main_arg1) :=
  (W1_of_ne m ρ c main_arg1 (by decide))

theorem W1_main_arg8 (c : Dev nD) : W1 m ρ c (Proc.devRef .tc main_arg8) = m ((c.tc : Thread nD τ).loc main_arg8) :=
  (W1_of_ne m ρ c main_arg8 (by decide))

theorem W1_main_arg9 (c : Dev nD) : W1 m ρ c (Proc.devRef .tc main_arg9) = m ((c.tc : Thread nD τ).loc main_arg9) :=
  (W1_of_ne m ρ c main_arg9 (by decide))

theorem W1_main_arg10 (c : Dev nD) : W1 m ρ c (Proc.devRef .tc main_arg10) = m ((c.tc : Thread nD τ).loc main_arg10) :=
  (W1_of_ne m ρ c main_arg10 (by decide))

theorem W1_main_arg11 (c : Dev nD) : W1 m ρ c (Proc.devRef .tc main_arg11) = m ((c.tc : Thread nD τ).loc main_arg11) :=
  (W1_of_ne m ρ c main_arg11 (by decide))

/-! ### The embedded features -/

/-- At the first embedding call's exit its result array holds the embedded node features. -/
theorem W1_main_v0 (c : Dev nD) : W1 m ρ c (Proc.devRef .tc main_v0) = MeshNet.X0 (args m c) :=
  (W1_arr m ρ c 5).trans (region0_value (V0 m ρ) c)
theorem W2_main_v0 (c : Dev nD) : W2 m ρ c (Proc.devRef .tc main_v0) = MeshNet.X0 (args m c) :=
  Eq.trans (W2_of_ne m ρ c main_v0 (by decide)) (W1_main_v0 m ρ c)
theorem W3_main_v0 (c : Dev nD) : W3 m ρ c (Proc.devRef .tc main_v0) = MeshNet.X0 (args m c) :=
  Eq.trans (by host_keeps hostOps2) (W2_main_v0 m ρ c)
theorem W4_main_v0 (c : Dev nD) : W4 m ρ c (Proc.devRef .tc main_v0) = MeshNet.X0 (args m c) :=
  Eq.trans (by host_keeps hostOps2_1) (W3_main_v0 m ρ c)
theorem W5_main_v0 (c : Dev nD) : W5 m ρ c (Proc.devRef .tc main_v0) = MeshNet.X0 (args m c) :=
  Eq.trans (by host_keeps hostOps2_2) (W4_main_v0 m ρ c)
theorem W6_main_v0 (c : Dev nD) : W6 m ρ c (Proc.devRef .tc main_v0) = MeshNet.X0 (args m c) :=
  Eq.trans (W6_of_ne m ρ c main_v0 (by decide)) (W5_main_v0 m ρ c)
theorem W7_main_v0 (c : Dev nD) : W7 m ρ c (Proc.devRef .tc main_v0) = MeshNet.X0 (args m c) :=
  Eq.trans (by host_keeps hostOps3) (W6_main_v0 m ρ c)

/-- At the second embedding call's exit its result array holds the embedded edge features. -/
theorem W2_main_v1 (c : Dev nD) : W2 m ρ c (Proc.devRef .tc main_v1) = MeshNet.E0 (args m c) := by
  refine (W2_arr m ρ c 5).trans ((region1_value (V1 m ρ) c).trans ?_)
  show MeshNet.mlp (W1 m ρ c (Proc.devRef .tc main_arg1)) (W1 m ρ c (Proc.devRef .tc main_arg8)) (W1 m ρ c (Proc.devRef .tc main_arg9))
    (W1 m ρ c (Proc.devRef .tc main_arg10)) (W1 m ρ c (Proc.devRef .tc main_arg11)) = _
  rw [W1_main_arg1, W1_main_arg8, W1_main_arg9, W1_main_arg10, W1_main_arg11]
  rfl
theorem W3_main_v1 (c : Dev nD) : W3 m ρ c (Proc.devRef .tc main_v1) = MeshNet.E0 (args m c) :=
  Eq.trans (by host_keeps hostOps2) (W2_main_v1 m ρ c)
theorem W4_main_v1 (c : Dev nD) : W4 m ρ c (Proc.devRef .tc main_v1) = MeshNet.E0 (args m c) :=
  Eq.trans (by host_keeps hostOps2_1) (W3_main_v1 m ρ c)
theorem W5_main_v1 (c : Dev nD) : W5 m ρ c (Proc.devRef .tc main_v1) = MeshNet.E0 (args m c) :=
  Eq.trans (by host_keeps hostOps2_2) (W4_main_v1 m ρ c)

/-! ### The blocks of rows of the two first-layer weight matrices -/

/-- The 128-row slice of a matrix with 256 columns at row `off`, column 0, is its block of 128 rows from `off`: entry (r, k)
    of either is entry (off + r, k) of the matrix. -/
theorem slice_rows {R : Nat} (W : MeshNet.Mat R 256) (off : Nat)
    (h : (⟨2, ![R, 256]⟩ : Shape).Slices ![off, 0] S128x256) (h' : off + 128 ≤ R) :
    extractStridedSlice S128x256 ![off, 0] W h = MeshNet.rowsFrom 128 W off h' := by
  funext i
  unfold extractStridedSlice MeshNet.rowsFrom
  congr 1
  funext a
  apply Fin.ext
  match a with
  | ⟨0, _⟩ => rfl
  | ⟨1, _⟩ => exact Nat.zero_add _

theorem W3_main_v2 (c : Dev nD) : W3 m ρ c (Proc.devRef .tc main_v2) = MeshNet.rowsFrom 128 (args m c).Wed1 0 (by omega) := by
  show StableHlo.after hostOps2 (W2 m ρ c) (Proc.devRef .tc main_v2) = _
  after_results
  rw [W2_main_arg12]
  exact slice_rows _ 0 _ _
theorem W4_main_v2 (c : Dev nD) : W4 m ρ c (Proc.devRef .tc main_v2) = MeshNet.rowsFrom 128 (args m c).Wed1 0 (by omega) :=
  Eq.trans (by host_keeps hostOps2_1) (W3_main_v2 m ρ c)
theorem W5_main_v2 (c : Dev nD) : W5 m ρ c (Proc.devRef .tc main_v2) = MeshNet.rowsFrom 128 (args m c).Wed1 0 (by omega) :=
  Eq.trans (by host_keeps hostOps2_2) (W4_main_v2 m ρ c)
theorem W6_main_v2 (c : Dev nD) : W6 m ρ c (Proc.devRef .tc main_v2) = MeshNet.rowsFrom 128 (args m c).Wed1 0 (by omega) :=
  Eq.trans ((W6_arr m ρ c 3).trans (((dat2 (V5 m ρ) c).arrAt_in 3 rfl _).trans (A_eq2 (V5 m ρ) c 3))) (W5_main_v2 m ρ c)
theorem W7_main_v2 (c : Dev nD) : W7 m ρ c (Proc.devRef .tc main_v2) = MeshNet.rowsFrom 128 (args m c).Wed1 0 (by omega) :=
  Eq.trans (by host_keeps hostOps3) (W6_main_v2 m ρ c)
/-- The three blocks of rows of the edge stage's first weight matrix, as the host cut them. -/
theorem W8_main_v2 (c : Dev nD) : W8 m ρ c (Proc.devRef .tc main_v2) = MeshNet.rowsFrom 128 (args m c).Wed1 0 (by omega) :=
  Eq.trans (W8_of_ne m ρ c main_v2 (by decide)) (W7_main_v2 m ρ c)

theorem W3_main_v3 (c : Dev nD) : W3 m ρ c (Proc.devRef .tc main_v3) = MeshNet.rowsFrom 128 (args m c).Wed1 128 (by omega) := by
  show StableHlo.after hostOps2 (W2 m ρ c) (Proc.devRef .tc main_v3) = _
  after_results
  rw [W2_main_arg12]
  exact slice_rows _ 128 _ _
theorem W4_main_v3 (c : Dev nD) : W4 m ρ c (Proc.devRef .tc main_v3) = MeshNet.rowsFrom 128 (args m c).Wed1 128 (by omega) :=
  Eq.trans (by host_keeps hostOps2_1) (W3_main_v3 m ρ c)
theorem W5_main_v3 (c : Dev nD) : W5 m ρ c (Proc.devRef .tc main_v3) = MeshNet.rowsFrom 128 (args m c).Wed1 128 (by omega) :=
  Eq.trans (by host_keeps hostOps2_2) (W4_main_v3 m ρ c)
theorem W6_main_v3 (c : Dev nD) : W6 m ρ c (Proc.devRef .tc main_v3) = MeshNet.rowsFrom 128 (args m c).Wed1 128 (by omega) :=
  Eq.trans ((W6_arr m ρ c 4).trans (((dat2 (V5 m ρ) c).arrAt_in 4 rfl _).trans (A_eq2 (V5 m ρ) c 4))) (W5_main_v3 m ρ c)
theorem W7_main_v3 (c : Dev nD) : W7 m ρ c (Proc.devRef .tc main_v3) = MeshNet.rowsFrom 128 (args m c).Wed1 128 (by omega) :=
  Eq.trans (by host_keeps hostOps3) (W6_main_v3 m ρ c)
theorem W8_main_v3 (c : Dev nD) : W8 m ρ c (Proc.devRef .tc main_v3) = MeshNet.rowsFrom 128 (args m c).Wed1 128 (by omega) :=
  Eq.trans (W8_of_ne m ρ c main_v3 (by decide)) (W7_main_v3 m ρ c)

theorem W3_main_v4 (c : Dev nD) : W3 m ρ c (Proc.devRef .tc main_v4) = MeshNet.rowsFrom 128 (args m c).Wed1 256 (by omega) := by
  show StableHlo.after hostOps2 (W2 m ρ c) (Proc.devRef .tc main_v4) = _
  after_results
  rw [W2_main_arg12]
  exact slice_rows _ 256 _ _
theorem W4_main_v4 (c : Dev nD) : W4 m ρ c (Proc.devRef .tc main_v4) = MeshNet.rowsFrom 128 (args m c).Wed1 256 (by omega) :=
  Eq.trans (by host_keeps hostOps2_1) (W3_main_v4 m ρ c)
theorem W5_main_v4 (c : Dev nD) : W5 m ρ c (Proc.devRef .tc main_v4) = MeshNet.rowsFrom 128 (args m c).Wed1 256 (by omega) :=
  Eq.trans (by host_keeps hostOps2_2) (W4_main_v4 m ρ c)
theorem W6_main_v4 (c : Dev nD) : W6 m ρ c (Proc.devRef .tc main_v4) = MeshNet.rowsFrom 128 (args m c).Wed1 256 (by omega) :=
  Eq.trans ((W6_arr m ρ c 5).trans (((dat2 (V5 m ρ) c).arrAt_in 5 rfl _).trans (A_eq2 (V5 m ρ) c 5))) (W5_main_v4 m ρ c)
theorem W7_main_v4 (c : Dev nD) : W7 m ρ c (Proc.devRef .tc main_v4) = MeshNet.rowsFrom 128 (args m c).Wed1 256 (by omega) :=
  Eq.trans (by host_keeps hostOps3) (W6_main_v4 m ρ c)
theorem W8_main_v4 (c : Dev nD) : W8 m ρ c (Proc.devRef .tc main_v4) = MeshNet.rowsFrom 128 (args m c).Wed1 256 (by omega) :=
  Eq.trans (W8_of_ne m ρ c main_v4 (by decide)) (W7_main_v4 m ρ c)

theorem W3_main_v5 (c : Dev nD) : W3 m ρ c (Proc.devRef .tc main_v5) = MeshNet.rowsFrom 128 (args m c).Wnd1 0 (by omega) := by
  show StableHlo.after hostOps2 (W2 m ρ c) (Proc.devRef .tc main_v5) = _
  after_results
  rw [W2_main_arg16]
  exact slice_rows _ 0 _ _
theorem W4_main_v5 (c : Dev nD) : W4 m ρ c (Proc.devRef .tc main_v5) = MeshNet.rowsFrom 128 (args m c).Wnd1 0 (by omega) :=
  Eq.trans (by host_keeps hostOps2_1) (W3_main_v5 m ρ c)
theorem W5_main_v5 (c : Dev nD) : W5 m ρ c (Proc.devRef .tc main_v5) = MeshNet.rowsFrom 128 (args m c).Wnd1 0 (by omega) :=
  Eq.trans (by host_keeps hostOps2_2) (W4_main_v5 m ρ c)
theorem W6_main_v5 (c : Dev nD) : W6 m ρ c (Proc.devRef .tc main_v5) = MeshNet.rowsFrom 128 (args m c).Wnd1 0 (by omega) :=
  Eq.trans (W6_of_ne m ρ c main_v5 (by decide)) (W5_main_v5 m ρ c)
theorem W7_main_v5 (c : Dev nD) : W7 m ρ c (Proc.devRef .tc main_v5) = MeshNet.rowsFrom 128 (args m c).Wnd1 0 (by omega) :=
  Eq.trans (by host_keeps hostOps3) (W6_main_v5 m ρ c)
/-- The two blocks of rows of the node stage's first weight matrix. -/
theorem W8_main_v5 (c : Dev nD) : W8 m ρ c (Proc.devRef .tc main_v5) = MeshNet.rowsFrom 128 (args m c).Wnd1 0 (by omega) :=
  Eq.trans ((W8_arr m ρ c 2).trans (((dat3 (V7 m ρ) c).arrAt_in 2 rfl _).trans (A_eq3 (V7 m ρ) c 2))) (W7_main_v5 m ρ c)

theorem W3_main_v6 (c : Dev nD) : W3 m ρ c (Proc.devRef .tc main_v6) = MeshNet.rowsFrom 128 (args m c).Wnd1 128 (by omega) := by
  show StableHlo.after hostOps2 (W2 m ρ c) (Proc.devRef .tc main_v6) = _
  after_results
  rw [W2_main_arg16]
  exact slice_rows _ 128 _ _
theorem W4_main_v6 (c : Dev nD) : W4 m ρ c (Proc.devRef .tc main_v6) = MeshNet.rowsFrom 128 (args m c).Wnd1 128 (by omega) :=
  Eq.trans (by host_keeps hostOps2_1) (W3_main_v6 m ρ c)
theorem W5_main_v6 (c : Dev nD) : W5 m ρ c (Proc.devRef .tc main_v6) = MeshNet.rowsFrom 128 (args m c).Wnd1 128 (by omega) :=
  Eq.trans (by host_keeps hostOps2_2) (W4_main_v6 m ρ c)
theorem W6_main_v6 (c : Dev nD) : W6 m ρ c (Proc.devRef .tc main_v6) = MeshNet.rowsFrom 128 (args m c).Wnd1 128 (by omega) :=
  Eq.trans (W6_of_ne m ρ c main_v6 (by decide)) (W5_main_v6 m ρ c)
theorem W7_main_v6 (c : Dev nD) : W7 m ρ c (Proc.devRef .tc main_v6) = MeshNet.rowsFrom 128 (args m c).Wnd1 128 (by omega) :=
  Eq.trans (by host_keeps hostOps3) (W6_main_v6 m ρ c)
theorem W8_main_v6 (c : Dev nD) : W8 m ρ c (Proc.devRef .tc main_v6) = MeshNet.rowsFrom 128 (args m c).Wnd1 128 (by omega) :=
  Eq.trans ((W8_arr m ρ c 3).trans (((dat3 (V7 m ρ) c).arrAt_in 3 rfl _).trans (A_eq3 (V7 m ρ) c 3))) (W7_main_v6 m ρ c)

/-! ### The node rows at the senders and at the receivers -/

/-- The guarded take at the senders, read back: the take of the node matrix and the index vector the stretch is entered with. -/
theorem W4_main_v7_take (c : Dev nD) :
    W4 m ρ c (Proc.devRef .tc main_v7) = takeFn (F := Ideal) (W3 m ρ c (Proc.devRef .tc main_v0)) (W3 m ρ c (Proc.devRef .tc main_arg2)) := by
  show StableHlo.after hostOps2_1 (W3 m ρ c) (Proc.devRef .tc main_v7) = _
  after_results_simp
  simp only [StableHlo.TRef.ofBuf, StableHlo.TRef.toBuf, cast_eq]
  unfold takeFn gatherRows colIdx normIdx
  rfl

/-- The senders being in range, the take is the plain gather of the embedded node rows. -/
theorem W4_main_v7 (hr : InRange m) (c : Dev nD) :
    W4 m ρ c (Proc.devRef .tc main_v7) = gatherRows (F := Ideal) (MeshNet.X0 (args m c)) (args m c).senders := by
  rw [W4_main_v7_take, W3_main_v0, W3_main_arg2]
  exact takeFn_eq_gatherRows _ _ fun e => (hr c e).1
theorem W5_main_v7 (hr : InRange m) (c : Dev nD) :
    W5 m ρ c (Proc.devRef .tc main_v7) = gatherRows (F := Ideal) (MeshNet.X0 (args m c)) (args m c).senders :=
  Eq.trans (by host_keeps hostOps2_2) (W4_main_v7 m ρ hr c)

/-- The guarded take at the receivers, read back. -/
theorem W5_main_v8_take (c : Dev nD) :
    W5 m ρ c (Proc.devRef .tc main_v8) = takeFn (F := Ideal) (W4 m ρ c (Proc.devRef .tc main_v0)) (W4 m ρ c (Proc.devRef .tc main_arg3)) := by
  show StableHlo.after hostOps2_2 (W4 m ρ c) (Proc.devRef .tc main_v8) = _
  after_results_simp
  simp only [StableHlo.TRef.ofBuf, StableHlo.TRef.toBuf, cast_eq]
  unfold takeFn gatherRows colIdx normIdx
  rfl

/-- The receivers being in range, the take is the plain gather of the embedded node rows. -/
theorem W5_main_v8 (hr : InRange m) (c : Dev nD) :
    W5 m ρ c (Proc.devRef .tc main_v8) = gatherRows (F := Ideal) (MeshNet.X0 (args m c)) (args m c).receivers := by
  rw [W5_main_v8_take, W4_main_v0, W4_main_arg3]
  exact takeFn_eq_gatherRows _ _ fun e => (hr c e).2

/-! ### Round one -/

/-- At the first edge call's exit its result array holds the edge features of round one: the call computes the edge stage
    part by part at the three blocks of rows, which is the edge stage at the whole first weight matrix. -/
theorem W6_main_v9 (hr : InRange m) (c : Dev nD) : W6 m ρ c (Proc.devRef .tc main_v9) = MeshNet.E1 glue (args m c) := by
  refine (W6_arr m ρ c 9).trans ((region2_value (V5 m ρ) c).trans ?_)
  show MeshNet.edgeParts (W5 m ρ c (Proc.devRef .tc main_v7)) (W5 m ρ c (Proc.devRef .tc main_v8)) (W5 m ρ c (Proc.devRef .tc main_v1))
    (W5 m ρ c (Proc.devRef .tc main_v2)) (W5 m ρ c (Proc.devRef .tc main_v3)) (W5 m ρ c (Proc.devRef .tc main_v4))
    (W5 m ρ c (Proc.devRef .tc main_arg13)) (W5 m ρ c (Proc.devRef .tc main_arg14)) (W5 m ρ c (Proc.devRef .tc main_arg15)) = _
  rw [W5_main_v7 m ρ hr, W5_main_v8 m ρ hr, W5_main_v1, W5_main_v2, W5_main_v3, W5_main_v4,
    W5_main_arg13, W5_main_arg14, W5_main_arg15]
  show _ = MeshNet.edgeNext glue (args m c) (MeshNet.X0 (args m c)) (MeshNet.E0 (args m c))
  unfold MeshNet.edgeNext
  exact MeshNet.edgeParts_eq _ _ _ _ _ _ _
theorem W7_main_v9 (hr : InRange m) (c : Dev nD) : W7 m ρ c (Proc.devRef .tc main_v9) = MeshNet.E1 glue (args m c) :=
  Eq.trans (by host_keeps hostOps3) (W6_main_v9 m ρ hr c)
/-- … and the first edge call's result array still holds the edge features of round one. -/
theorem W8_main_v9 (hr : InRange m) (c : Dev nD) :
    W8 m ρ c (Proc.devRef .tc main_v9) = MeshNet.E1 glue (args m c) :=
  Eq.trans (W8_of_ne m ρ c main_v9 (by decide)) (W7_main_v9 m ρ hr c)

/-- The scatter-add stretch, read back: the edge rows the stretch is entered with, added onto zero at the receivers. -/
theorem W7_main_v12_scatter (c : Dev nD) :
    W7 m ρ c (Proc.devRef .tc main_v12) = scatterRows (F := Ideal) (W6 m ρ c (Proc.devRef .tc main_arg3)) (W6 m ρ c (Proc.devRef .tc main_v9)) := by
  show StableHlo.after hostOps3 (W6 m ρ c) (Proc.devRef .tc main_v12) = _
  after_results
  rfl

/-- The edge features of round one summed onto their receivers. -/
theorem W7_main_v12 (hr : InRange m) (c : Dev nD) :
    W7 m ρ c (Proc.devRef .tc main_v12) = scatterRows (F := Ideal) (args m c).receivers (MeshNet.E1 glue (args m c)) := by
  rw [W7_main_v12_scatter, W6_main_arg3, W6_main_v9 m ρ hr]
  rfl

/-- At the first node call's exit its result array holds the node features of round one: the call computes the node stage
    part by part at the two blocks of rows, which is the node stage at the whole first weight matrix. -/
theorem W8_main_v13 (hr : InRange m) (c : Dev nD) :
    W8 m ρ c (Proc.devRef .tc main_v13) = MeshNet.X1 glue (args m c) := by
  refine (W8_arr m ρ c 7).trans ((region3_value (V7 m ρ) c).trans ?_)
  show MeshNet.nodeParts (W7 m ρ c (Proc.devRef .tc main_v0)) (W7 m ρ c (Proc.devRef .tc main_v12))
    (W7 m ρ c (Proc.devRef .tc main_v5)) (W7 m ρ c (Proc.devRef .tc main_v6))
    (W7 m ρ c (Proc.devRef .tc main_arg17)) (W7 m ρ c (Proc.devRef .tc main_arg18)) (W7 m ρ c (Proc.devRef .tc main_arg19)) = _
  rw [W7_main_v0, W7_main_v12 m ρ hr, W7_main_v5, W7_main_v6, W7_main_arg17, W7_main_arg18, W7_main_arg19]
  show _ = MeshNet.nodeNext glue (args m c) (MeshNet.X0 (args m c)) (MeshNet.E1 glue (args m c))
  unfold MeshNet.nodeNext
  exact MeshNet.nodeParts_eq _ _ _ _ _ _

end Cert.KernelIdeal.NetValue

end
-- ==== Proof.ChainB.lean ====
/-
  The kernel program's result, as a value. From the exit of the first node call: the host sums the rows of the node features of
  round one and takes those features' rows at the senders and at the receivers (plain gathers, the indices being in range); the
  second edge call leaves the edge features of round two; the host adds them onto their receivers; the second node call leaves
  the node features of round two; the host sums their rows and joins the two vectors of row sums.
-/
import proofs.«428749_j52252572123266_1_alg».proof.Proof.Gen.KernelIdeal.Frame
import proofs.«428749_j52252572123266_1_alg».proof.Proof.Take
import proofs.«428749_j52252572123266_1_alg».proof.Proof.Region4
import proofs.«428749_j52252572123266_1_alg».proof.Proof.Region5
import proofs.«428749_j52252572123266_1_alg».proof.Proof.ChainA
import Idealize.ShloMosaic.Lib.StableHlo.Run
import Idealize.ShloMosaic.Lib.Pipeline.Value

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ### The network's stages unfolded one step, at the kernel program's irregular operations -/

theorem E2_unfold (a : MeshNet.Args) : MeshNet.E2 glue a
    = MeshNet.edgeStage (gatherRows (F := Ideal) (MeshNet.X1 glue a) a.senders)
        (gatherRows (F := Ideal) (MeshNet.X1 glue a) a.receivers) (MeshNet.E1 glue a) a.Wed1 a.bed1 a.Wed2 a.bed2 := rfl

theorem X2_unfold (a : MeshNet.Args) : MeshNet.X2 glue a
    = MeshNet.nodeStage (MeshNet.X1 glue a) (scatterRows (F := Ideal) a.receivers (MeshNet.E2 glue a))
        a.Wnd1 a.bnd1 a.Wnd2 a.bnd2 := rfl

theorem net_unfold (a : MeshNet.Args) : MeshNet.net glue a
    = joinVecs (F := Ideal) (rowSums (F := Ideal) (MeshNet.X1 glue a)) (rowSums (F := Ideal) (MeshNet.X2 glue a)) := rfl

/-! ### The entry of the second edge call: the two takes of the node features of round one, everything else as the first node call left it -/

/-- The rows at the senders. -/
theorem V11_main_v15 (c : Dev nD) : (V11 m ρ c main_v15 : FVec Ideal S320000x128 .f32)
    = takeFn (F := Ideal) (W8 m ρ c (Proc.devRef .tc main_v13)) (W8 m ρ c (Proc.devRef .tc main_arg2)) := by
  show StableHlo.after hostOps4_2 _ (Proc.devRef .tc main_v15) = _
  after_results_simp
  simp only [StableHlo.TRef.ofBuf, StableHlo.TRef.toBuf, cast_eq]
  unfold takeFn gatherRows colIdx normIdx
  rfl

/-- The rows at the receivers. -/
theorem V11_main_v16 (c : Dev nD) : (V11 m ρ c main_v16 : FVec Ideal S320000x128 .f32)
    = takeFn (F := Ideal) (W8 m ρ c (Proc.devRef .tc main_v13)) (W8 m ρ c (Proc.devRef .tc main_arg3)) := by
  show StableHlo.after hostOps4_2 _ (Proc.devRef .tc main_v16) = _
  after_results_simp
  simp only [StableHlo.TRef.ofBuf, StableHlo.TRef.toBuf, cast_eq]
  unfold takeFn gatherRows colIdx normIdx
  rfl

theorem V11_main_v9 (c : Dev nD) : V11 m ρ c main_v9 = W8 m ρ c (Proc.devRef .tc main_v9) := by
  show StableHlo.after hostOps4_2 _ (Proc.devRef .tc main_v9) = _
  after_results_simp
theorem V11_main_v2 (c : Dev nD) : V11 m ρ c main_v2 = W8 m ρ c (Proc.devRef .tc main_v2) := by
  show StableHlo.after hostOps4_2 _ (Proc.devRef .tc main_v2) = _
  after_results_simp
theorem V11_main_v3 (c : Dev nD) : V11 m ρ c main_v3 = W8 m ρ c (Proc.devRef .tc main_v3) := by
  show StableHlo.after hostOps4_2 _ (Proc.devRef .tc main_v3) = _
  after_results_simp
theorem V11_main_v4 (c : Dev nD) : V11 m ρ c main_v4 = W8 m ρ c (Proc.devRef .tc main_v4) := by
  show StableHlo.after hostOps4_2 _ (Proc.devRef .tc main_v4) = _
  after_results_simp
theorem V11_main_arg13 (c : Dev nD) : V11 m ρ c main_arg13 = W8 m ρ c (Proc.devRef .tc main_arg13) := by
  show StableHlo.after hostOps4_2 _ (Proc.devRef .tc main_arg13) = _
  after_results_simp
theorem V11_main_arg14 (c : Dev nD) : V11 m ρ c main_arg14 = W8 m ρ c (Proc.devRef .tc main_arg14) := by
  show StableHlo.after hostOps4_2 _ (Proc.devRef .tc main_arg14) = _
  after_results_simp
theorem V11_main_arg15 (c : Dev nD) : V11 m ρ c main_arg15 = W8 m ρ c (Proc.devRef .tc main_arg15) := by
  show StableHlo.after hostOps4_2 _ (Proc.devRef .tc main_arg15) = _
  after_results_simp

/-- At the second edge call's exit its result array holds the edge features of round two. -/
theorem W12_main_v17 (hr : InRange m) (c : Dev nD) :
    W12 m ρ c (Proc.devRef .tc main_v17) = MeshNet.E2 glue (args m c) := by
  refine (W12_arr m ρ c 9).trans ?_
  rw [region4_value, V11_main_v15, V11_main_v16, V11_main_v9, V11_main_v2, V11_main_v3, V11_main_v4,
    V11_main_arg13, V11_main_arg14, V11_main_arg15,
    W8_main_v13 m ρ hr c, W8_main_v9 m ρ hr c, W8_main_v2, W8_main_v3, W8_main_v4, W8_main_arg2, W8_main_arg3,
    W8_main_arg13, W8_main_arg14, W8_main_arg15,
    takeFn_eq_gatherRows _ _ (fun e => (hr c e).1), takeFn_eq_gatherRows _ _ (fun e => (hr c e).2),
    E2_unfold, ← MeshNet.edgeParts_eq]
  rfl

/-- The receivers' index vector is still the argument's at the second edge call's exit. -/
theorem W12_main_arg3 (c : Dev nD) :
    W12 m ρ c (Proc.devRef .tc main_arg3) = m ((c.tc : Thread nD τ).loc main_arg3) := by
  rw [W12_of_ne m ρ c main_arg3 (by decide)]
  after_results_simp
  exact W8_main_arg3 m ρ c

/-! ### The entry of the second node call: the new edge features added onto their receivers, everything else as before -/

/-- The aggregate of round two. -/
theorem V13_main_v20 (hr : InRange m) (c : Dev nD) : (V13 m ρ c main_v20 : FVec Ideal S20000x128 .f32)
    = scatterRows (F := Ideal) (m ((c.tc : Thread nD τ).loc main_arg3)) (MeshNet.E2 glue (args m c)) := by
  show StableHlo.after hostOps5 _ (Proc.devRef .tc main_v20) = _
  after_results_simp
  rw [W12_main_arg3, W12_main_v17 m ρ hr c]
  rfl

theorem V13_main_v13 (c : Dev nD) : V13 m ρ c main_v13 = W8 m ρ c (Proc.devRef .tc main_v13) := by
  show StableHlo.after hostOps5 _ (Proc.devRef .tc main_v13) = _
  after_results_simp
  rw [W12_of_ne m ρ c main_v13 (by decide)]
  after_results_simp
theorem V13_main_v5 (c : Dev nD) : V13 m ρ c main_v5 = W8 m ρ c (Proc.devRef .tc main_v5) := by
  show StableHlo.after hostOps5 _ (Proc.devRef .tc main_v5) = _
  after_results_simp
  rw [W12_of_ne m ρ c main_v5 (by decide)]
  after_results_simp
theorem V13_main_v6 (c : Dev nD) : V13 m ρ c main_v6 = W8 m ρ c (Proc.devRef .tc main_v6) := by
  show StableHlo.after hostOps5 _ (Proc.devRef .tc main_v6) = _
  after_results_simp
  rw [W12_of_ne m ρ c main_v6 (by decide)]
  after_results_simp
theorem V13_main_arg17 (c : Dev nD) : V13 m ρ c main_arg17 = W8 m ρ c (Proc.devRef .tc main_arg17) := by
  show StableHlo.after hostOps5 _ (Proc.devRef .tc main_arg17) = _
  after_results_simp
  rw [W12_of_ne m ρ c main_arg17 (by decide)]
  after_results_simp
theorem V13_main_arg18 (c : Dev nD) : V13 m ρ c main_arg18 = W8 m ρ c (Proc.devRef .tc main_arg18) := by
  show StableHlo.after hostOps5 _ (Proc.devRef .tc main_arg18) = _
  after_results_simp
  rw [W12_of_ne m ρ c main_arg18 (by decide)]
  after_results_simp
theorem V13_main_arg19 (c : Dev nD) : V13 m ρ c main_arg19 = W8 m ρ c (Proc.devRef .tc main_arg19) := by
  show StableHlo.after hostOps5 _ (Proc.devRef .tc main_arg19) = _
  after_results_simp
  rw [W12_of_ne m ρ c main_arg19 (by decide)]
  after_results_simp

/-- At the second node call's exit its result array holds the node features of round two. -/
theorem W14_main_v21 (hr : InRange m) (c : Dev nD) :
    W14 m ρ c (Proc.devRef .tc main_v21) = MeshNet.X2 glue (args m c) := by
  refine (W14_arr m ρ c 7).trans ?_
  rw [region5_value, V13_main_v13, V13_main_v20 m ρ hr c, V13_main_v5, V13_main_v6,
    V13_main_arg17, V13_main_arg18, V13_main_arg19,
    W8_main_v13 m ρ hr c, W8_main_v5, W8_main_v6, W8_main_arg17, W8_main_arg18, W8_main_arg19,
    X2_unfold, ← MeshNet.nodeParts_eq]
  rfl

/-- … and the row sums of round one, which the host took right after the first node call, are still in their buffer. -/
theorem W14_main_v14 (hr : InRange m) (c : Dev nD) :
    (W14 m ρ c (Proc.devRef .tc main_v14) : FVec Ideal S20000 .f32) = rowSums (F := Ideal) (MeshNet.X1 glue (args m c)) := by
  rw [W14_of_ne m ρ c main_v14 (by decide)]
  after_results_simp
  rw [W12_of_ne m ρ c main_v14 (by decide)]
  after_results_simp
  rw [W8_main_v13 m ρ hr c]
  rfl

/-- The last stretch: the row sums of round two, joined after those of round one. -/
theorem W15_main_v23 (c : Dev nD) : (W15 m ρ c (Proc.devRef .tc main_v23) : FVec Ideal S40000 .f32)
    = joinVecs (F := Ideal) (W14 m ρ c (Proc.devRef .tc main_v14))
        (rowSums (F := Ideal) (W14 m ρ c (Proc.devRef .tc main_v21))) := by
  show StableHlo.after hostOps6 _ (Proc.devRef .tc main_v23) = _
  after_results
  rfl

/-- The result buffer at the last segment boundary holds the network's value at the argument arrays. -/
theorem W15_result (hr : InRange m) (c : Dev nD) :
    W15 m ρ c (Proc.devRef .tc main_v23) = MeshNet.net glue (args m c) := by
  rw [net_unfold]
  exact (W15_main_v23 m ρ c).trans (by rw [W14_main_v14 m ρ hr c, W14_main_v21 m ρ hr c])

end Cert.KernelIdeal.NetValue

end
-- ==== Proof.PreRange.lean ====
/-
  What the precondition says about the two index vectors: every sender index and every receiver index lies in
  -20000 … 19999, the range in which an index names a row of a 20000-row matrix (a negative one counted from the end).
  The precondition is a conjunction, folded over the inputs; its last two conjuncts are "all of (i ≥ -20000 and i < 20000)"
  over the senders and over the receivers.
-/
import proofs.«428749_j52252572123266_1_alg».proof.Defs
import proofs.«428749_j52252572123266_1_alg».proof.Proof.Gen.KernelIdeal
import proofs.«428749_j52252572123266_1_alg».proof.Proof.Gen.Pre_finite_inputs
import proofs.«428749_j52252572123266_1_alg».proof.Proof.Take
import Idealize.ShloMosaic.Lib.ValueIdx
import Idealize.ShloMosaic.Lib.StableHlo.Predicate
import Idealize.ShloMosaic.Lib.ReduceAll

noncomputable section

namespace Cert.KernelIdeal.NetValue

open Cert.KernelIdeal Idealize.ShloMosaic Idealize.ShloMosaic.ValueIdx Idealize.SL.Sem

/-- The scalar shape has one index. -/
instance scalarIdx_subsingleton : Subsingleton Cert.Pre_finite_inputs.S_.Idx := ⟨fun _ _ => funext fun d => d.elim0⟩

/-- A 32-bit word that is, signed, at least the word of -20000 and below the word of 20000 has its signed value in
    -20000 … 19999. -/
theorem word_range (w : BitVec 32)
    (h : IntOp.andi (IntOp.cmpi .sge w 4294947296#32) (IntOp.cmpi .slt w 20000#32) = 1#1) :
    -20000 ≤ w.toInt ∧ w.toInt < 20000 := by
  obtain ⟨h1, h2⟩ := IntOp.andi_eq_one.1 h
  have a := IntOp.cmpi_sge.1 h1
  have b := IntOp.cmpi_slt.1 h2
  have ea : (4294947296#32 : BitVec 32).toInt = -20000 := by decide
  have eb : (20000#32 : BitVec 32).toInt = 20000 := by decide
  rw [ea] at a
  rw [eb] at b
  exact ⟨a, b⟩

/-- Under the precondition every sender index and every receiver index lies in -20000 … 19999. -/
theorem inRange_of_pre (m : (ℓ : Loc nD τ sig) → Buf (Elt Ideal) ℓ) (h : Cert.Pre_KernelIdeal m) : InRange m := by
  intro c e
  -- the conjunction of all the conjuncts is 1 on device c
  have h0 := congrFun (h c) ix0
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  -- so its last two conjuncts are: the "all" over the senders and the "all" over the receivers
  obtain ⟨h95, h101⟩ := IntOp.andi_eq_one.1 h0
  obtain ⟨-, h94⟩ := IntOp.andi_eq_one.1 h95
  -- an "all" that is 1 had a 1 at every element
  have s := Host.reduce_andi_all _ _ _ _ _ h94 e
  have r := Host.reduce_andi_all _ _ _ _ _ h101 e
  exact ⟨word_range _ s, word_range _ r⟩

end Cert.KernelIdeal.NetValue

end
-- ==== Proof.RefGlue.lean ====
/-
  The irregular operations as the reference program prints them: a negative index counted from the end, the rows gathered at
  the resulting indices, edge rows added onto the node rows an index vector names, the sum of each row, two vectors joined.
-/
import proofs.«428749_j52252572123266_1_alg».proof.Proof.Gen.ReferenceIdeal
import proofs.«428749_j52252572123266_1_alg».proof.Proof.Net
import Idealize.ShloMosaic.Lib.ValueIdx

noncomputable section

namespace Cert.ReferenceIdeal.NetValue

open Cert.ReferenceIdeal Cert.ReferenceIdeal.Gen Idealize.ShloMosaic Idealize.ShloMosaic.ValueIdx Idealize.SL.Sem

variable {F : FTy → Type} [FloatOps F]

/-- An index vector with each negative index counted from the end. -/
def normIdx (idx : IVec S320000 32) : IVec S320000 32 :=
  select (cmpi .slt idx (broadcastInDim S320000 ![] bcast_S_S320000 (constantI S_ 32 0#32)))
    (addi idx (broadcastInDim S320000 ![] bcast_S_S320000 (constantI S_ 32 20000#32))) idx

/-- That vector as a column of start indices. -/
def colIdx (idx : IVec S320000 32) : IVec S320000x1 32 :=
  broadcastInDim S320000x1 ![0] bcast_S320000_S320000x1_0 (normIdx idx)

/-- The rows of a node matrix at an index vector. -/
def gatherRows (x : FVec F S20000x128 .f32) (idx : IVec S320000 32) : FVec F S320000x128 .f32 :=
  Host.gather gather_S20000x128_S320000x1_S320000x128_1_0_n_n_0_1_1128 x (colIdx idx)

/-- Edge rows added onto the node rows an index vector names, starting from zero. -/
def scatterRows (idx : IVec S320000 32) (e : FVec F S320000x128 .f32) : FVec F S20000x128 .f32 :=
  Host.scatterAdd scatter_S20000x128_S320000x1_S320000x128_1_0_0_1
    (broadcastInDim S20000x128 ![] bcast_S_S20000x128 (constant S_ .f32 0x00000000#32))
    (broadcastInDim S320000x1 ![0] bcast_S320000_S320000x1_0 idx) e

/-- The sum of each row. -/
def rowSums (x : FVec F S20000x128 .f32) : FVec F S20000 .f32 :=
  Host.reduceAdd x (constant S_ .f32 0x00000000#32) reducesTo_S20000x128_S20000_d1 h_S_

/-- Two vectors joined. -/
def joinVecs (a b : FVec F S20000 .f32) : FVec F S40000 .f32 :=
  concatenate S40000 0 [⟨S20000, a⟩, ⟨S20000, b⟩] concatenates_S20000_S20000_S40000_d0

/-- The irregular operations of the reference program, over the extended reals. -/
def glue : MeshNet.Glue where
  gath := gatherRows (F := Ideal)
  scat := scatterRows (F := Ideal)
  rsum := rowSums (F := Ideal)
  catv := joinVecs (F := Ideal)

/-- The argument arrays of the reference program in a launch memory. -/
def args (m : (ℓ : Loc nD τ sig) → Buf (Elt Ideal) ℓ) (c : Dev nD) : MeshNet.Args where
  nodes := m ((c.tc : Thread nD τ).loc main_arg0)
  edges := m ((c.tc : Thread nD τ).loc main_arg1)
  senders := m ((c.tc : Thread nD τ).loc main_arg2)
  receivers := m ((c.tc : Thread nD τ).loc main_arg3)
  Wn1 := m ((c.tc : Thread nD τ).loc main_arg4)
  bn1 := m ((c.tc : Thread nD τ).loc main_arg5)
  Wn2 := m ((c.tc : Thread nD τ).loc main_arg6)
  bn2 := m ((c.tc : Thread nD τ).loc main_arg7)
  We1 := m ((c.tc : Thread nD τ).loc main_arg8)
  be1 := m ((c.tc : Thread nD τ).loc main_arg9)
  We2 := m ((c.tc : Thread nD τ).loc main_arg10)
  be2 := m ((c.tc : Thread nD τ).loc main_arg11)
  Wed1 := m ((c.tc : Thread nD τ).loc main_arg12)
  bed1 := m ((c.tc : Thread nD τ).loc main_arg13)
  Wed2 := m ((c.tc : Thread nD τ).loc main_arg14)
  bed2 := m ((c.tc : Thread nD τ).loc main_arg15)
  Wnd1 := m ((c.tc : Thread nD τ).loc main_arg16)
  bnd1 := m ((c.tc : Thread nD τ).loc main_arg17)
  Wnd2 := m ((c.tc : Thread nD τ).loc main_arg18)
  bnd2 := m ((c.tc : Thread nD τ).loc main_arg19)

end Cert.ReferenceIdeal.NetValue

end
-- ==== Proof.RefRun.lean ====
/-
  The reference program's run, read stage by stage. The program is one list of host operations; cut where a stage of the
  network is complete and before every concatenate (the embedded nodes, the embedded edges, the gathered rows, the edge rows
  and the node rows of each round, the row sums), each stretch reads only the few arrays the stretches before it left and the
  arguments, and writes the next stages as functions of those. Running the stretches one after the other, the result buffer
  ends at the last stage of the argument arrays, and no operation writes an argument.
-/
import proofs.«428749_j52252572123266_1_alg».proof.Proof.RefRead
import Idealize.ShloMosaic.Lib.StableHlo.Run
import Idealize.ShloMosaic.Lib.Pipeline.Frame

noncomputable section

namespace Cert.ReferenceIdeal.NetValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The first round's three-piece concatenate (the senders' rows, the receivers' rows, the edges' own features), each piece's contents at its own buffer: under the binder of `nary_result` the operands are no literal references and the fold would stop at them. -/
theorem cat34_result' (hxs hy) (G : Valuation τ sig (Elt F)) :
    (nary (τ := τ) ![main_v26, main_v33, main_v19] main_v34 (fun u => concatenate S320000x384 1 [⟨S320000x128, u 0⟩, ⟨S320000x128, u 1⟩, ⟨S320000x128, u 2⟩] concatenates_S320000x128_S320000x128_S320000x128_S320000x384_d1) hxs hy).result G (no_index (Proc.devRef .tc main_v34))
      = concatenate S320000x384 1 [⟨S320000x128, G (Proc.devRef .tc main_v26)⟩, ⟨S320000x128, G (Proc.devRef .tc main_v33)⟩, ⟨S320000x128, G (Proc.devRef .tc main_v19)⟩] concatenates_S320000x128_S320000x128_S320000x128_S320000x384_d1 :=
  nary_result _ _ _ hxs hy G

/-- The second round's three-piece concatenate, in the same form. -/
theorem cat74_result' (hxs hy) (G : Valuation τ sig (Elt F)) :
    (nary (τ := τ) ![main_v66, main_v73, main_v44] main_v74 (fun u => concatenate S320000x384 1 [⟨S320000x128, u 0⟩, ⟨S320000x128, u 1⟩, ⟨S320000x128, u 2⟩] concatenates_S320000x128_S320000x128_S320000x128_S320000x384_d1) hxs hy).result G (no_index (Proc.devRef .tc main_v74))
      = concatenate S320000x384 1 [⟨S320000x128, G (Proc.devRef .tc main_v66)⟩, ⟨S320000x128, G (Proc.devRef .tc main_v73)⟩, ⟨S320000x128, G (Proc.devRef .tc main_v44)⟩] concatenates_S320000x128_S320000x128_S320000x128_S320000x384_d1 :=
  nary_result _ _ _ hxs hy G

/-- The fold of a stretch at one buffer, in one pass: each operation's result at its own buffer is its function of its
    operands' contents, at any other buffer what was there. -/
local macro "stage_simp" : tactic =>
  `(tactic| (simp (disch := decide) only [after_cons, after_nil,
      nullary_result', unary_result', binary_result', ternary_result', cat34_result', cat74_result',
      nullary_result_ne', unary_result_ne', binary_result_ne', ternary_result_ne', nary_result_ne']))

variable {x0 : (⟨S20000x128, .f32⟩ : BufTy).Contents (Elt F)} {x1 : (⟨S320000x128, .f32⟩ : BufTy).Contents (Elt F)} {x2 x3 : (⟨S320000, .i32⟩ : BufTy).Contents (Elt F)} {x4 : (⟨S128x256, .f32⟩ : BufTy).Contents (Elt F)} {x5 : (⟨S256, .f32⟩ : BufTy).Contents (Elt F)} {x6 : (⟨S256x128, .f32⟩ : BufTy).Contents (Elt F)} {x7 : (⟨S128, .f32⟩ : BufTy).Contents (Elt F)} {x8 : (⟨S128x256, .f32⟩ : BufTy).Contents (Elt F)} {x9 : (⟨S256, .f32⟩ : BufTy).Contents (Elt F)} {x10 : (⟨S256x128, .f32⟩ : BufTy).Contents (Elt F)} {x11 : (⟨S128, .f32⟩ : BufTy).Contents (Elt F)} {x12 : (⟨S384x256, .f32⟩ : BufTy).Contents (Elt F)} {x13 : (⟨S256, .f32⟩ : BufTy).Contents (Elt F)} {x14 : (⟨S256x128, .f32⟩ : BufTy).Contents (Elt F)} {x15 : (⟨S128, .f32⟩ : BufTy).Contents (Elt F)} {x16 : (⟨S256x256, .f32⟩ : BufTy).Contents (Elt F)} {x17 : (⟨S256, .f32⟩ : BufTy).Contents (Elt F)} {x18 : (⟨S256x128, .f32⟩ : BufTy).Contents (Elt F)} {x19 : (⟨S128, .f32⟩ : BufTy).Contents (Elt F)}

/-! ## The stretches -/

/-- The node embedding: two dense layers on the node rows, each with its bias and its rectifier. -/
abbrev s1 : List (HloOp τ sig (Elt F)) :=
  [ binary main_arg0 main_arg4 main_v0 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg5 main_v1 (broadcastInDim S1x256 ![1] bcast_S256_S1x256_1 : (⟨S256, .f32⟩ : BufTy).Contents (Elt F) → (⟨S1x256, .f32⟩ : BufTy).Contents (Elt F)),
    unary main_v1 main_v2 (broadcastInDim S20000x256 ![0, 1] bcast_S1x256_S20000x256_0_1 : (⟨S1x256, .f32⟩ : BufTy).Contents (Elt F) → (⟨S20000x256, .f32⟩ : BufTy).Contents (Elt F)),
    binary main_v0 main_v2 main_v3 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v3) (TRef.of (T := ⟨S20000x256, .f32⟩) main_call0_v0) (TRef.of (T := ⟨S20000x256, .f32⟩) main_v4) maximumf,
    binary main_v4 main_arg6 main_v5 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg7 main_v6 (broadcastInDim S1x128 ![1] bcast_S128_S1x128_1 : (⟨S128, .f32⟩ : BufTy).Contents (Elt F) → (⟨S1x128, .f32⟩ : BufTy).Contents (Elt F)),
    unary main_v6 main_v7 (broadcastInDim S20000x128 ![0, 1] bcast_S1x128_S20000x128_0_1 : (⟨S1x128, .f32⟩ : BufTy).Contents (Elt F) → (⟨S20000x128, .f32⟩ : BufTy).Contents (Elt F)),
    binary main_v5 main_v7 main_v8 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x128, .f32⟩) main_call1_v0) (broadcastInDim S20000x128 ![] bcast_S_S20000x128),
    TRef.binary (TRef.of (T := ⟨S20000x128, .f32⟩) main_v8) (TRef.of (T := ⟨S20000x128, .f32⟩) main_call1_v0) (TRef.of (T := ⟨S20000x128, .f32⟩) main_v9) maximumf ]

/-- The edge embedding: the same two dense layers on the edge rows. -/
abbrev s2 : List (HloOp τ sig (Elt F)) :=
  [ binary main_arg1 main_arg8 main_v10 ((fun l r => Host.dotGeneral dot_S320000x128_S128x256_S320000x256_1_0_0_1_n_n none l r) : (⟨S320000x128, .f32⟩ : BufTy).Contents (Elt F) → (⟨S128x256, .f32⟩ : BufTy).Contents (Elt F) → (⟨S320000x256, .f32⟩ : BufTy).Contents (Elt F)),
    unary main_arg9 main_v11 (broadcastInDim S1x256 ![1] bcast_S256_S1x256_1 : (⟨S256, .f32⟩ : BufTy).Contents (Elt F) → (⟨S1x256, .f32⟩ : BufTy).Contents (Elt F)),
    unary main_v11 main_v12 (broadcastInDim S320000x256 ![0, 1] bcast_S1x256_S320000x256_0_1 : (⟨S1x256, .f32⟩ : BufTy).Contents (Elt F) → (⟨S320000x256, .f32⟩ : BufTy).Contents (Elt F)),
    binary main_v10 main_v12 main_v13 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S320000x256, .f32⟩) main_call2_v0) (broadcastInDim S320000x256 ![] bcast_S_S320000x256),
    TRef.binary (TRef.of (T := ⟨S320000x256, .f32⟩) main_v13) (TRef.of (T := ⟨S320000x256, .f32⟩) main_call2_v0) (TRef.of (T := ⟨S320000x256, .f32⟩) main_v14) maximumf,
    binary main_v14 main_arg10 main_v15 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg11 main_v16 (broadcastInDim S1x128 ![1] bcast_S128_S1x128_1 : (⟨S128, .f32⟩ : BufTy).Contents (Elt F) → (⟨S1x128, .f32⟩ : BufTy).Contents (Elt F)),
    unary main_v16 main_v17 (broadcastInDim S320000x128 ![0, 1] bcast_S1x128_S320000x128_0_1 : (⟨S1x128, .f32⟩ : BufTy).Contents (Elt F) → (⟨S320000x128, .f32⟩ : BufTy).Contents (Elt F)),
    binary main_v15 main_v17 main_v18 (addf : (⟨S320000x128, .f32⟩ : BufTy).Contents (Elt F) → (⟨S320000x128, .f32⟩ : BufTy).Contents (Elt F) → (⟨S320000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S320000x128, .f32⟩) main_call3_v0) (broadcastInDim S320000x128 ![] bcast_S_S320000x128),
    TRef.binary (TRef.of (T := ⟨S320000x128, .f32⟩) main_v18) (TRef.of (T := ⟨S320000x128, .f32⟩) main_call3_v0) (TRef.of (T := ⟨S320000x128, .f32⟩) main_v19) maximumf ]

/-- Round one, the gathers: the senders' and the receivers' embedded rows, each index first wrapped into range. -/
abbrev s3 : List (HloOp τ sig (Elt F)) :=
  [ nullary main_c (constantI S_ 32 0#32),
    unary main_c main_v20 (broadcastInDim S320000 ![] bcast_S_S320000 : (⟨S_, .i32⟩ : BufTy).Contents (Elt F) → (⟨S320000, .i32⟩ : BufTy).Contents (Elt F)),
    binary main_arg2 main_v20 main_v21 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v22 (broadcastInDim S320000 ![] bcast_S_S320000 : (⟨S_, .i32⟩ : BufTy).Contents (Elt F) → (⟨S320000, .i32⟩ : BufTy).Contents (Elt F)),
    binary main_arg2 main_v22 main_v23 (addi : (⟨S320000, .i32⟩ : BufTy).Contents (Elt F) → (⟨S320000, .i32⟩ : BufTy).Contents (Elt F) → (⟨S320000, .i32⟩ : BufTy).Contents (Elt F)),
    ternary main_v21 main_v23 main_arg2 main_v24 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v24 main_v25 (broadcastInDim S320000x1 ![0] bcast_S320000_S320000x1_0 : (⟨S320000, .i32⟩ : BufTy).Contents (Elt F) → (⟨S320000x1, .i32⟩ : BufTy).Contents (Elt F)),
    binary main_v9 main_v25 main_v26 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_1 (constantI S_ 32 0#32),
    unary main_c_1 main_v27 (broadcastInDim S320000 ![] bcast_S_S320000 : (⟨S_, .i32⟩ : BufTy).Contents (Elt F) → (⟨S320000, .i32⟩ : BufTy).Contents (Elt F)),
    binary main_arg3 main_v27 main_v28 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v29 (broadcastInDim S320000 ![] bcast_S_S320000 : (⟨S_, .i32⟩ : BufTy).Contents (Elt F) → (⟨S320000, .i32⟩ : BufTy).Contents (Elt F)),
    binary main_arg3 main_v29 main_v30 (addi : (⟨S320000, .i32⟩ : BufTy).Contents (Elt F) → (⟨S320000, .i32⟩ : BufTy).Contents (Elt F) → (⟨S320000, .i32⟩ : BufTy).Contents (Elt F)),
    ternary main_v28 main_v30 main_arg3 main_v31 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v31 main_v32 (broadcastInDim S320000x1 ![0] bcast_S320000_S320000x1_0 : (⟨S320000, .i32⟩ : BufTy).Contents (Elt F) → (⟨S320000x1, .i32⟩ : BufTy).Contents (Elt F)),
    binary main_v9 main_v32 main_v33 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- Round one, the edges: the two gathered rows joined with the edge's own, two dense layers, and the new edge rows summed into their receivers' slots. -/
abbrev s4 : List (HloOp τ sig (Elt F)) :=
  [ nary ![main_v26, main_v33, main_v19] main_v34 (fun u => concatenate S320000x384 1 [⟨S320000x128, u 0⟩, ⟨S320000x128, u 1⟩, ⟨S320000x128, u 2⟩] concatenates_S320000x128_S320000x128_S320000x128_S320000x384_d1),
    binary main_v34 main_arg12 main_v35 ((fun l r => Host.dotGeneral dot_S320000x384_S384x256_S320000x256_1_0_0_1_n_n none l r) : (⟨S320000x384, .f32⟩ : BufTy).Contents (Elt F) → (⟨S384x256, .f32⟩ : BufTy).Contents (Elt F) → (⟨S320000x256, .f32⟩ : BufTy).Contents (Elt F)),
    unary main_arg13 main_v36 (broadcastInDim S1x256 ![1] bcast_S256_S1x256_1 : (⟨S256, .f32⟩ : BufTy).Contents (Elt F) → (⟨S1x256, .f32⟩ : BufTy).Contents (Elt F)),
    unary main_v36 main_v37 (broadcastInDim S320000x256 ![0, 1] bcast_S1x256_S320000x256_0_1 : (⟨S1x256, .f32⟩ : BufTy).Contents (Elt F) → (⟨S320000x256, .f32⟩ : BufTy).Contents (Elt F)),
    binary main_v35 main_v37 main_v38 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S320000x256, .f32⟩) main_call4_v0) (broadcastInDim S320000x256 ![] bcast_S_S320000x256),
    TRef.binary (TRef.of (T := ⟨S320000x256, .f32⟩) main_v38) (TRef.of (T := ⟨S320000x256, .f32⟩) main_call4_v0) (TRef.of (T := ⟨S320000x256, .f32⟩) main_v39) maximumf,
    binary main_v39 main_arg14 main_v40 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v41 (broadcastInDim S1x128 ![1] bcast_S128_S1x128_1 : (⟨S128, .f32⟩ : BufTy).Contents (Elt F) → (⟨S1x128, .f32⟩ : BufTy).Contents (Elt F)),
    unary main_v41 main_v42 (broadcastInDim S320000x128 ![0, 1] bcast_S1x128_S320000x128_0_1 : (⟨S1x128, .f32⟩ : BufTy).Contents (Elt F) → (⟨S320000x128, .f32⟩ : BufTy).Contents (Elt F)),
    binary main_v40 main_v42 main_v43 (addf : (⟨S320000x128, .f32⟩ : BufTy).Contents (Elt F) → (⟨S320000x128, .f32⟩ : BufTy).Contents (Elt F) → (⟨S320000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S320000x128, .f32⟩) main_call5_v0) (broadcastInDim S320000x128 ![] bcast_S_S320000x128),
    TRef.binary (TRef.of (T := ⟨S320000x128, .f32⟩) main_v43) (TRef.of (T := ⟨S320000x128, .f32⟩) main_call5_v0) (TRef.of (T := ⟨S320000x128, .f32⟩) main_v44) maximumf,
    nullary main_cst (constant S_ .f32 0x00000000#32),
    unary main_cst main_v45 (broadcastInDim S20000x128 ![] bcast_S_S20000x128 : (⟨S_, .f32⟩ : BufTy).Contents (Elt F) → (⟨S20000x128, .f32⟩ : BufTy).Contents (Elt F)),
    unary main_arg3 main_v46 (broadcastInDim S320000x1 ![0] bcast_S320000_S320000x1_0 : (⟨S320000, .i32⟩ : BufTy).Contents (Elt F) → (⟨S320000x1, .i32⟩ : BufTy).Contents (Elt F)),
    ternary main_v45 main_v46 main_v44 main_v47 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- Round one, the nodes: each node's row joined with the sum it received, two dense layers, and the new rows' sums. -/
abbrev s5 : List (HloOp τ sig (Elt F)) :=
  [ binary main_v9 main_v47 main_v48 ((fun a b => concatenate S20000x256 1 [⟨S20000x128, a⟩, ⟨S20000x128, b⟩] concatenates_S20000x128_S20000x128_S20000x256_d1) : (⟨S20000x128, .f32⟩ : BufTy).Contents (Elt F) → (⟨S20000x128, .f32⟩ : BufTy).Contents (Elt F) → (⟨S20000x256, .f32⟩ : BufTy).Contents (Elt F)),
    binary main_v48 main_arg16 main_v49 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg17 main_v50 (broadcastInDim S1x256 ![1] bcast_S256_S1x256_1 : (⟨S256, .f32⟩ : BufTy).Contents (Elt F) → (⟨S1x256, .f32⟩ : BufTy).Contents (Elt F)),
    unary main_v50 main_v51 (broadcastInDim S20000x256 ![0, 1] bcast_S1x256_S20000x256_0_1 : (⟨S1x256, .f32⟩ : BufTy).Contents (Elt F) → (⟨S20000x256, .f32⟩ : BufTy).Contents (Elt F)),
    binary main_v49 main_v51 main_v52 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S20000x256, .f32⟩) main_call6_v0) (broadcastInDim S20000x256 ![] bcast_S_S20000x256),
    TRef.binary (TRef.of (T := ⟨S20000x256, .f32⟩) main_v52) (TRef.of (T := ⟨S20000x256, .f32⟩) main_call6_v0) (TRef.of (T := ⟨S20000x256, .f32⟩) main_v53) maximumf,
    binary main_v53 main_arg18 main_v54 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg19 main_v55 (broadcastInDim S1x128 ![1] bcast_S128_S1x128_1 : (⟨S128, .f32⟩ : BufTy).Contents (Elt F) → (⟨S1x128, .f32⟩ : BufTy).Contents (Elt F)),
    unary main_v55 main_v56 (broadcastInDim S20000x128 ![0, 1] bcast_S1x128_S20000x128_0_1 : (⟨S1x128, .f32⟩ : BufTy).Contents (Elt F) → (⟨S20000x128, .f32⟩ : BufTy).Contents (Elt F)),
    binary main_v54 main_v56 main_v57 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S20000x128, .f32⟩) main_call7_v0) (broadcastInDim S20000x128 ![] bcast_S_S20000x128),
    TRef.binary (TRef.of (T := ⟨S20000x128, .f32⟩) main_v57) (TRef.of (T := ⟨S20000x128, .f32⟩) main_call7_v0) (TRef.of (T := ⟨S20000x128, .f32⟩) main_v58) maximumf,
    nullary main_cst_3 (constant S_ .f32 0x00000000#32),
    binary main_v58 main_cst_3 main_v59 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)) ]

/-- Round two, the gathers: as round one's, from the new node rows. -/
abbrev s6 : List (HloOp τ sig (Elt F)) :=
  [ nullary main_c_4 (constantI S_ 32 0#32),
    unary main_c_4 main_v60 (broadcastInDim S320000 ![] bcast_S_S320000 : (⟨S_, .i32⟩ : BufTy).Contents (Elt F) → (⟨S320000, .i32⟩ : BufTy).Contents (Elt F)),
    binary main_arg2 main_v60 main_v61 (cmpi .slt : (⟨S320000, .i32⟩ : BufTy).Contents (Elt F) → (⟨S320000, .i32⟩ : BufTy).Contents (Elt F) → (⟨S320000, .i1⟩ : BufTy).Contents (Elt F)),
    nullary main_c_5 (constantI S_ 32 20000#32),
    unary main_c_5 main_v62 (broadcastInDim S320000 ![] bcast_S_S320000 : (⟨S_, .i32⟩ : BufTy).Contents (Elt F) → (⟨S320000, .i32⟩ : BufTy).Contents (Elt F)),
    binary main_arg2 main_v62 main_v63 (addi : (⟨S320000, .i32⟩ : BufTy).Contents (Elt F) → (⟨S320000, .i32⟩ : BufTy).Contents (Elt F) → (⟨S320000, .i32⟩ : BufTy).Contents (Elt F)),
    ternary main_v61 main_v63 main_arg2 main_v64 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v64 main_v65 (broadcastInDim S320000x1 ![0] bcast_S320000_S320000x1_0 : (⟨S320000, .i32⟩ : BufTy).Contents (Elt F) → (⟨S320000x1, .i32⟩ : BufTy).Contents (Elt F)),
    binary main_v58 main_v65 main_v66 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_6 (constantI S_ 32 0#32),
    unary main_c_6 main_v67 (broadcastInDim S320000 ![] bcast_S_S320000 : (⟨S_, .i32⟩ : BufTy).Contents (Elt F) → (⟨S320000, .i32⟩ : BufTy).Contents (Elt F)),
    binary main_arg3 main_v67 main_v68 (cmpi .slt : (⟨S320000, .i32⟩ : BufTy).Contents (Elt F) → (⟨S320000, .i32⟩ : BufTy).Contents (Elt F) → (⟨S320000, .i1⟩ : BufTy).Contents (Elt F)),
    nullary main_c_7 (constantI S_ 32 20000#32),
    unary main_c_7 main_v69 (broadcastInDim S320000 ![] bcast_S_S320000 : (⟨S_, .i32⟩ : BufTy).Contents (Elt F) → (⟨S320000, .i32⟩ : BufTy).Contents (Elt F)),
    binary main_arg3 main_v69 main_v70 (addi : (⟨S320000, .i32⟩ : BufTy).Contents (Elt F) → (⟨S320000, .i32⟩ : BufTy).Contents (Elt F) → (⟨S320000, .i32⟩ : BufTy).Contents (Elt F)),
    ternary main_v68 main_v70 main_arg3 main_v71 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v71 main_v72 (broadcastInDim S320000x1 ![0] bcast_S320000_S320000x1_0 : (⟨S320000, .i32⟩ : BufTy).Contents (Elt F) → (⟨S320000x1, .i32⟩ : BufTy).Contents (Elt F)),
    binary main_v58 main_v72 main_v73 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- Round two, the edges: as round one's, from the gathered new rows and round one's edge rows. -/
abbrev s7 : List (HloOp τ sig (Elt F)) :=
  [ nary ![main_v66, main_v73, main_v44] main_v74 (fun u => concatenate S320000x384 1 [⟨S320000x128, u 0⟩, ⟨S320000x128, u 1⟩, ⟨S320000x128, u 2⟩] concatenates_S320000x128_S320000x128_S320000x128_S320000x384_d1),
    binary main_v74 main_arg12 main_v75 ((fun l r => Host.dotGeneral dot_S320000x384_S384x256_S320000x256_1_0_0_1_n_n none l r) : (⟨S320000x384, .f32⟩ : BufTy).Contents (Elt F) → (⟨S384x256, .f32⟩ : BufTy).Contents (Elt F) → (⟨S320000x256, .f32⟩ : BufTy).Contents (Elt F)),
    unary main_arg13 main_v76 (broadcastInDim S1x256 ![1] bcast_S256_S1x256_1 : (⟨S256, .f32⟩ : BufTy).Contents (Elt F) → (⟨S1x256, .f32⟩ : BufTy).Contents (Elt F)),
    unary main_v76 main_v77 (broadcastInDim S320000x256 ![0, 1] bcast_S1x256_S320000x256_0_1 : (⟨S1x256, .f32⟩ : BufTy).Contents (Elt F) → (⟨S320000x256, .f32⟩ : BufTy).Contents (Elt F)),
    binary main_v75 main_v77 main_v78 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S320000x256, .f32⟩) main_call8_v0) (broadcastInDim S320000x256 ![] bcast_S_S320000x256),
    TRef.binary (TRef.of (T := ⟨S320000x256, .f32⟩) main_v78) (TRef.of (T := ⟨S320000x256, .f32⟩) main_call8_v0) (TRef.of (T := ⟨S320000x256, .f32⟩) main_v79) maximumf,
    binary main_v79 main_arg14 main_v80 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v81 (broadcastInDim S1x128 ![1] bcast_S128_S1x128_1 : (⟨S128, .f32⟩ : BufTy).Contents (Elt F) → (⟨S1x128, .f32⟩ : BufTy).Contents (Elt F)),
    unary main_v81 main_v82 (broadcastInDim S320000x128 ![0, 1] bcast_S1x128_S320000x128_0_1 : (⟨S1x128, .f32⟩ : BufTy).Contents (Elt F) → (⟨S320000x128, .f32⟩ : BufTy).Contents (Elt F)),
    binary main_v80 main_v82 main_v83 (addf : (⟨S320000x128, .f32⟩ : BufTy).Contents (Elt F) → (⟨S320000x128, .f32⟩ : BufTy).Contents (Elt F) → (⟨S320000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S320000x128, .f32⟩) main_call9_v0) (broadcastInDim S320000x128 ![] bcast_S_S320000x128),
    TRef.binary (TRef.of (T := ⟨S320000x128, .f32⟩) main_v83) (TRef.of (T := ⟨S320000x128, .f32⟩) main_call9_v0) (TRef.of (T := ⟨S320000x128, .f32⟩) main_v84) maximumf,
    nullary main_cst_8 (constant S_ .f32 0x00000000#32),
    unary main_cst_8 main_v85 (broadcastInDim S20000x128 ![] bcast_S_S20000x128 : (⟨S_, .f32⟩ : BufTy).Contents (Elt F) → (⟨S20000x128, .f32⟩ : BufTy).Contents (Elt F)),
    unary main_arg3 main_v86 (broadcastInDim S320000x1 ![0] bcast_S320000_S320000x1_0 : (⟨S320000, .i32⟩ : BufTy).Contents (Elt F) → (⟨S320000x1, .i32⟩ : BufTy).Contents (Elt F)),
    ternary main_v85 main_v86 main_v84 main_v87 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- Round two, the nodes: as round one's, and the new rows' sums. -/
abbrev s8 : List (HloOp τ sig (Elt F)) :=
  [ binary main_v58 main_v87 main_v88 ((fun a b => concatenate S20000x256 1 [⟨S20000x128, a⟩, ⟨S20000x128, b⟩] concatenates_S20000x128_S20000x128_S20000x256_d1) : (⟨S20000x128, .f32⟩ : BufTy).Contents (Elt F) → (⟨S20000x128, .f32⟩ : BufTy).Contents (Elt F) → (⟨S20000x256, .f32⟩ : BufTy).Contents (Elt F)),
    binary main_v88 main_arg16 main_v89 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg17 main_v90 (broadcastInDim S1x256 ![1] bcast_S256_S1x256_1 : (⟨S256, .f32⟩ : BufTy).Contents (Elt F) → (⟨S1x256, .f32⟩ : BufTy).Contents (Elt F)),
    unary main_v90 main_v91 (broadcastInDim S20000x256 ![0, 1] bcast_S1x256_S20000x256_0_1 : (⟨S1x256, .f32⟩ : BufTy).Contents (Elt F) → (⟨S20000x256, .f32⟩ : BufTy).Contents (Elt F)),
    binary main_v89 main_v91 main_v92 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S20000x256, .f32⟩) main_call10_v0) (broadcastInDim S20000x256 ![] bcast_S_S20000x256),
    TRef.binary (TRef.of (T := ⟨S20000x256, .f32⟩) main_v92) (TRef.of (T := ⟨S20000x256, .f32⟩) main_call10_v0) (TRef.of (T := ⟨S20000x256, .f32⟩) main_v93) maximumf,
    binary main_v93 main_arg18 main_v94 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg19 main_v95 (broadcastInDim S1x128 ![1] bcast_S128_S1x128_1 : (⟨S128, .f32⟩ : BufTy).Contents (Elt F) → (⟨S1x128, .f32⟩ : BufTy).Contents (Elt F)),
    unary main_v95 main_v96 (broadcastInDim S20000x128 ![0, 1] bcast_S1x128_S20000x128_0_1 : (⟨S1x128, .f32⟩ : BufTy).Contents (Elt F) → (⟨S20000x128, .f32⟩ : BufTy).Contents (Elt F)),
    binary main_v94 main_v96 main_v97 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S20000x128, .f32⟩) main_call11_v0) (broadcastInDim S20000x128 ![] bcast_S_S20000x128),
    TRef.binary (TRef.of (T := ⟨S20000x128, .f32⟩) main_v97) (TRef.of (T := ⟨S20000x128, .f32⟩) main_call11_v0) (TRef.of (T := ⟨S20000x128, .f32⟩) main_v98) maximumf,
    nullary main_cst_9 (constant S_ .f32 0x00000000#32),
    binary main_v98 main_cst_9 main_v99 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)) ]

/-- The result: the two rounds' row sums, one after the other. -/
abbrev s9 : List (HloOp τ sig (Elt F)) :=
  [ binary main_v59 main_v99 main_v100 ((fun a b => concatenate S40000 0 [⟨S20000, a⟩, ⟨S20000, b⟩] concatenates_S20000_S20000_S40000_d0) : (⟨S20000, .f32⟩ : BufTy).Contents (Elt F) → (⟨S20000, .f32⟩ : BufTy).Contents (Elt F) → (⟨S40000, .f32⟩ : BufTy).Contents (Elt F)) ]

/-! ## Each stretch's stages, from what it reads

The memory `V` a stretch starts from is any; what it holds at the buffers the stretch reads is given by name (`x…` for an
argument, an earlier stage for a computed array), and the stretch's fold at a buffer it writes is then that buffer's stage. -/

/-- The node embedding ends at its stage of the node arrays. -/
theorem s1_v9 (V : Valuation τ sig (Elt F))
    (a0 : V (Proc.devRef .tc main_arg0) = x0)
    (a4 : V (Proc.devRef .tc main_arg4) = x4)
    (a5 : V (Proc.devRef .tc main_arg5) = x5)
    (a6 : V (Proc.devRef .tc main_arg6) = x6)
    (a7 : V (Proc.devRef .tc main_arg7) = x7) :
    after (s1 (F := F)) V (Proc.devRef .tc main_v9) = val_main_v9 (F := F) x0 x4 x5 x6 x7 := by
  subst a0 a4 a5 a6 a7
  stage_simp
  simp only [TRef.ofBuf, TRef.toBuf, cast_eq]
  rfl

/-- The edge embedding ends at its stage of the edge arrays. -/
theorem s2_v19 (V : Valuation τ sig (Elt F))
    (a1 : V (Proc.devRef .tc main_arg1) = x1)
    (a8 : V (Proc.devRef .tc main_arg8) = x8)
    (a9 : V (Proc.devRef .tc main_arg9) = x9)
    (a10 : V (Proc.devRef .tc main_arg10) = x10)
    (a11 : V (Proc.devRef .tc main_arg11) = x11) :
    after (s2 (F := F)) V (Proc.devRef .tc main_v19) = val_main_v19 (F := F) x1 x8 x9 x10 x11 := by
  subst a1 a8 a9 a10 a11
  stage_simp
  simp only [TRef.ofBuf, TRef.toBuf, cast_eq]
  rfl

/-- Round one's senders' rows, from the embedded nodes. -/
theorem s3_v26 (V : Valuation τ sig (Elt F))
    (h9 : V (Proc.devRef .tc main_v9) = val_main_v9 (F := F) x0 x4 x5 x6 x7)
    (a2 : V (Proc.devRef .tc main_arg2) = x2) :
    after (s3 (F := F)) V (Proc.devRef .tc main_v26) = val_main_v26 (F := F) x0 x2 x4 x5 x6 x7 := by
  subst a2
  stage_simp
  rw [h9]
  rfl

/-- Round one's receivers' rows, from the embedded nodes. -/
theorem s3_v33 (V : Valuation τ sig (Elt F))
    (h9 : V (Proc.devRef .tc main_v9) = val_main_v9 (F := F) x0 x4 x5 x6 x7)
    (a3 : V (Proc.devRef .tc main_arg3) = x3) :
    after (s3 (F := F)) V (Proc.devRef .tc main_v33) = val_main_v33 (F := F) x0 x3 x4 x5 x6 x7 := by
  subst a3
  stage_simp
  rw [h9]
  rfl

/-- Round one's edge rows, from the gathered rows and the embedded edges. -/
theorem s4_v44 (V : Valuation τ sig (Elt F))
    (h26 : V (Proc.devRef .tc main_v26) = val_main_v26 (F := F) x0 x2 x4 x5 x6 x7)
    (h33 : V (Proc.devRef .tc main_v33) = val_main_v33 (F := F) x0 x3 x4 x5 x6 x7)
    (h19 : V (Proc.devRef .tc main_v19) = val_main_v19 (F := F) x1 x8 x9 x10 x11)
    (a12 : V (Proc.devRef .tc main_arg12) = x12)
    (a13 : V (Proc.devRef .tc main_arg13) = x13)
    (a14 : V (Proc.devRef .tc main_arg14) = x14)
    (a15 : V (Proc.devRef .tc main_arg15) = x15) :
    after (s4 (F := F)) V (Proc.devRef .tc main_v44) = val_main_v44 (F := F) x0 x1 x2 x3 x4 x5 x6 x7 x8 x9 x10 x11 x12 x13 x14 x15 := by
  subst a12 a13 a14 a15
  stage_simp
  simp only [TRef.ofBuf, TRef.toBuf, cast_eq]
  rw [h26, h33, h19]
  rfl

/-- Round one's sums at the receivers. -/
theorem s4_v47 (V : Valuation τ sig (Elt F))
    (h26 : V (Proc.devRef .tc main_v26) = val_main_v26 (F := F) x0 x2 x4 x5 x6 x7)
    (h33 : V (Proc.devRef .tc main_v33) = val_main_v33 (F := F) x0 x3 x4 x5 x6 x7)
    (h19 : V (Proc.devRef .tc main_v19) = val_main_v19 (F := F) x1 x8 x9 x10 x11)
    (a3 : V (Proc.devRef .tc main_arg3) = x3)
    (a12 : V (Proc.devRef .tc main_arg12) = x12)
    (a13 : V (Proc.devRef .tc main_arg13) = x13)
    (a14 : V (Proc.devRef .tc main_arg14) = x14)
    (a15 : V (Proc.devRef .tc main_arg15) = x15) :
    after (s4 (F := F)) V (Proc.devRef .tc main_v47) = val_main_v47 (F := F) x0 x1 x2 x3 x4 x5 x6 x7 x8 x9 x10 x11 x12 x13 x14 x15 := by
  subst a3 a12 a13 a14 a15
  stage_simp
  simp only [TRef.ofBuf, TRef.toBuf, cast_eq]
  rw [h26, h33, h19]
  rfl

/-- Round one's node rows, from the embedded nodes and the sums they received. -/
theorem s5_v58 (V : Valuation τ sig (Elt F))
    (h9 : V (Proc.devRef .tc main_v9) = val_main_v9 (F := F) x0 x4 x5 x6 x7)
    (h47 : V (Proc.devRef .tc main_v47) = val_main_v47 (F := F) x0 x1 x2 x3 x4 x5 x6 x7 x8 x9 x10 x11 x12 x13 x14 x15)
    (a16 : V (Proc.devRef .tc main_arg16) = x16)
    (a17 : V (Proc.devRef .tc main_arg17) = x17)
    (a18 : V (Proc.devRef .tc main_arg18) = x18)
    (a19 : V (Proc.devRef .tc main_arg19) = x19) :
    after (s5 (F := F)) V (Proc.devRef .tc main_v58) = val_main_v58 (F := F) x0 x1 x2 x3 x4 x5 x6 x7 x8 x9 x10 x11 x12 x13 x14 x15 x16 x17 x18 x19 := by
  subst a16 a17 a18 a19
  stage_simp
  simp only [TRef.ofBuf, TRef.toBuf, cast_eq]
  rw [h9, h47]
  rfl

/-- Round one's row sums. -/
theorem s5_v59 (V : Valuation τ sig (Elt F))
    (h9 : V (Proc.devRef .tc main_v9) = val_main_v9 (F := F) x0 x4 x5 x6 x7)
    (h47 : V (Proc.devRef .tc main_v47) = val_main_v47 (F := F) x0 x1 x2 x3 x4 x5 x6 x7 x8 x9 x10 x11 x12 x13 x14 x15)
    (a16 : V (Proc.devRef .tc main_arg16) = x16)
    (a17 : V (Proc.devRef .tc main_arg17) = x17)
    (a18 : V (Proc.devRef .tc main_arg18) = x18)
    (a19 : V (Proc.devRef .tc main_arg19) = x19) :
    after (s5 (F := F)) V (Proc.devRef .tc main_v59) = val_main_v59 (F := F) x0 x1 x2 x3 x4 x5 x6 x7 x8 x9 x10 x11 x12 x13 x14 x15 x16 x17 x18 x19 := by
  subst a16 a17 a18 a19
  stage_simp
  simp only [TRef.ofBuf, TRef.toBuf, cast_eq]
  rw [h9, h47]
  rfl

/-- Round two's senders' rows, from round one's node rows. -/
theorem s6_v66 (V : Valuation τ sig (Elt F))
    (h58 : V (Proc.devRef .tc main_v58) = val_main_v58 (F := F) x0 x1 x2 x3 x4 x5 x6 x7 x8 x9 x10 x11 x12 x13 x14 x15 x16 x17 x18 x19)
    (a2 : V (Proc.devRef .tc main_arg2) = x2) :
    after (s6 (F := F)) V (Proc.devRef .tc main_v66) = val_main_v66 (F := F) x0 x1 x2 x3 x4 x5 x6 x7 x8 x9 x10 x11 x12 x13 x14 x15 x16 x17 x18 x19 := by
  subst a2
  stage_simp
  rw [h58]
  rfl

/-- Round two's receivers' rows. -/
theorem s6_v73 (V : Valuation τ sig (Elt F))
    (h58 : V (Proc.devRef .tc main_v58) = val_main_v58 (F := F) x0 x1 x2 x3 x4 x5 x6 x7 x8 x9 x10 x11 x12 x13 x14 x15 x16 x17 x18 x19)
    (a3 : V (Proc.devRef .tc main_arg3) = x3) :
    after (s6 (F := F)) V (Proc.devRef .tc main_v73) = val_main_v73 (F := F) x0 x1 x2 x3 x4 x5 x6 x7 x8 x9 x10 x11 x12 x13 x14 x15 x16 x17 x18 x19 := by
  subst a3
  stage_simp
  rw [h58]
  rfl

/-- Round two's sums at the receivers (through round two's edge rows). -/
theorem s7_v87 (V : Valuation τ sig (Elt F))
    (h66 : V (Proc.devRef .tc main_v66) = val_main_v66 (F := F) x0 x1 x2 x3 x4 x5 x6 x7 x8 x9 x10 x11 x12 x13 x14 x15 x16 x17 x18 x19)
    (h73 : V (Proc.devRef .tc main_v73) = val_main_v73 (F := F) x0 x1 x2 x3 x4 x5 x6 x7 x8 x9 x10 x11 x12 x13 x14 x15 x16 x17 x18 x19)
    (h44 : V (Proc.devRef .tc main_v44) = val_main_v44 (F := F) x0 x1 x2 x3 x4 x5 x6 x7 x8 x9 x10 x11 x12 x13 x14 x15)
    (a3 : V (Proc.devRef .tc main_arg3) = x3)
    (a12 : V (Proc.devRef .tc main_arg12) = x12)
    (a13 : V (Proc.devRef .tc main_arg13) = x13)
    (a14 : V (Proc.devRef .tc main_arg14) = x14)
    (a15 : V (Proc.devRef .tc main_arg15) = x15) :
    after (s7 (F := F)) V (Proc.devRef .tc main_v87) = val_main_v87 (F := F) x0 x1 x2 x3 x4 x5 x6 x7 x8 x9 x10 x11 x12 x13 x14 x15 x16 x17 x18 x19 := by
  subst a3 a12 a13 a14 a15
  stage_simp
  simp only [TRef.ofBuf, TRef.toBuf, cast_eq]
  rw [h66, h73, h44]
  rfl

/-- Round two's row sums (through round two's node rows). -/
theorem s8_v99 (V : Valuation τ sig (Elt F))
    (h58 : V (Proc.devRef .tc main_v58) = val_main_v58 (F := F) x0 x1 x2 x3 x4 x5 x6 x7 x8 x9 x10 x11 x12 x13 x14 x15 x16 x17 x18 x19)
    (h87 : V (Proc.devRef .tc main_v87) = val_main_v87 (F := F) x0 x1 x2 x3 x4 x5 x6 x7 x8 x9 x10 x11 x12 x13 x14 x15 x16 x17 x18 x19)
    (a16 : V (Proc.devRef .tc main_arg16) = x16)
    (a17 : V (Proc.devRef .tc main_arg17) = x17)
    (a18 : V (Proc.devRef .tc main_arg18) = x18)
    (a19 : V (Proc.devRef .tc main_arg19) = x19) :
    after (s8 (F := F)) V (Proc.devRef .tc main_v99) = val_main_v99 (F := F) x0 x1 x2 x3 x4 x5 x6 x7 x8 x9 x10 x11 x12 x13 x14 x15 x16 x17 x18 x19 := by
  subst a16 a17 a18 a19
  stage_simp
  simp only [TRef.ofBuf, TRef.toBuf, cast_eq]
  rw [h58, h87]
  rfl

/-- The result is the last stage. -/
theorem s9_v100 (V : Valuation τ sig (Elt F))
    (h59 : V (Proc.devRef .tc main_v59) = val_main_v59 (F := F) x0 x1 x2 x3 x4 x5 x6 x7 x8 x9 x10 x11 x12 x13 x14 x15 x16 x17 x18 x19)
    (h99 : V (Proc.devRef .tc main_v99) = val_main_v99 (F := F) x0 x1 x2 x3 x4 x5 x6 x7 x8 x9 x10 x11 x12 x13 x14 x15 x16 x17 x18 x19) :
    after (s9 (F := F)) V (Proc.devRef .tc main_v100) = val_main_v100 (F := F) x0 x1 x2 x3 x4 x5 x6 x7 x8 x9 x10 x11 x12 x13 x14 x15 x16 x17 x18 x19 := by
  stage_simp
  rw [h59, h99]
  rfl

/-! ## What a stretch does not write it keeps -/

abbrev W1 : List (Ref sig .tc) := [main_v0, main_v1, main_v2, main_v3, main_call0_cst, main_call0_v0, main_v4, main_v5, main_v6, main_v7, main_v8, main_call1_cst, main_call1_v0, main_v9]
abbrev W2 : List (Ref sig .tc) := [main_v10, main_v11, main_v12, main_v13, main_call2_cst, main_call2_v0, main_v14, main_v15, main_v16, main_v17, main_v18, main_call3_cst, main_call3_v0, main_v19]
abbrev W3 : List (Ref sig .tc) := [main_c, main_v20, main_v21, main_c_0, main_v22, main_v23, main_v24, main_v25, main_v26, main_c_1, main_v27, main_v28, main_c_2, main_v29, main_v30, main_v31, main_v32, main_v33]
abbrev W4 : List (Ref sig .tc) := [main_v34, main_v35, main_v36, main_v37, main_v38, main_call4_cst, main_call4_v0, main_v39, main_v40, main_v41, main_v42, main_v43, main_call5_cst, main_call5_v0, main_v44, main_cst, main_v45, main_v46, main_v47]
abbrev W5 : List (Ref sig .tc) := [main_v48, main_v49, main_v50, main_v51, main_v52, main_call6_cst, main_call6_v0, main_v53, main_v54, main_v55, main_v56, main_v57, main_call7_cst, main_call7_v0, main_v58, main_cst_3, main_v59]
abbrev W6 : List (Ref sig .tc) := [main_c_4, main_v60, main_v61, main_c_5, main_v62, main_v63, main_v64, main_v65, main_v66, main_c_6, main_v67, main_v68, main_c_7, main_v69, main_v70, main_v71, main_v72, main_v73]
abbrev W7 : List (Ref sig .tc) := [main_v74, main_v75, main_v76, main_v77, main_v78, main_call8_cst, main_call8_v0, main_v79, main_v80, main_v81, main_v82, main_v83, main_call9_cst, main_call9_v0, main_v84, main_cst_8, main_v85, main_v86, main_v87]
abbrev W8 : List (Ref sig .tc) := [main_v88, main_v89, main_v90, main_v91, main_v92, main_call10_cst, main_call10_v0, main_v93, main_v94, main_v95, main_v96, main_v97, main_call11_cst, main_call11_v0, main_v98, main_cst_9, main_v99]
abbrev W9 : List (Ref sig .tc) := [main_v100]

theorem s1_frame (V : Valuation τ sig (Elt F)) {r : Ref sig .tc} (hr : r ∉ W1) :
    after (s1 (F := F)) V (Proc.devRef .tc r) = V (Proc.devRef .tc r) :=
  after_of_forall_not_mem (b := Proc.devRef .tc r) _ _ (List.forall_iff_forall_mem.mp (by
    simp only [s1, List.Forall, nullary_writes, unary_writes, binary_writes, ternary_writes, nary_writes, Finset.mem_singleton]
    repeat' apply And.intro
    all_goals exact devRef_ne_of_ne (by rintro rfl; exact hr (by decide))))
theorem s2_frame (V : Valuation τ sig (Elt F)) {r : Ref sig .tc} (hr : r ∉ W2) :
    after (s2 (F := F)) V (Proc.devRef .tc r) = V (Proc.devRef .tc r) :=
  after_of_forall_not_mem (b := Proc.devRef .tc r) _ _ (List.forall_iff_forall_mem.mp (by
    simp only [s2, List.Forall, nullary_writes, unary_writes, binary_writes, ternary_writes, nary_writes, Finset.mem_singleton]
    repeat' apply And.intro
    all_goals exact devRef_ne_of_ne (by rintro rfl; exact hr (by decide))))
theorem s3_frame (V : Valuation τ sig (Elt F)) {r : Ref sig .tc} (hr : r ∉ W3) :
    after (s3 (F := F)) V (Proc.devRef .tc r) = V (Proc.devRef .tc r) :=
  after_of_forall_not_mem (b := Proc.devRef .tc r) _ _ (List.forall_iff_forall_mem.mp (by
    simp only [s3, List.Forall, nullary_writes, unary_writes, binary_writes, ternary_writes, nary_writes, Finset.mem_singleton]
    repeat' apply And.intro
    all_goals exact devRef_ne_of_ne (by rintro rfl; exact hr (by decide))))
theorem s4_frame (V : Valuation τ sig (Elt F)) {r : Ref sig .tc} (hr : r ∉ W4) :
    after (s4 (F := F)) V (Proc.devRef .tc r) = V (Proc.devRef .tc r) :=
  after_of_forall_not_mem (b := Proc.devRef .tc r) _ _ (List.forall_iff_forall_mem.mp (by
    simp only [s4, List.Forall, nullary_writes, unary_writes, binary_writes, ternary_writes, nary_writes, Finset.mem_singleton]
    repeat' apply And.intro
    all_goals exact devRef_ne_of_ne (by rintro rfl; exact hr (by decide))))
theorem s5_frame (V : Valuation τ sig (Elt F)) {r : Ref sig .tc} (hr : r ∉ W5) :
    after (s5 (F := F)) V (Proc.devRef .tc r) = V (Proc.devRef .tc r) :=
  after_of_forall_not_mem (b := Proc.devRef .tc r) _ _ (List.forall_iff_forall_mem.mp (by
    simp only [s5, List.Forall, nullary_writes, unary_writes, binary_writes, ternary_writes, nary_writes, Finset.mem_singleton]
    repeat' apply And.intro
    all_goals exact devRef_ne_of_ne (by rintro rfl; exact hr (by decide))))
theorem s6_frame (V : Valuation τ sig (Elt F)) {r : Ref sig .tc} (hr : r ∉ W6) :
    after (s6 (F := F)) V (Proc.devRef .tc r) = V (Proc.devRef .tc r) :=
  after_of_forall_not_mem (b := Proc.devRef .tc r) _ _ (List.forall_iff_forall_mem.mp (by
    simp only [s6, List.Forall, nullary_writes, unary_writes, binary_writes, ternary_writes, nary_writes, Finset.mem_singleton]
    repeat' apply And.intro
    all_goals exact devRef_ne_of_ne (by rintro rfl; exact hr (by decide))))
theorem s7_frame (V : Valuation τ sig (Elt F)) {r : Ref sig .tc} (hr : r ∉ W7) :
    after (s7 (F := F)) V (Proc.devRef .tc r) = V (Proc.devRef .tc r) :=
  after_of_forall_not_mem (b := Proc.devRef .tc r) _ _ (List.forall_iff_forall_mem.mp (by
    simp only [s7, List.Forall, nullary_writes, unary_writes, binary_writes, ternary_writes, nary_writes, Finset.mem_singleton]
    repeat' apply And.intro
    all_goals exact devRef_ne_of_ne (by rintro rfl; exact hr (by decide))))
theorem s8_frame (V : Valuation τ sig (Elt F)) {r : Ref sig .tc} (hr : r ∉ W8) :
    after (s8 (F := F)) V (Proc.devRef .tc r) = V (Proc.devRef .tc r) :=
  after_of_forall_not_mem (b := Proc.devRef .tc r) _ _ (List.forall_iff_forall_mem.mp (by
    simp only [s8, List.Forall, nullary_writes, unary_writes, binary_writes, ternary_writes, nary_writes, Finset.mem_singleton]
    repeat' apply And.intro
    all_goals exact devRef_ne_of_ne (by rintro rfl; exact hr (by decide))))

/-! ## The stretches one after the other

`M k V` is the memory after the first `k` stretches from `V`. No stretch writes an argument, so each reads the arguments as
`V` has them; a stage a later stretch reads is carried over the stretches between, none of which writes its buffer. -/

/-- The twenty argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem arg_W1 : ∀ r ∈ argRefs, r ∉ W1 := by decide
theorem arg_W2 : ∀ r ∈ argRefs, r ∉ W2 := by decide
theorem arg_W3 : ∀ r ∈ argRefs, r ∉ W3 := by decide
theorem arg_W4 : ∀ r ∈ argRefs, r ∉ W4 := by decide
theorem arg_W5 : ∀ r ∈ argRefs, r ∉ W5 := by decide
theorem arg_W6 : ∀ r ∈ argRefs, r ∉ W6 := by decide
theorem arg_W7 : ∀ r ∈ argRefs, r ∉ W7 := by decide
theorem arg_W8 : ∀ r ∈ argRefs, r ∉ W8 := by decide

abbrev M1 (V : Valuation τ sig (Elt F)) : Valuation τ sig (Elt F) := after (s1 (F := F)) V
abbrev M2 (V : Valuation τ sig (Elt F)) : Valuation τ sig (Elt F) := after (s2 (F := F)) (M1 V)
abbrev M3 (V : Valuation τ sig (Elt F)) : Valuation τ sig (Elt F) := after (s3 (F := F)) (M2 V)
abbrev M4 (V : Valuation τ sig (Elt F)) : Valuation τ sig (Elt F) := after (s4 (F := F)) (M3 V)
abbrev M5 (V : Valuation τ sig (Elt F)) : Valuation τ sig (Elt F) := after (s5 (F := F)) (M4 V)
abbrev M6 (V : Valuation τ sig (Elt F)) : Valuation τ sig (Elt F) := after (s6 (F := F)) (M5 V)
abbrev M7 (V : Valuation τ sig (Elt F)) : Valuation τ sig (Elt F) := after (s7 (F := F)) (M6 V)
abbrev M8 (V : Valuation τ sig (Elt F)) : Valuation τ sig (Elt F) := after (s8 (F := F)) (M7 V)

theorem M1_arg (V : Valuation τ sig (Elt F)) {r : Ref sig .tc} (hr : r ∈ argRefs) :
    M1 V (Proc.devRef .tc r) = V (Proc.devRef .tc r) :=
  s1_frame V (arg_W1 r hr)
theorem M2_arg (V : Valuation τ sig (Elt F)) {r : Ref sig .tc} (hr : r ∈ argRefs) :
    M2 V (Proc.devRef .tc r) = V (Proc.devRef .tc r) :=
  (s2_frame _ (arg_W2 r hr)).trans (M1_arg V hr)
theorem M3_arg (V : Valuation τ sig (Elt F)) {r : Ref sig .tc} (hr : r ∈ argRefs) :
    M3 V (Proc.devRef .tc r) = V (Proc.devRef .tc r) :=
  (s3_frame _ (arg_W3 r hr)).trans (M2_arg V hr)
theorem M4_arg (V : Valuation τ sig (Elt F)) {r : Ref sig .tc} (hr : r ∈ argRefs) :
    M4 V (Proc.devRef .tc r) = V (Proc.devRef .tc r) :=
  (s4_frame _ (arg_W4 r hr)).trans (M3_arg V hr)
theorem M5_arg (V : Valuation τ sig (Elt F)) {r : Ref sig .tc} (hr : r ∈ argRefs) :
    M5 V (Proc.devRef .tc r) = V (Proc.devRef .tc r) :=
  (s5_frame _ (arg_W5 r hr)).trans (M4_arg V hr)
theorem M6_arg (V : Valuation τ sig (Elt F)) {r : Ref sig .tc} (hr : r ∈ argRefs) :
    M6 V (Proc.devRef .tc r) = V (Proc.devRef .tc r) :=
  (s6_frame _ (arg_W6 r hr)).trans (M5_arg V hr)
theorem M7_arg (V : Valuation τ sig (Elt F)) {r : Ref sig .tc} (hr : r ∈ argRefs) :
    M7 V (Proc.devRef .tc r) = V (Proc.devRef .tc r) :=
  (s7_frame _ (arg_W7 r hr)).trans (M6_arg V hr)
theorem M8_arg (V : Valuation τ sig (Elt F)) {r : Ref sig .tc} (hr : r ∈ argRefs) :
    M8 V (Proc.devRef .tc r) = V (Proc.devRef .tc r) :=
  (s8_frame _ (arg_W8 r hr)).trans (M7_arg V hr)

theorem M1_v9 (V : Valuation τ sig (Elt F)) : M1 V (Proc.devRef .tc main_v9) = val_main_v9 (F := F) (V (Proc.devRef .tc main_arg0)) (V (Proc.devRef .tc main_arg4)) (V (Proc.devRef .tc main_arg5)) (V (Proc.devRef .tc main_arg6)) (V (Proc.devRef .tc main_arg7)) :=
  s1_v9 V rfl rfl rfl rfl rfl
theorem M2_v9 (V : Valuation τ sig (Elt F)) : M2 V (Proc.devRef .tc main_v9) = val_main_v9 (F := F) (V (Proc.devRef .tc main_arg0)) (V (Proc.devRef .tc main_arg4)) (V (Proc.devRef .tc main_arg5)) (V (Proc.devRef .tc main_arg6)) (V (Proc.devRef .tc main_arg7)) :=
  (s2_frame _ (by decide)).trans (M1_v9 V)
theorem M2_v19 (V : Valuation τ sig (Elt F)) : M2 V (Proc.devRef .tc main_v19) = val_main_v19 (F := F) (V (Proc.devRef .tc main_arg1)) (V (Proc.devRef .tc main_arg8)) (V (Proc.devRef .tc main_arg9)) (V (Proc.devRef .tc main_arg10)) (V (Proc.devRef .tc main_arg11)) :=
  s2_v19 (M1 V) (M1_arg V (by decide)) (M1_arg V (by decide)) (M1_arg V (by decide)) (M1_arg V (by decide)) (M1_arg V (by decide))
theorem M3_v9 (V : Valuation τ sig (Elt F)) : M3 V (Proc.devRef .tc main_v9) = val_main_v9 (F := F) (V (Proc.devRef .tc main_arg0)) (V (Proc.devRef .tc main_arg4)) (V (Proc.devRef .tc main_arg5)) (V (Proc.devRef .tc main_arg6)) (V (Proc.devRef .tc main_arg7)) :=
  (s3_frame _ (by decide)).trans (M2_v9 V)
theorem M3_v19 (V : Valuation τ sig (Elt F)) : M3 V (Proc.devRef .tc main_v19) = val_main_v19 (F := F) (V (Proc.devRef .tc main_arg1)) (V (Proc.devRef .tc main_arg8)) (V (Proc.devRef .tc main_arg9)) (V (Proc.devRef .tc main_arg10)) (V (Proc.devRef .tc main_arg11)) :=
  (s3_frame _ (by decide)).trans (M2_v19 V)
theorem M3_v26 (V : Valuation τ sig (Elt F)) : M3 V (Proc.devRef .tc main_v26) = val_main_v26 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) :=
  s3_v26 (M2 V) (M2_v9 V) (M2_arg V (by decide))
theorem M3_v33 (V : Valuation τ sig (Elt F)) : M3 V (Proc.devRef .tc main_v33) = val_main_v33 (F := F) (V (Proc.devRef .tc main_arg0)) (V (Proc.devRef .tc main_arg3)) (V (Proc.devRef .tc main_arg4)) (V (Proc.devRef .tc main_arg5)) (V (Proc.devRef .tc main_arg6)) (V (Proc.devRef .tc main_arg7)) :=
  s3_v33 (M2 V) (M2_v9 V) (M2_arg V (by decide))
theorem M4_v9 (V : Valuation τ sig (Elt F)) : M4 V (Proc.devRef .tc main_v9) = val_main_v9 (F := F) (V (Proc.devRef .tc main_arg0)) (V (Proc.devRef .tc main_arg4)) (V (Proc.devRef .tc main_arg5)) (V (Proc.devRef .tc main_arg6)) (V (Proc.devRef .tc main_arg7)) :=
  (s4_frame _ (by decide)).trans (M3_v9 V)
theorem M4_v44 (V : Valuation τ sig (Elt F)) : M4 V (Proc.devRef .tc main_v44) = val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  s4_v44 (M3 V) (M3_v26 V) (M3_v33 V) (M3_v19 V) (M3_arg V (by decide)) (M3_arg V (by decide)) (M3_arg V (by decide)) (M3_arg V (by decide))
theorem M4_v47 (V : Valuation τ sig (Elt F)) : M4 V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  s4_v47 (M3 V) (M3_v26 V) (M3_v33 V) (M3_v19 V) (M3_arg V (by decide)) (M3_arg V (by decide)) (M3_arg V (by decide)) (M3_arg V (by decide)) (M3_arg V (by decide))
theorem M5_v44 (V : Valuation τ sig (Elt F)) : M5 V (Proc.devRef .tc main_v44) = val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (s5_frame _ (by decide)).trans (M4_v44 V)
theorem M5_v58 (V : Valuation τ sig (Elt F)) : M5 V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s5_v58 (M4 V) (M4_v9 V) (M4_v47 V) (M4_arg V (by decide)) (M4_arg V (by decide)) (M4_arg V (by decide)) (M4_arg V (by decide))
theorem M5_v59 (V : Valuation τ sig (Elt F)) : M5 V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s5_v59 (M4 V) (M4_v9 V) (M4_v47 V) (M4_arg V (by decide)) (M4_arg V (by decide)) (M4_arg V (by decide)) (M4_arg V (by decide))
theorem M6_v44 (V : Valuation τ sig (Elt F)) : M6 V (Proc.devRef .tc main_v44) = val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (s6_frame _ (by decide)).trans (M5_v44 V)
theorem M6_v58 (V : Valuation τ sig (Elt F)) : M6 V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (s6_frame _ (by decide)).trans (M5_v58 V)
theorem M6_v59 (V : Valuation τ sig (Elt F)) : M6 V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (s6_frame _ (by decide)).trans (M5_v59 V)
theorem M6_v66 (V : Valuation τ sig (Elt F)) : M6 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s6_v66 (M5 V) (M5_v58 V) (M5_arg V (by decide))
theorem M6_v73 (V : Valuation τ sig (Elt F)) : M6 V (Proc.devRef .tc main_v73) = val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s6_v73 (M5 V) (M5_v58 V) (M5_arg V (by decide))
theorem M7_v58 (V : Valuation τ sig (Elt F)) : M7 V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (s7_frame _ (by decide)).trans (M6_v58 V)
theorem M7_v59 (V : Valuation τ sig (Elt F)) : M7 V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (s7_frame _ (by decide)).trans (M6_v59 V)
theorem M7_v87 (V : Valuation τ sig (Elt F)) : M7 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s7_v87 (M6 V) (M6_v66 V) (M6_v73 V) (M6_v44 V) (M6_arg V (by decide)) (M6_arg V (by decide)) (M6_arg V (by decide)) (M6_arg V (by decide)) (M6_arg V (by decide))
theorem M8_v59 (V : Valuation τ sig (Elt F)) : M8 V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (s8_frame _ (by decide)).trans (M7_v59 V)
theorem M8_v99 (V : Valuation τ sig (Elt F)) : M8 V (Proc.devRef .tc main_v99) = val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  s8_v99 (M7 V) (M7_v58 V) (M7_v87 V) (M7_arg V (by decide)) (M7_arg V (by decide)) (M7_arg V (by decide)) (M7_arg V (by decide))

/-- The whole list is the nine stretches in a row. -/
theorem ops_eq : (ops (F := F)) = s1 ++ (s2 ++ (s3 ++ (s4 ++ (s5 ++ (s6 ++ (s7 ++ (s8 ++ s9))))))) := rfl

/-- After all the operations the result buffer holds the last stage of what the argument buffers held. -/
theorem result_read (V : Valuation τ sig (Elt F)) :
    after (ops (F := F)) V (Proc.devRef .tc main_v100) = val_main_v100 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [ops_eq, after_append, after_append, after_append, after_append, after_append, after_append, after_append, after_append]
  exact s9_v100 (M8 V) (M8_v59 V) (M8_v99 V)

set_option maxRecDepth 8192 in
set_option maxHeartbeats 4000000 in
/-- Every weakly fair execution of the reference terminates with the result buffer at the last stage of the argument arrays
    and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v100).trans (result_read (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl)⟩)
    (run_seq scopedRefs_eq scopedSems_eq defs main (fun _ => ops) main_eq (fun _ => ops_sub) m ρ)

end Cert.ReferenceIdeal.NetValue

end
-- ==== Proof.RefMlp.lean ====
/-
  The reference's two embedding chains — product with the first weight matrix, bias, rectifier, product with the second, bias,
  rectifier — are the two-layer perceptron of their operands, entry by entry.
-/
import proofs.«428749_j52252572123266_1_alg».proof.Proof.RefRead
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.NetValue

open Cert.ReferenceIdeal Cert.ReferenceIdeal.Gen Cert.ReferenceIdeal.ReadP Idealize.ShloMosaic Idealize.ShloMosaic.TcCoe Idealize.ShloMosaic.ValueIdx Idealize.SL.Sem

/-- One row of the first embedding chain's hidden matrix: the product with the first weight matrix, the bias along the
    row, the rectifier — the dense layer of the operand's row. -/
theorem val_main_v4_at (x0 : (⟨S20000x128, .f32⟩ : BufTy).Contents (Elt Ideal)) (x4 : (⟨S128x256, .f32⟩ : BufTy).Contents (Elt Ideal))
    (x5 : (⟨S256, .f32⟩ : BufTy).Contents (Elt Ideal)) (r : Fin 20000) (h : Fin 256) :
    val_main_v4 (F := Ideal) x0 x4 x5 (ix2 r h) = MeshNet.rowLayer (MeshNet.row x0 r) x4 x5 h := by
  -- the left operand of the product is read at (r, k), the right at (k, h), the bias at h
  have el : ∀ k : Fin 128, lidx_main_v0 (ix2 r h) k = ix2 r k := fun k =>
    funext fun a => Fin.ext (by match a with | ⟨0, _⟩ => rfl | ⟨1, _⟩ => rfl)
  have er : ∀ k : Fin 128, ridx_main_v0 (ix2 r h) k = ix2 k h := fun k =>
    funext fun a => Fin.ext (by match a with | ⟨0, _⟩ => rfl | ⟨1, _⟩ => rfl)
  have eb : idx_main_v1 (idx_main_v2 (ix2 r h)) = ix1 h :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.addf_def, Ideal.maximumf_def, Ideal.ofBits_def, Ideal.ofBits_zero_f32]
  rfl

/-- One entry of the first embedding chain's result, over any hidden matrix: the second product, bias and rectifier are the
    dense layer of the hidden row. -/
theorem val_main_v9_at (x0 : (⟨S20000x128, .f32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (r : Fin 20000) (j : Fin 128) :
    val_main_v9 (F := Ideal) x0 x4 x5 x6 x7 (ix2 r j)
      = MeshNet.rowLayer (fun k : Fin 256 => val_main_v4 (F := Ideal) x0 x4 x5 (ix2 r k)) x6 x7 j := by
  have el : ∀ k : Fin 256, lidx_main_v5 (ix2 r j) k = ix2 r k := fun k =>
    funext fun a => Fin.ext (by match a with | ⟨0, _⟩ => rfl | ⟨1, _⟩ => rfl)
  have er : ∀ k : Fin 256, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v9_apply, val_main_v8_apply, val_main_v5_apply, val_main_v7_apply, val_main_v6_apply,
    val_main_call1_v0_apply, val_main_call1_cst_apply]
  generalize val_main_v4 (F := Ideal) x0 x4 x5 = y
  simp only [el, er, eb, Ideal.addf_def, Ideal.maximumf_def, Ideal.ofBits_def, Ideal.ofBits_zero_f32]
  rfl

/-- The first embedding chain is the two-layer perceptron of its operands. -/
theorem val_main_v9_eq (x0 : (⟨S20000x128, .f32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) :
    val_main_v9 (F := Ideal) x0 x4 x5 x6 x7 = MeshNet.mlp x0 x4 x5 x6 x7 := by
  funext i
  obtain ⟨r, j, rfl⟩ : ∃ (r : Fin 20000) (j : Fin 128), i = ix2 r j := ⟨i 0, i 1, eq_ix2 i⟩
  rw [val_main_v9_at]
  -- the hidden row is the first layer of the operand's row, entry by entry
  have hh : (fun k : Fin 256 => val_main_v4 (F := Ideal) x0 x4 x5 (ix2 r k)) = MeshNet.rowLayer (MeshNet.row x0 r) x4 x5 :=
    funext fun k => val_main_v4_at x0 x4 x5 r k
  rw [hh]
  rfl

/-- One row of the second embedding chain's hidden matrix: the product with the first weight matrix, the bias along the
    row, the rectifier — the dense layer of the operand's row. -/
theorem val_main_v14_at (x1 : (⟨S320000x128, .f32⟩ : BufTy).Contents (Elt Ideal)) (x8 : (⟨S128x256, .f32⟩ : BufTy).Contents (Elt Ideal))
    (x9 : (⟨S256, .f32⟩ : BufTy).Contents (Elt Ideal)) (r : Fin 320000) (h : Fin 256) :
    val_main_v14 (F := Ideal) x1 x8 x9 (ix2 r h) = MeshNet.rowLayer (MeshNet.row x1 r) x8 x9 h := by
  -- the left operand of the product is read at (r, k), the right at (k, h), the bias at h
  have el : ∀ k : Fin 128, lidx_main_v10 (ix2 r h) k = ix2 r k := fun k =>
    funext fun a => Fin.ext (by match a with | ⟨0, _⟩ => rfl | ⟨1, _⟩ => rfl)
  have er : ∀ k : Fin 128, ridx_main_v10 (ix2 r h) k = ix2 k h := fun k =>
    funext fun a => Fin.ext (by match a with | ⟨0, _⟩ => rfl | ⟨1, _⟩ => rfl)
  have eb : idx_main_v11 (idx_main_v12 (ix2 r h)) = ix1 h :=
    funext fun a => Fin.ext (by match a with | ⟨0, _⟩ => rfl)
  rw [val_main_v14_apply, val_main_v13_apply, val_main_v10_apply, val_main_v12_apply, val_main_v11_apply,
    val_main_call2_v0_apply, val_main_call2_cst_apply]
  simp only [el, er, eb, Ideal.addf_def, Ideal.maximumf_def, Ideal.ofBits_def, Ideal.ofBits_zero_f32]
  rfl

/-- One entry of the second embedding chain's result, over any hidden matrix: the second product, bias and rectifier are the
    dense layer of the hidden row. -/
theorem val_main_v19_at (x1 : (⟨S320000x128, .f32⟩ : BufTy).Contents (Elt Ideal)) (x8 : (⟨S128x256, .f32⟩ : BufTy).Contents (Elt Ideal))
    (x9 : (⟨S256, .f32⟩ : BufTy).Contents (Elt Ideal)) (x10 : (⟨S256x128, .f32⟩ : BufTy).Contents (Elt Ideal))
    (x11 : (⟨S128, .f32⟩ : BufTy).Contents (Elt Ideal)) (r : Fin 320000) (j : Fin 128) :
    val_main_v19 (F := Ideal) x1 x8 x9 x10 x11 (ix2 r j)
      = MeshNet.rowLayer (fun k : Fin 256 => val_main_v14 (F := Ideal) x1 x8 x9 (ix2 r k)) x10 x11 j := by
  have el : ∀ k : Fin 256, lidx_main_v15 (ix2 r j) k = ix2 r k := fun k =>
    funext fun a => Fin.ext (by match a with | ⟨0, _⟩ => rfl | ⟨1, _⟩ => rfl)
  have er : ∀ k : Fin 256, ridx_main_v15 (ix2 r j) k = ix2 k j := fun k =>
    funext fun a => Fin.ext (by match a with | ⟨0, _⟩ => rfl | ⟨1, _⟩ => rfl)
  have eb : idx_main_v16 (idx_main_v17 (ix2 r j)) = ix1 j :=
    funext fun a => Fin.ext (by match a with | ⟨0, _⟩ => rfl)
  rw [val_main_v19_apply, val_main_v18_apply, val_main_v15_apply, val_main_v17_apply, val_main_v16_apply,
    val_main_call3_v0_apply, val_main_call3_cst_apply]
  generalize val_main_v14 (F := Ideal) x1 x8 x9 = y
  simp only [el, er, eb, Ideal.addf_def, Ideal.maximumf_def, Ideal.ofBits_def, Ideal.ofBits_zero_f32]
  rfl

/-- The second embedding chain is the two-layer perceptron of its operands. -/
theorem val_main_v19_eq (x1 : (⟨S320000x128, .f32⟩ : BufTy).Contents (Elt Ideal)) (x8 : (⟨S128x256, .f32⟩ : BufTy).Contents (Elt Ideal))
    (x9 : (⟨S256, .f32⟩ : BufTy).Contents (Elt Ideal)) (x10 : (⟨S256x128, .f32⟩ : BufTy).Contents (Elt Ideal))
    (x11 : (⟨S128, .f32⟩ : BufTy).Contents (Elt Ideal)) :
    val_main_v19 (F := Ideal) x1 x8 x9 x10 x11 = MeshNet.mlp x1 x8 x9 x10 x11 := by
  funext i
  obtain ⟨r, j, rfl⟩ : ∃ (r : Fin 320000) (j : Fin 128), i = ix2 r j := ⟨i 0, i 1, eq_ix2 i⟩
  rw [val_main_v19_at]
  -- the hidden row is the first layer of the operand's row, entry by entry
  have hh : (fun k : Fin 256 => val_main_v14 (F := Ideal) x1 x8 x9 (ix2 r k)) = MeshNet.rowLayer (MeshNet.row x1 r) x8 x9 :=
    funext fun k => val_main_v14_at x1 x8 x9 r k
  rw [hh]
  rfl

end Cert.ReferenceIdeal.NetValue

end
-- ==== Proof.RefEdge.lean ====
/-
  The reference's two edge chains — the three operands joined along the columns, then product, bias, rectifier, product, bias,
  rectifier — are the edge stage of their operands, entry by entry: entry (r, k) of the joined matrix is entry k of the three
  rows r laid end to end.

  The argument has one general part and one part per chain. General: a matrix whose entry (r, j) is
  max(Σ_k hidden(r, k) W2(k, j) + b2(j), 0), the hidden matrix's entry (r, h) being max(Σ_k J(r, k) W1(k, h) + b1(h), 0) with J the
  three matrices joined along the columns, is the edge stage of the three matrices. Per chain: each stage of the chain read at an
  entry gives exactly those two formulas — a product with a weight matrix is the sum over the contracted index, a bias vector
  broadcast down the rows is read at the column, the rectifier is the maximum with zero.
-/
import proofs.«428749_j52252572123266_1_alg».proof.Proof.RefRead
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.NetValue

open Cert.ReferenceIdeal Cert.ReferenceIdeal.Gen Cert.ReferenceIdeal.ReadP Idealize.ShloMosaic Idealize.ShloMosaic.TcCoe Idealize.ShloMosaic.ValueIdx Idealize.SL.Sem

/-- Three matrices of 128 columns joined along the columns, read at row r and column k: entry k of their three rows r laid
    end to end. The column falls in the first, the second or the third piece as k < 128, 128 ≤ k < 256 or 256 ≤ k, and is read
    there at column k, k - 128 or k - 256. -/
theorem join3_apply (a b e : (⟨S320000x128, .f32⟩ : BufTy).Contents (Elt Ideal)) (r : Fin 320000) (k : Fin 384) :
    concatenate S320000x384 1 [⟨S320000x128, a⟩, ⟨S320000x128, b⟩, ⟨S320000x128, e⟩]
      concatenates_S320000x128_S320000x128_S320000x128_S320000x384_d1 (ix2 r k)
      = MeshNet.cat3 (MeshNet.row a r) (MeshNet.row b r) (MeshNet.row e r) k := by
  unfold MeshNet.cat3 MeshNet.row
  by_cases h1 : k.val < 128
  · rw [dif_pos h1]
    exact concatenate_apply_piece 1 _ _ (ix2 r k) 0 (by simp) S320000x128 a rfl rfl 0 rfl (ix2 r ⟨k.val, h1⟩)
      (fun c hc => by match c with | ⟨0, _⟩ => rfl | ⟨1, _⟩ => exact absurd rfl hc)
      (by show 0 + k.val = k.val; omega)
  · rw [dif_neg h1]
    by_cases h2 : k.val < 256
    · rw [dif_pos h2]
      exact concatenate_apply_piece 1 _ _ (ix2 r k) 1 (by simp) S320000x128 b rfl rfl 128 rfl (ix2 r ⟨k.val - 128, by omega⟩)
        (fun c hc => by match c with | ⟨0, _⟩ => rfl | ⟨1, _⟩ => exact absurd rfl hc)
        (by show 128 + (k.val - 128) = k.val; omega)
    · rw [dif_neg h2]
      exact concatenate_apply_piece 1 _ _ (ix2 r k) 2 (by simp) S320000x128 e rfl rfl 256 rfl (ix2 r ⟨k.val - 256, by omega⟩)
        (fun c hc => by match c with | ⟨0, _⟩ => rfl | ⟨1, _⟩ => exact absurd rfl hc)
        (by show 256 + (k.val - 256) = k.val; omega)

/-- The edge stage from its two layers read entry by entry. If every entry (r, h) of a hidden matrix is
    max(Σ_k J(r, k) W1(k, h) + b1(h), 0), J the three matrices joined along the columns, and every entry (r, j) of a result
    matrix is max(Σ_k hidden(r, k) W2(k, j) + b2(j), 0), then the result is the edge stage of the three matrices: row r of J is
    the three rows r laid end to end, and the two formulas are the two layers applied to that row. -/
theorem edge_of_reads (out : (⟨S320000x128, .f32⟩ : BufTy).Contents (Elt Ideal)) (hid : (⟨S320000x256, .f32⟩ : BufTy).Contents (Elt Ideal))
    (a b e : (⟨S320000x128, .f32⟩ : BufTy).Contents (Elt Ideal))
    (x12 : (⟨S384x256, .f32⟩ : BufTy).Contents (Elt Ideal)) (x13 : (⟨S256, .f32⟩ : BufTy).Contents (Elt Ideal))
    (x14 : (⟨S256x128, .f32⟩ : BufTy).Contents (Elt Ideal)) (x15 : (⟨S128, .f32⟩ : BufTy).Contents (Elt Ideal))
    (hhid : ∀ (r : Fin 320000) (h : Fin 256), hid (ix2 r h)
      = max (∑ k : Fin 384, concatenate S320000x384 1 [⟨S320000x128, a⟩, ⟨S320000x128, b⟩, ⟨S320000x128, e⟩]
          concatenates_S320000x128_S320000x128_S320000x128_S320000x384_d1 (ix2 r k) * x12 (ix2 k h) + x13 (ix1 h)) 0)
    (hout : ∀ (r : Fin 320000) (j : Fin 128), out (ix2 r j) = max (∑ k : Fin 256, hid (ix2 r k) * x14 (ix2 k j) + x15 (ix1 j)) 0) :
    out = MeshNet.edgeStage a b e x12 x13 x14 x15 := by
  funext i
  obtain ⟨r, j, rfl⟩ : ∃ (r : Fin 320000) (j : Fin 128), i = ix2 r j := ⟨i 0, i 1, eq_ix2 i⟩
  rw [hout]
  show _ = MeshNet.rowLayer (MeshNet.rowLayer (MeshNet.cat3 (MeshNet.row a r) (MeshNet.row b r) (MeshNet.row e r)) x12 x13) x14 x15 j
  unfold MeshNet.rowLayer
  have hj : ∀ k : Fin 384, concatenate S320000x384 1 [⟨S320000x128, a⟩, ⟨S320000x128, b⟩, ⟨S320000x128, e⟩]
      concatenates_S320000x128_S320000x128_S320000x128_S320000x384_d1 (ix2 r k)
      = MeshNet.cat3 (MeshNet.row a r) (MeshNet.row b r) (MeshNet.row e r) k := fun k => join3_apply a b e r k
  simp only [hhid, hj]

/-- The first edge chain of the reference program is the edge stage of the gathered sender rows, the gathered receiver rows
    and the embedded edge rows. -/
theorem val_main_v44_eq (x0 : (⟨S20000x128, .f32⟩ : BufTy).Contents (Elt Ideal)) (x1 : (⟨S320000x128, .f32⟩ : BufTy).Contents (Elt Ideal)) (x2 x3 : (⟨S320000, .i32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S384x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v44 (F := Ideal) x0 x1 x2 x3 x4 x5 x6 x7 x8 x9 x10 x11 x12 x13 x14 x15
      = MeshNet.edgeStage (val_main_v26 (F := Ideal) x0 x2 x4 x5 x6 x7) (val_main_v33 (F := Ideal) x0 x3 x4 x5 x6 x7)
          (val_main_v19 (F := Ideal) x1 x8 x9 x10 x11) x12 x13 x14 x15 := by
  refine edge_of_reads _ (val_main_v39 (F := Ideal) x0 x1 x2 x3 x4 x5 x6 x7 x8 x9 x10 x11 x12 x13) _ _ _ x12 x13 x14 x15 ?_ ?_
  · -- the hidden layer: product with the first weight matrix, bias broadcast down the rows, rectifier
    intro r h
    have e1 : ∀ k : Fin 384, lidx_main_v35 (ix2 r h) k = ix2 r k := fun k => funext fun c => by
      match c with | ⟨0, _⟩ => rfl | ⟨1, _⟩ => rfl
    have e2 : ∀ k : Fin 384, ridx_main_v35 (ix2 r h) k = ix2 k h := fun k => funext fun c => by
      match c with | ⟨0, _⟩ => rfl | ⟨1, _⟩ => rfl
    have e3 : idx_main_v36 (idx_main_v37 (ix2 r h)) = ix1 h := funext fun c => by
      match c with | ⟨0, _⟩ => rfl
    rw [val_main_v39_apply, val_main_v38_apply, val_main_v35_apply, val_main_v37_apply, val_main_v36_apply,
      val_main_call4_v0_apply, val_main_call4_cst_apply, Ideal.ofBits_def, Ideal.ofBits_zero_f32]
    simp only [val_main_v34, e1, e2, e3, Ideal.addf_def, Ideal.maximumf_def]
  · -- the output layer: product with the second weight matrix, bias, rectifier
    intro r j
    have e1 : ∀ k : Fin 256, lidx_main_v40 (ix2 r j) k = ix2 r k := fun k => funext fun c => by
      match c with | ⟨0, _⟩ => rfl | ⟨1, _⟩ => rfl
    have e2 : ∀ k : Fin 256, ridx_main_v40 (ix2 r j) k = ix2 k j := fun k => funext fun c => by
      match c with | ⟨0, _⟩ => rfl | ⟨1, _⟩ => rfl
    have e3 : idx_main_v41 (idx_main_v42 (ix2 r j)) = ix1 j := funext fun c => by
      match c with | ⟨0, _⟩ => rfl
    rw [val_main_v44_apply, val_main_v43_apply, val_main_v40_apply, val_main_v42_apply, val_main_v41_apply,
      val_main_call5_v0_apply, val_main_call5_cst_apply, Ideal.ofBits_def, Ideal.ofBits_zero_f32]
    simp only [e1, e2, e3, Ideal.addf_def, Ideal.maximumf_def]

/-- The second edge chain of the reference program is the edge stage of the rows gathered, at the senders and at the
    receivers, from the node features after the first round, and the edge rows after the first round. -/
theorem val_main_v84_eq (x0 : (⟨S20000x128, .f32⟩ : BufTy).Contents (Elt Ideal)) (x1 : (⟨S320000x128, .f32⟩ : BufTy).Contents (Elt Ideal)) (x2 x3 : (⟨S320000, .i32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S384x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S256x256, .f32⟩ : BufTy).Contents (Elt Ideal)) (x17 : (⟨S256, .f32⟩ : BufTy).Contents (Elt Ideal)) (x18 : (⟨S256x128, .f32⟩ : BufTy).Contents (Elt Ideal)) (x19 : (⟨S128, .f32⟩ : BufTy).Contents (Elt Ideal)) :
    val_main_v84 (F := Ideal) x0 x1 x2 x3 x4 x5 x6 x7 x8 x9 x10 x11 x12 x13 x14 x15 x16 x17 x18 x19
      = MeshNet.edgeStage (val_main_v66 (F := Ideal) x0 x1 x2 x3 x4 x5 x6 x7 x8 x9 x10 x11 x12 x13 x14 x15 x16 x17 x18 x19)
          (val_main_v73 (F := Ideal) x0 x1 x2 x3 x4 x5 x6 x7 x8 x9 x10 x11 x12 x13 x14 x15 x16 x17 x18 x19)
          (val_main_v44 (F := Ideal) x0 x1 x2 x3 x4 x5 x6 x7 x8 x9 x10 x11 x12 x13 x14 x15) x12 x13 x14 x15 := by
  refine edge_of_reads _ (val_main_v79 (F := Ideal) x0 x1 x2 x3 x4 x5 x6 x7 x8 x9 x10 x11 x12 x13 x14 x15 x16 x17 x18 x19) _ _ _ x12 x13 x14 x15 ?_ ?_
  · -- the hidden layer: product with the first weight matrix, bias broadcast down the rows, rectifier
    intro r h
    have e1 : ∀ k : Fin 384, lidx_main_v75 (ix2 r h) k = ix2 r k := fun k => funext fun c => by
      match c with | ⟨0, _⟩ => rfl | ⟨1, _⟩ => rfl
    have e2 : ∀ k : Fin 384, ridx_main_v75 (ix2 r h) k = ix2 k h := fun k => funext fun c => by
      match c with | ⟨0, _⟩ => rfl | ⟨1, _⟩ => rfl
    have e3 : idx_main_v76 (idx_main_v77 (ix2 r h)) = ix1 h := funext fun c => by
      match c with | ⟨0, _⟩ => rfl
    rw [val_main_v79_apply, val_main_v78_apply, val_main_v75_apply, val_main_v77_apply, val_main_v76_apply,
      val_main_call8_v0_apply, val_main_call8_cst_apply, Ideal.ofBits_def, Ideal.ofBits_zero_f32]
    simp only [val_main_v74, e1, e2, e3, Ideal.addf_def, Ideal.maximumf_def]
  · -- the output layer: product with the second weight matrix, bias, rectifier
    intro r j
    have e1 : ∀ k : Fin 256, lidx_main_v80 (ix2 r j) k = ix2 r k := fun k => funext fun c => by
      match c with | ⟨0, _⟩ => rfl | ⟨1, _⟩ => rfl
    have e2 : ∀ k : Fin 256, ridx_main_v80 (ix2 r j) k = ix2 k j := fun k => funext fun c => by
      match c with | ⟨0, _⟩ => rfl | ⟨1, _⟩ => rfl
    have e3 : idx_main_v81 (idx_main_v82 (ix2 r j)) = ix1 j := funext fun c => by
      match c with | ⟨0, _⟩ => rfl
    rw [val_main_v84_apply, val_main_v83_apply, val_main_v80_apply, val_main_v82_apply, val_main_v81_apply,
      val_main_call9_v0_apply, val_main_call9_cst_apply, Ideal.ofBits_def, Ideal.ofBits_zero_f32]
    simp only [e1, e2, e3, Ideal.addf_def, Ideal.maximumf_def]

end Cert.ReferenceIdeal.NetValue

end
-- ==== Proof.RefNode.lean ====
/-
  The reference's two node chains — the two operands joined along the columns, then product, bias, rectifier, product, bias,
  rectifier — are the node stage of their operands, entry by entry: entry (r, k) of the joined matrix is entry k of the two
  rows r laid end to end; a product's entry is the sum over the contracted coordinate; a bias row is repeated down the rows;
  the rectifier is the maximum with zero.
-/
import proofs.«428749_j52252572123266_1_alg».proof.Proof.RefRead
import proofs.«428749_j52252572123266_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.NetValue

open Cert.ReferenceIdeal Cert.ReferenceIdeal.Gen Cert.ReferenceIdeal.ReadP Idealize.ShloMosaic Idealize.ShloMosaic.TcCoe Idealize.ShloMosaic.ValueIdx Idealize.SL.Sem

/-- Entry (r, k) of two matrices joined along the columns is entry k of their rows r laid end to end. -/
theorem cat_cols_apply (a g : FVec Ideal S20000x128 .f32) (r : Fin 20000) (k : Fin 256) :
    concatenate S20000x256 1 [⟨S20000x128, a⟩, ⟨S20000x128, g⟩] concatenates_S20000x128_S20000x128_S20000x256_d1 (ix2 r k)
      = MeshNet.cat2 (MeshNet.row a r) (MeshNet.row g r) k := by
  unfold MeshNet.cat2 MeshNet.row
  by_cases h : k.val < 128
  · -- a column below 128 lies in the first matrix
    rw [dif_pos h]
    exact concatenate_pair_apply_left (t := S20000x256) (s₁ := S20000x128) (s₂ := S20000x128) 1 a g
      concatenates_S20000x128_S20000x128_S20000x256_d1 (ix2 r k) rfl (ix2 r ⟨k.val, h⟩) (fun b => by
        match b with
        | ⟨0, _⟩ => rfl
        | ⟨1, _⟩ => rfl)
  · -- a column from 128 on lies in the second, 128 less
    rw [dif_neg h]
    exact concatenate_pair_apply_right (t := S20000x256) (s₁ := S20000x128) (s₂ := S20000x128) 1 a g
      concatenates_S20000x128_S20000x128_S20000x256_d1 (ix2 r k) rfl rfl (ix2 r ⟨k.val - 128, by omega⟩)
      (fun b hb => by
        match b with
        | ⟨0, _⟩ => rfl
        | ⟨1, _⟩ => exact absurd rfl hb)
      (by show k.val - 128 + 128 = k.val; omega)

/-- The left operand's row coordinate at an entry of that product is the entry's row. -/
theorem dot_hidden_lhs0 (i : S20000x256.Idx) (q : dot_S20000x256_S256x256_S20000x256_1_0_0_1_n_n.contr.Idx) :
    (dot_S20000x256_S256x256_S20000x256_1_0_0_1_n_n.lhsIdx i q 0).val = (i 0).val := by
  unfold DotDims.lhsIdx
  rw [dif_neg (show ¬(0 : Fin S20000x256.rank) ∈ dot_S20000x256_S256x256_S20000x256_1_0_0_1_n_n.lhsBatch by decide),
    dif_pos (show (0 : Fin S20000x256.rank) ∈ dot_S20000x256_S256x256_S20000x256_1_0_0_1_n_n.lhsNonContracting by decide)]
  rfl

/-- The right operand's column coordinate at an entry of that product is the entry's column. -/
theorem dot_hidden_rhs1 (i : S20000x256.Idx) (q : dot_S20000x256_S256x256_S20000x256_1_0_0_1_n_n.contr.Idx) :
    (dot_S20000x256_S256x256_S20000x256_1_0_0_1_n_n.rhsIdx i q 1).val = (i 1).val := by
  unfold DotDims.rhsIdx
  rw [dif_neg (show ¬(1 : Fin S256x256.rank) ∈ dot_S20000x256_S256x256_S20000x256_1_0_0_1_n_n.rhsBatch by decide),
    dif_pos (show (1 : Fin S256x256.rank) ∈ dot_S20000x256_S256x256_S20000x256_1_0_0_1_n_n.rhsNonContracting by decide)]
  rfl

/-- Entry (r, h) of a 20000×256 by 256×256 product is the sum over k of entry (r, k) times entry (k, h). -/
theorem dot_hidden_apply (y : FVec Ideal S20000x256 .f32) (w : FVec Ideal S256x256 .f32) (r : Fin 20000) (h : Fin 256) :
    Host.dotGeneral dot_S20000x256_S256x256_S20000x256_1_0_0_1_n_n none y w (ix2 r h)
      = ∑ k : Fin 256, y (ix2 r k) * w (ix2 k h) := by
  simp only [Host.dotGeneral]
  rw [Ideal.dotGeneral_apply, ← Equiv.sum_comp (contrEquiv1 dot_S20000x256_S256x256_S20000x256_1_0_0_1_n_n 256 rfl rfl).symm]
  refine Finset.sum_congr rfl fun k _ => ?_
  have hk := contrEquiv1_symm_val dot_S20000x256_S256x256_S20000x256_1_0_0_1_n_n 256 rfl rfl k
  have el : dot_S20000x256_S256x256_S20000x256_1_0_0_1_n_n.lhsIdx (ix2 r h)
      ((contrEquiv1 dot_S20000x256_S256x256_S20000x256_1_0_0_1_n_n 256 rfl rfl).symm k) = ix2 r k :=
    funext fun a => Fin.ext (by
      match a with
      | ⟨0, _⟩ => exact dot_hidden_lhs0 _ _
      | ⟨1, _⟩ => exact (dot_S20000x256_S256x256_S20000x256_1_0_0_1_n_n.lhsIdx_val_of_single rfl _ _).trans hk)
  have er : dot_S20000x256_S256x256_S20000x256_1_0_0_1_n_n.rhsIdx (ix2 r h)
      ((contrEquiv1 dot_S20000x256_S256x256_S20000x256_1_0_0_1_n_n 256 rfl rfl).symm k) = ix2 k h :=
    funext fun a => Fin.ext (by
      match a with
      | ⟨0, _⟩ => exact (dot_S20000x256_S256x256_S20000x256_1_0_0_1_n_n.rhsIdx_val_of_single rfl _ _).trans hk
      | ⟨1, _⟩ => exact dot_hidden_rhs1 _ _)
  rw [el, er]

/-- The left operand's row coordinate at an entry of that product is the entry's row. -/
theorem dot_out_lhs0 (i : S20000x128.Idx) (q : dot_S20000x256_S256x128_S20000x128_1_0_0_1_n_n.contr.Idx) :
    (dot_S20000x256_S256x128_S20000x128_1_0_0_1_n_n.lhsIdx i q 0).val = (i 0).val := by
  unfold DotDims.lhsIdx
  rw [dif_neg (show ¬(0 : Fin S20000x256.rank) ∈ dot_S20000x256_S256x128_S20000x128_1_0_0_1_n_n.lhsBatch by decide),
    dif_pos (show (0 : Fin S20000x256.rank) ∈ dot_S20000x256_S256x128_S20000x128_1_0_0_1_n_n.lhsNonContracting by decide)]
  rfl

/-- The right operand's column coordinate at an entry of that product is the entry's column. -/
theorem dot_out_rhs1 (i : S20000x128.Idx) (q : dot_S20000x256_S256x128_S20000x128_1_0_0_1_n_n.contr.Idx) :
    (dot_S20000x256_S256x128_S20000x128_1_0_0_1_n_n.rhsIdx i q 1).val = (i 1).val := by
  unfold DotDims.rhsIdx
  rw [dif_neg (show ¬(1 : Fin S256x128.rank) ∈ dot_S20000x256_S256x128_S20000x128_1_0_0_1_n_n.rhsBatch by decide),
    dif_pos (show (1 : Fin S256x128.rank) ∈ dot_S20000x256_S256x128_S20000x128_1_0_0_1_n_n.rhsNonContracting by decide)]
  rfl

/-- Entry (r, j) of a 20000×256 by 256×128 product is the sum over k of entry (r, k) times entry (k, j). -/
theorem dot_out_apply (y : FVec Ideal S20000x256 .f32) (w : FVec Ideal S256x128 .f32) (r : Fin 20000) (j : Fin 128) :
    Host.dotGeneral dot_S20000x256_S256x128_S20000x128_1_0_0_1_n_n none y w (ix2 r j)
      = ∑ k : Fin 256, y (ix2 r k) * w (ix2 k j) := by
  simp only [Host.dotGeneral]
  rw [Ideal.dotGeneral_apply, ← Equiv.sum_comp (contrEquiv1 dot_S20000x256_S256x128_S20000x128_1_0_0_1_n_n 256 rfl rfl).symm]
  refine Finset.sum_congr rfl fun k _ => ?_
  have hk := contrEquiv1_symm_val dot_S20000x256_S256x128_S20000x128_1_0_0_1_n_n 256 rfl rfl k
  have el : dot_S20000x256_S256x128_S20000x128_1_0_0_1_n_n.lhsIdx (ix2 r j)
      ((contrEquiv1 dot_S20000x256_S256x128_S20000x128_1_0_0_1_n_n 256 rfl rfl).symm k) = ix2 r k :=
    funext fun a => Fin.ext (by
      match a with
      | ⟨0, _⟩ => exact dot_out_lhs0 _ _
      | ⟨1, _⟩ => exact (dot_S20000x256_S256x128_S20000x128_1_0_0_1_n_n.lhsIdx_val_of_single rfl _ _).trans hk)
  have er : dot_S20000x256_S256x128_S20000x128_1_0_0_1_n_n.rhsIdx (ix2 r j)
      ((contrEquiv1 dot_S20000x256_S256x128_S20000x128_1_0_0_1_n_n 256 rfl rfl).symm k) = ix2 k j :=
    funext fun a => Fin.ext (by
      match a with
      | ⟨0, _⟩ => exact (dot_S20000x256_S256x128_S20000x128_1_0_0_1_n_n.rhsIdx_val_of_single rfl _ _).trans hk
      | ⟨1, _⟩ => exact dot_out_rhs1 _ _)
  rw [el, er]

/-- A bias vector of 256 entries repeated down 20000 rows has entry (r, h) equal to its entry h. -/
theorem bias_hidden_apply (b : FVec Ideal S256 .f32) (r : Fin 20000) (h : Fin 256) :
    broadcastInDim S20000x256 ![0, 1] bcast_S1x256_S20000x256_0_1 (broadcastInDim S1x256 ![1] bcast_S256_S1x256_1 b) (ix2 r h)
      = b (ix1 h) := by
  rw [broadcastInDim_apply _ bcast_S1x256_S20000x256_0_1 _ (ix2 r h) (ix2 (0 : Fin 1) h) (fun a => match a with
    | ⟨0, _⟩ => by show 0 = if (1 : Nat) = 1 then 0 else r.val; rw [if_pos rfl]
    | ⟨1, _⟩ => by show h.val = if (256 : Nat) = 1 then 0 else h.val; rw [if_neg (by decide)])]
  exact broadcastInDim_apply _ bcast_S256_S1x256_1 b (ix2 (0 : Fin 1) h) (ix1 h) (fun a => match a with
    | ⟨0, _⟩ => by show h.val = if (256 : Nat) = 1 then 0 else h.val; rw [if_neg (by decide)])

/-- A bias vector of 128 entries repeated down 20000 rows has entry (r, j) equal to its entry j. -/
theorem bias_out_apply (b : FVec Ideal S128 .f32) (r : Fin 20000) (j : Fin 128) :
    broadcastInDim S20000x128 ![0, 1] bcast_S1x128_S20000x128_0_1 (broadcastInDim S1x128 ![1] bcast_S128_S1x128_1 b) (ix2 r j)
      = b (ix1 j) := by
  rw [broadcastInDim_apply _ bcast_S1x128_S20000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- The zero constant spread over a 20000×256 matrix is zero at every entry. -/
theorem zero_hidden_apply (i : S20000x256.Idx) :
    broadcastInDim S20000x256 ![] bcast_S_S20000x256 (constant (F := Ideal) S_ .f32 0x00000000#32) i = 0 := by
  rw [broadcastInDim_apply _ bcast_S_S20000x256 _ i (fun a => a.elim0) (fun a => a.elim0), constant_apply,
    Ideal.ofBits_zero_f32]

/-- The zero constant spread over a 20000×128 matrix is zero at every entry. -/
theorem zero_out_apply (i : S20000x128.Idx) :
    broadcastInDim S20000x128 ![] bcast_S_S20000x128 (constant (F := Ideal) S_ .f32 0x00000000#32) i = 0 := by
  rw [broadcastInDim_apply _ bcast_S_S20000x128 _ i (fun a => a.elim0) (fun a => a.elim0), constant_apply,
    Ideal.ofBits_zero_f32]

/-- The node chain as the reference program spells it, over any two operand matrices: the operands joined along the columns,
    product with the first weight matrix, bias, rectifier, product with the second, bias, rectifier. -/
def nodeChain (a g : FVec Ideal S20000x128 .f32) (W1 : FVec Ideal S256x256 .f32) (b1 : FVec Ideal S256 .f32)
    (W2 : FVec Ideal S256x128 .f32) (b2 : FVec Ideal S128 .f32) : FVec Ideal S20000x128 .f32 :=
  maximumf
    (addf
      (Host.dotGeneral dot_S20000x256_S256x128_S20000x128_1_0_0_1_n_n none
        (maximumf
          (addf
            (Host.dotGeneral dot_S20000x256_S256x256_S20000x256_1_0_0_1_n_n none
              (concatenate S20000x256 1 [⟨S20000x128, a⟩, ⟨S20000x128, g⟩] concatenates_S20000x128_S20000x128_S20000x256_d1)
              W1)
            (broadcastInDim S20000x256 ![0, 1] bcast_S1x256_S20000x256_0_1 (broadcastInDim S1x256 ![1] bcast_S256_S1x256_1 b1)))
          (broadcastInDim S20000x256 ![] bcast_S_S20000x256 (constant S_ .f32 0x00000000#32)))
        W2)
      (broadcastInDim S20000x128 ![0, 1] bcast_S1x128_S20000x128_0_1 (broadcastInDim S1x128 ![1] bcast_S128_S1x128_1 b2)))
    (broadcastInDim S20000x128 ![] bcast_S_S20000x128 (constant S_ .f32 0x00000000#32))

/-- The node chain is the node stage of its operands. -/
theorem nodeChain_eq (a g : FVec Ideal S20000x128 .f32) (W1 : FVec Ideal S256x256 .f32) (b1 : FVec Ideal S256 .f32)
    (W2 : FVec Ideal S256x128 .f32) (b2 : FVec Ideal S128 .f32) :
    nodeChain a g W1 b1 W2 b2 = MeshNet.nodeStage a g W1 b1 W2 b2 := by
  funext i
  obtain ⟨r, j, rfl⟩ : ∃ (r : Fin 20000) (j : Fin 128), i = ix2 r j := ⟨i 0, i 1, eq_ix2 i⟩
  unfold nodeChain
  -- the outer layer at (r, j)
  rw [maximumf_apply, addf_apply, dot_out_apply, bias_out_apply, zero_out_apply]
  -- the inner layer at (r, k), under the sum over k
  have hin : ∀ k : Fin 256,
      maximumf
        (addf
          (Host.dotGeneral dot_S20000x256_S256x256_S20000x256_1_0_0_1_n_n none
            (concatenate S20000x256 1 [⟨S20000x128, a⟩, ⟨S20000x128, g⟩] concatenates_S20000x128_S20000x128_S20000x256_d1)
            W1)
          (broadcastInDim S20000x256 ![0, 1] bcast_S1x256_S20000x256_0_1 (broadcastInDim S1x256 ![1] bcast_S256_S1x256_1 b1)))
        (broadcastInDim S20000x256 ![] bcast_S_S20000x256 (constant S_ .f32 0x00000000#32)) (ix2 r k)
      = MeshNet.rowLayer (MeshNet.cat2 (MeshNet.row a r) (MeshNet.row g r)) W1 b1 k := by
    intro k
    rw [maximumf_apply, addf_apply, dot_hidden_apply, bias_hidden_apply, zero_hidden_apply]
    unfold MeshNet.rowLayer
    simp only [cat_cols_apply]
  simp only [hin]
  rfl

/-- The node features after the first round are the node stage of the embedded node features and the first aggregate. -/
theorem val_main_v58_eq (x0 : (⟨S20000x128, .f32⟩ : BufTy).Contents (Elt Ideal))
    (x1 : (⟨S320000x128, .f32⟩ : BufTy).Contents (Elt Ideal))
    (x2 x3 : (⟨S320000, .i32⟩ : BufTy).Contents (Elt Ideal))
    (x4 : (⟨S128x256, .f32⟩ : BufTy).Contents (Elt Ideal))
    (x5 : (⟨S256, .f32⟩ : BufTy).Contents (Elt Ideal))
    (x6 : (⟨S256x128, .f32⟩ : BufTy).Contents (Elt Ideal))
    (x7 : (⟨S128, .f32⟩ : BufTy).Contents (Elt Ideal))
    (x8 : (⟨S128x256, .f32⟩ : BufTy).Contents (Elt Ideal))
    (x9 : (⟨S256, .f32⟩ : BufTy).Contents (Elt Ideal))
    (x10 : (⟨S256x128, .f32⟩ : BufTy).Contents (Elt Ideal))
    (x11 : (⟨S128, .f32⟩ : BufTy).Contents (Elt Ideal))
    (x12 : (⟨S384x256, .f32⟩ : BufTy).Contents (Elt Ideal))
    (x13 : (⟨S256, .f32⟩ : BufTy).Contents (Elt Ideal))
    (x14 : (⟨S256x128, .f32⟩ : BufTy).Contents (Elt Ideal))
    (x15 : (⟨S128, .f32⟩ : BufTy).Contents (Elt Ideal))
    (x16 : (⟨S256x256, .f32⟩ : BufTy).Contents (Elt Ideal))
    (x17 : (⟨S256, .f32⟩ : BufTy).Contents (Elt Ideal))
    (x18 : (⟨S256x128, .f32⟩ : BufTy).Contents (Elt Ideal))
    (x19 : (⟨S128, .f32⟩ : BufTy).Contents (Elt Ideal)) :
    val_main_v58 (F := Ideal) x0 x1 x2 x3 x4 x5 x6 x7 x8 x9 x10 x11 x12 x13 x14 x15 x16 x17 x18 x19
      = MeshNet.nodeStage (val_main_v9 (F := Ideal) x0 x4 x5 x6 x7) (val_main_v47 (F := Ideal) x0 x1 x2 x3 x4 x5 x6 x7 x8 x9 x10 x11 x12 x13 x14 x15) x16 x17 x18 x19 :=
  nodeChain_eq (val_main_v9 (F := Ideal) x0 x4 x5 x6 x7) (val_main_v47 (F := Ideal) x0 x1 x2 x3 x4 x5 x6 x7 x8 x9 x10 x11 x12 x13 x14 x15) x16 x17 x18 x19

/-- The node features after the second round are the node stage of those after the first and the second aggregate. -/
theorem val_main_v98_eq (x0 : (⟨S20000x128, .f32⟩ : BufTy).Contents (Elt Ideal))
    (x1 : (⟨S320000x128, .f32⟩ : BufTy).Contents (Elt Ideal))
    (x2 x3 : (⟨S320000, .i32⟩ : BufTy).Contents (Elt Ideal))
    (x4 : (⟨S128x256, .f32⟩ : BufTy).Contents (Elt Ideal))
    (x5 : (⟨S256, .f32⟩ : BufTy).Contents (Elt Ideal))
    (x6 : (⟨S256x128, .f32⟩ : BufTy).Contents (Elt Ideal))
    (x7 : (⟨S128, .f32⟩ : BufTy).Contents (Elt Ideal))
    (x8 : (⟨S128x256, .f32⟩ : BufTy).Contents (Elt Ideal))
    (x9 : (⟨S256, .f32⟩ : BufTy).Contents (Elt Ideal))
    (x10 : (⟨S256x128, .f32⟩ : BufTy).Contents (Elt Ideal))
    (x11 : (⟨S128, .f32⟩ : BufTy).Contents (Elt Ideal))
    (x12 : (⟨S384x256, .f32⟩ : BufTy).Contents (Elt Ideal))
    (x13 : (⟨S256, .f32⟩ : BufTy).Contents (Elt Ideal))
    (x14 : (⟨S256x128, .f32⟩ : BufTy).Contents (Elt Ideal))
    (x15 : (⟨S128, .f32⟩ : BufTy).Contents (Elt Ideal))
    (x16 : (⟨S256x256, .f32⟩ : BufTy).Contents (Elt Ideal))
    (x17 : (⟨S256, .f32⟩ : BufTy).Contents (Elt Ideal))
    (x18 : (⟨S256x128, .f32⟩ : BufTy).Contents (Elt Ideal))
    (x19 : (⟨S128, .f32⟩ : BufTy).Contents (Elt Ideal)) :
    val_main_v98 (F := Ideal) x0 x1 x2 x3 x4 x5 x6 x7 x8 x9 x10 x11 x12 x13 x14 x15 x16 x17 x18 x19
      = MeshNet.nodeStage (val_main_v58 (F := Ideal) x0 x1 x2 x3 x4 x5 x6 x7 x8 x9 x10 x11 x12 x13 x14 x15 x16 x17 x18 x19) (val_main_v87 (F := Ideal) x0 x1 x2 x3 x4 x5 x6 x7 x8 x9 x10 x11 x12 x13 x14 x15 x16 x17 x18 x19) x16 x17 x18 x19 :=
  nodeChain_eq (val_main_v58 (F := Ideal) x0 x1 x2 x3 x4 x5 x6 x7 x8 x9 x10 x11 x12 x13 x14 x15 x16 x17 x18 x19) (val_main_v87 (F := Ideal) x0 x1 x2 x3 x4 x5 x6 x7 x8 x9 x10 x11 x12 x13 x14 x15 x16 x17 x18 x19) x16 x17 x18 x19

end Cert.ReferenceIdeal.NetValue

end
-- ==== Proof.RefValue.lean ====
/-
  The reference program's result, as a value: its host operations, read one stage at a time, are the network's stages — each
  perceptron chain (product, bias, rectifier, product, bias, rectifier) is the perceptron of its operands, each chain on a
  concatenation is the edge or the node stage — composed with the gathers, the scatter-adds, the row sums and the final join.
-/
import proofs.«428749_j52252572123266_1_alg».proof.Proof.RefRead
import proofs.«428749_j52252572123266_1_alg».proof.Proof.RefGlue
import proofs.«428749_j52252572123266_1_alg».proof.Proof.RefMlp
import proofs.«428749_j52252572123266_1_alg».proof.Proof.RefEdge
import proofs.«428749_j52252572123266_1_alg».proof.Proof.RefNode

noncomputable section

namespace Cert.ReferenceIdeal.NetValue

open Cert.ReferenceIdeal Cert.ReferenceIdeal.Gen Cert.ReferenceIdeal.ReadP Idealize.ShloMosaic Idealize.ShloMosaic.TcCoe Idealize.ShloMosaic.ValueIdx Idealize.SL.Sem

/-! ## The irregular stages are the irregular operations of their operand stages

Each of these reads one stage's definition: the index arithmetic in front of a gather is the negative-index rule followed by
the column of start indices, a scatter-add starts from the zero matrix, a row sum starts from zero. -/

variable (a : MeshNet.Args)

/-- The first round's sender rows are gathered from the embedded node features. -/
theorem v26_glue : val_main_v26 (F := Ideal) a.nodes a.senders a.Wn1 a.bn1 a.Wn2 a.bn2 = gatherRows (F := Ideal) (val_main_v9 (F := Ideal) a.nodes a.Wn1 a.bn1 a.Wn2 a.bn2) a.senders := rfl

/-- The first round's receiver rows likewise. -/
theorem v33_glue : val_main_v33 (F := Ideal) a.nodes a.receivers a.Wn1 a.bn1 a.Wn2 a.bn2 = gatherRows (F := Ideal) (val_main_v9 (F := Ideal) a.nodes a.Wn1 a.bn1 a.Wn2 a.bn2) a.receivers := rfl

/-- The first aggregation adds the first round's edge rows onto their receivers. -/
theorem v47_glue : val_main_v47 (F := Ideal) a.nodes a.edges a.senders a.receivers a.Wn1 a.bn1 a.Wn2 a.bn2 a.We1 a.be1 a.We2 a.be2 a.Wed1 a.bed1 a.Wed2 a.bed2 = scatterRows (F := Ideal) a.receivers (val_main_v44 (F := Ideal) a.nodes a.edges a.senders a.receivers a.Wn1 a.bn1 a.Wn2 a.bn2 a.We1 a.be1 a.We2 a.be2 a.Wed1 a.bed1 a.Wed2 a.bed2) := rfl

/-- The first pooled vector is the row sums of the first round's node features. -/
theorem v59_glue : val_main_v59 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = rowSums (F := Ideal) (val_main_v58 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) := rfl

/-- The second round's sender rows are gathered from the first round's node features. -/
theorem v66_glue : val_main_v66 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = gatherRows (F := Ideal) (val_main_v58 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) a.senders := rfl

/-- The second round's receiver rows likewise. -/
theorem v73_glue : val_main_v73 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = gatherRows (F := Ideal) (val_main_v58 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) a.receivers := rfl

/-- The second aggregation adds the second round's edge rows onto their receivers. -/
theorem v87_glue : val_main_v87 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = scatterRows (F := Ideal) a.receivers (val_main_v84 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) := rfl

/-- The second pooled vector is the row sums of the second round's node features. -/
theorem v99_glue : val_main_v99 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = rowSums (F := Ideal) (val_main_v98 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) := rfl

/-- The result joins the two pooled vectors. -/
theorem v100_glue : val_main_v100 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = joinVecs (F := Ideal) (val_main_v59 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) (val_main_v99 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2) := rfl

/-! ## The stages are the network's, one after another -/

/-- The embedded node features. -/
theorem v9_net : val_main_v9 (F := Ideal) a.nodes a.Wn1 a.bn1 a.Wn2 a.bn2 = MeshNet.X0 a :=
  val_main_v9_eq a.nodes a.Wn1 a.bn1 a.Wn2 a.bn2

/-- The embedded edge features. -/
theorem v19_net : val_main_v19 (F := Ideal) a.edges a.We1 a.be1 a.We2 a.be2 = MeshNet.E0 a :=
  val_main_v19_eq a.edges a.We1 a.be1 a.We2 a.be2

/-- The edge features after the first round. -/
theorem v44_net : val_main_v44 (F := Ideal) a.nodes a.edges a.senders a.receivers a.Wn1 a.bn1 a.Wn2 a.bn2 a.We1 a.be1 a.We2 a.be2 a.Wed1 a.bed1 a.Wed2 a.bed2 = MeshNet.E1 glue a := by
  rw [val_main_v44_eq, v26_glue, v33_glue, v9_net, v19_net]
  rfl

/-- The node features after the first round. -/
theorem v58_net : val_main_v58 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = MeshNet.X1 glue a := by
  rw [val_main_v58_eq, v47_glue, v9_net, v44_net]
  rfl

/-- The edge features after the second round. -/
theorem v84_net : val_main_v84 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = MeshNet.E2 glue a := by
  rw [val_main_v84_eq, v66_glue, v73_glue, v58_net, v44_net]
  rfl

/-- The node features after the second round. -/
theorem v98_net : val_main_v98 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = MeshNet.X2 glue a := by
  rw [val_main_v98_eq, v87_glue, v58_net, v84_net]
  rfl

/-- The last stage is the network's value. -/
theorem v100_net : val_main_v100 (F := Ideal) a.nodes a.edges a.senders a.receivers a.Wn1 a.bn1 a.Wn2 a.bn2 a.We1 a.be1 a.We2 a.be2 a.Wed1 a.bed1 a.Wed2 a.bed2 a.Wnd1 a.bnd1 a.Wnd2 a.bnd2 = MeshNet.net glue a := by
  rw [v100_glue, v59_glue, v99_glue, v58_net, v98_net]
  rfl

/-- The reference's last stage at the launch contents of the arguments is the network's value at the argument arrays. -/
theorem result_eq (m : (ℓ : Loc nD τ sig) → Buf (Elt Ideal) ℓ) (c : Dev nD) :
    ReadP.val_main_v100 (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15))
      (m ((c.tc : Thread nD τ).loc main_arg16)) (m ((c.tc : Thread nD τ).loc main_arg17)) (m ((c.tc : Thread nD τ).loc main_arg18)) (m ((c.tc : Thread nD τ).loc main_arg19))
      = MeshNet.net glue (args m c) :=
  -- the launch contents of the arguments are the fields of `args m c`
  v100_net (args m c)

end Cert.ReferenceIdeal.NetValue

end
-- ==== Proof.lean ====
/-
  The kernel program and the reference compute the same message-passing network over the extended reals.

  The network: two embedding perceptrons (node rows and edge rows, 128 → 256 → 128 with rectifiers), then twice: an edge stage
  (the perceptron 384 → 256 → 128 on [sender row, receiver row, edge row]), a scatter-add of the new edge rows onto their receiver
  nodes, and a node stage (the perceptron 256 → 256 → 128 on [node row, aggregated row]); the result is the row sums of the node
  features after each round, joined.

  The reference forms the concatenations and multiplies them with the whole first weight matrices. The kernel program never
  forms them: it cuts each first weight matrix into its blocks of 128 rows and adds the partial products, which regroups a sum
  of 384 (or 256) terms into sums of 128 terms — commutativity and associativity of addition only, so no finiteness is used.
  Its dense stages run block by block over 2000 rows at a time; every stage acts row by row, so the blocks assemble to the stage
  of the whole matrices. Its row gathers are guarded takes, which differ from the reference's plain gathers only at an index that
  names no row; the precondition keeps both index vectors inside -20000 … 19999, where the two agree. The scatter-adds, the row
  sums and the final join are the same operations in both programs.

  The precondition's float conjuncts are not used. The ideal pass rewrote nothing, so the preservation claim is trivial.
-/
import proofs.«428749_j52252572123266_1_alg».proof.Defs
import proofs.«428749_j52252572123266_1_alg».proof.Proof.Gen.Kernel
import proofs.«428749_j52252572123266_1_alg».proof.Proof.Gen.Kernel.Frame
import proofs.«428749_j52252572123266_1_alg».proof.Proof.Gen.KernelIdeal
import proofs.«428749_j52252572123266_1_alg».proof.Proof.Gen.KernelIdeal.Frame
import proofs.«428749_j52252572123266_1_alg».proof.Proof.Gen.ReferenceIdeal
import proofs.«428749_j52252572123266_1_alg».proof.Proof.Gen.Pre_finite_inputs
import proofs.«428749_j52252572123266_1_alg».proof.Proof.KernelRun
import proofs.«428749_j52252572123266_1_alg».proof.Proof.ChainB
import proofs.«428749_j52252572123266_1_alg».proof.Proof.PreRange
import proofs.«428749_j52252572123266_1_alg».proof.Proof.RefGlue
import proofs.«428749_j52252572123266_1_alg».proof.Proof.RefRun
import proofs.«428749_j52252572123266_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.NetValue.run_stages (F := Ideal) m ρ)

/-- The two programs print the same irregular operations. -/
theorem glue_eq : Cert.ReferenceIdeal.NetValue.glue = Cert.KernelIdeal.NetValue.glue := rfl

/-- From memories that agree on the arguments both programs end with the network's value at those arguments. -/
theorem algebraic : Cert.algebraic_KernelIdeal_ReferenceIdeal := by
  intro m ρ m' ρ' hpre hagree
  have hr := Cert.KernelIdeal.NetValue.inRange_of_pre m hpre
  refine ⟨fun c => MeshNet.net Cert.KernelIdeal.NetValue.glue (Cert.KernelIdeal.NetValue.args m c), ?_, ?_⟩
  · exact (θ_run Cert.KernelIdeal.defs _ _).mono
      (fun r h c => ⟨(h c).1.trans (Cert.KernelIdeal.NetValue.W15_result m ρ hr c), (h c).2⟩)
      (Cert.KernelIdeal.Gen.run_result m ρ)
  · refine (θ_run Cert.ReferenceIdeal.defs _ _).mono (fun r h c => ⟨(h c).1.trans ?_, (h c).2⟩)
      (Cert.ReferenceIdeal.NetValue.run_stages (F := Ideal) m' ρ')
    have hargs : Cert.ReferenceIdeal.NetValue.args m' c = Cert.KernelIdeal.NetValue.args m c := by
      obtain ⟨e0, e1, e2, e3, e4, e5, e6, e7, e8, e9, e10, e11, e12, e13, e14, e15, e16, e17, e18, e19⟩ := hagree c
      unfold Cert.ReferenceIdeal.NetValue.args Cert.KernelIdeal.NetValue.args
      rw [e0, e1, e2, e3, e4, e5, e6, e7, e8, e9, e10, e11, e12, e13, e14, e15, e16, e17, e18, e19]
    exact (Cert.ReferenceIdeal.NetValue.result_eq m' c).trans (by rw [glue_eq, hargs])

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
